-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S32768 : Shape := ⟨1, ![32768]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : IVec S4096x32 32) (main_arg1 : IVec S32768 32) (main_arg2 : FVec F S100000x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x32 32 := broadcastInDim S4096x32 ![] bcast_S_S4096x32 main_c_0
  let main_v5 : IVec S4096x32 1 := cmpi .sge main_arg0 main_v4
  let main_c_1 : IVec S_ 32 := constantI S_ 32 32768#32
  let main_v6 : IVec S4096x32 32 := broadcastInDim S4096x32 ![] bcast_S_S4096x32 main_c_1
  let main_v7 : IVec S4096x32 1 := cmpi .slt main_arg0 main_v6
  let main_v8 : IVec S4096x32 1 := andi main_v5 main_v7
  let main_c_2 : IVec S_ 1 := constantI S_ 1 1#1
  let main_v9 : IVec S_ 1 := (fun x v => Host.reduce IntOp.andi x v reducesTo_S4096x32_S_d0_1 h_S_) main_v8 main_c_2
  let main_v10 : IVec S_ 1 := andi main_v3 main_v9
  main_v10
-- ==== Kernel.lean ====
abbrev S4096x32 : Shape := ⟨2, ![4096, 32]⟩
abbrev S32768 : Shape := ⟨1, ![32768]⟩
abbrev S100000x128 : Shape := ⟨2, ![100000, 128]⟩
abbrev S_ : Shape := ⟨0, ![]⟩
abbrev S32768x1 : Shape := ⟨2, ![32768, 1]⟩
abbrev S32768x128 : Shape := ⟨2, ![32768, 128]⟩
abbrev S1x32768 : Shape := ⟨2, ![1, 32768]⟩
abbrev S1x128 : Shape := ⟨2, ![1, 128]⟩
abbrev S512x32 : Shape := ⟨2, ![512, 32]⟩
abbrev S512x128 : Shape := ⟨2, ![512, 128]⟩
abbrev S512x1 : Shape := ⟨2, ![512, 1]⟩
abbrev S128 : Shape := ⟨1, ![128]⟩
abbrev S4096x128 : Shape := ⟨2, ![4096, 128]⟩
abbrev S256x32 : Shape := ⟨2, ![256, 32]⟩
abbrev S1x1024 : Shape := ⟨2, ![1, 1024]⟩
abbrev S1024x128 : Shape := ⟨2, ![1024, 128]⟩
abbrev S256x128 : Shape := ⟨2, ![256, 128]⟩
abbrev S256x1 : Shape := ⟨2, ![256, 1]⟩
abbrev S64x32 : Shape := ⟨2, ![64, 32]⟩
abbrev S64x1024 : Shape := ⟨2, ![64, 1024]⟩
abbrev S64x1 : Shape := ⟨2, ![64, 1]⟩
abbrev S64 : Shape := ⟨1, ![64]⟩
abbrev S64x128 : Shape := ⟨2, ![64, 128]⟩

abbrev nBuf : Space → Nat
  | .hbm => 15
  | .vmem => 13
  | .smem => 0
  | _ => 0

abbrev bufTy : (tb : Table) → Fin (tcTables nBuf tb) → BufTy
  | .hbm, ⟨0, _⟩ => ⟨S4096x32, .i32⟩
  | .hbm, ⟨1, _⟩ => ⟨S32768, .i32⟩
  | .hbm, ⟨2, _⟩ => ⟨S100000x128, .f32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S32768x128, .f32⟩
  | .hbm, ⟨12, _⟩ => ⟨S32768x128, .bf16⟩
  | .hbm, ⟨13, _⟩ => ⟨S1x32768, .f32⟩
  | .hbm, ⟨14, _⟩ => ⟨S4096x128, .f32⟩
  | .local _ .vmem, ⟨0, _⟩ => ⟨S4096x32, .i32⟩
  | .local _ .vmem, ⟨1, _⟩ => ⟨S1x128, .f32⟩
  | .local _ .vmem, ⟨2, _⟩ => ⟨S1x128, .f32⟩
  | .local _ .vmem, ⟨3, _⟩ => ⟨S256x32, .i32⟩
  | .local _ .vmem, ⟨4, _⟩ => ⟨S256x32, .i32⟩
  | .local _ .vmem, ⟨5, _⟩ => ⟨S1x1024, .f32⟩
  | .local _ .vmem, ⟨6, _⟩ => ⟨S1x1024, .f32⟩
  | .local _ .vmem, ⟨7, _⟩ => ⟨S1024x128, .bf16⟩
  | .local _ .vmem, ⟨8, _⟩ => ⟨S1024x128, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1, .f32⟩
  | _, _ => ⟨S4096x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c512_i32 : BitVec 32 := 512#32
  let v11 : BitVec 32 := Scalar.muli arg3 c512_i32
  v11
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c512_i32 : BitVec 32 := 512#32
  let v11 : BitVec 32 := Scalar.muli arg3 c512_i32
  let v12 : BitVec 32 := v11
  let v13 : Index := Scalar.indexCast v12
  let c0_3 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 32], ![false, false]⟩

@[reducible] def k1_t1_loop : Scf.Loop 32 :=
  let c0_i32_4 : BitVec 32 := 0#32
  let c4_i32 : BitVec 32 := 4#32
  let v11 : BitVec 32 := Scalar.addi c0_i32_4 c4_i32
  let c1_i32 : BitVec 32 := 1#32
  ⟨c0_i32_4, v11, c1_i32⟩
def k1_mult1 (k1_t1 : Fin k1_t1_loop.trips) : BitVec 32 :=
  let c0_i32_4 : BitVec 32 := 0#32
  let c1_i32 : BitVec 32 := 1#32
  let arg8 : BitVec 32 := Scf.iv c0_i32_4 c1_i32 k1_t1
  let c64_i32 : BitVec 32 := 64#32
  let v15 : BitVec 32 := Scalar.muli arg8 c64_i32
  v15
def k1_off1 (k1_t1 : Fin k1_t1_loop.trips) : Fin 2 → Nat :=
  let c0_i32_4 : BitVec 32 := 0#32
  let c1_i32 : BitVec 32 := 1#32
  let arg8 : BitVec 32 := Scf.iv c0_i32_4 c1_i32 k1_t1
  let c64_i32 : BitVec 32 := 64#32
  let v15 : BitVec 32 := Scalar.muli arg8 c64_i32
  let v16 : BitVec 32 := v15
  let v17 : Index := Scalar.indexCast v16
  let c0_7 : Index := 0#32
  ![v17.toNat, 0]
def k1_off2 (k1_t1 : Fin k1_t1_loop.trips) : Fin 2 → Nat :=
  let c0_i32_4 : BitVec 32 := 0#32
  let c1_i32 : BitVec 32 := 1#32
  let arg8 : BitVec 32 := Scf.iv c0_i32_4 c1_i32 k1_t1
  let c64_i32 : BitVec 32 := 64#32
  let v15 : BitVec 32 := Scalar.muli arg8 c64_i32
  let v16 : BitVec 32 := v15
  let v188 : Index := Scalar.indexCast v16
  let c0_9 : Index := 0#32
  ![v188.toNat, 0]
def k1_off3 (k1_t1 : Fin k1_t1_loop.trips) : Fin 2 → Nat :=
  let c0_i32_4 : BitVec 32 := 0#32
  let c1_i32 : BitVec 32 := 1#32
  let arg8 : BitVec 32 := Scf.iv c0_i32_4 c1_i32 k1_t1
  let c64_i32 : BitVec 32 := 64#32
  let v15 : BitVec 32 := Scalar.muli arg8 c64_i32
  let v16 : BitVec 32 := v15
  let v195 : Index := Scalar.indexCast v16
  let c0_11 : Index := 0#32
  ![v195.toNat, 0]
def k1_cond2 (i : grid1.Coords) : BitVec 1 :=
  let arg1 : BitVec 32 := BitVec.ofNat 32 (i 1).val
  let c31_i32 : BitVec 32 := 31#32
  let v12 : BitVec 1 := Scalar.cmpi .eq arg1 c31_i32
  let v13 : BitVec 32 := Scalar.extui v12
  let c0_i32_6 : BitVec 32 := 0#32
  let v14 : BitVec 1 := Scalar.cmpi .ne v13 c0_i32_6
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x32 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bitsLt_bf16_f32 : FTy.bits .bf16 < FTy.bits .f32
  iota_S1x128_d1_w32 : S1x128.Iotas .tc 32 [1]
  h_S512x32 : 0 < S512x32.numel
  slices_S512x32_o0_0_S512x1 : S512x32.Slices ![0, 0] S512x1
  broadcasts_S512x1_S512x128 : S512x1.Broadcasts S512x128
  broadcasts_S1x128_S512x128 : S1x128.Broadcasts S512x128
  slices_S512x32_o0_1_S512x1 : S512x32.Slices ![0, 1] S512x1
  slices_S512x32_o0_2_S512x1 : S512x32.Slices ![0, 2] S512x1
  slices_S512x32_o0_3_S512x1 : S512x32.Slices ![0, 3] S512x1
  slices_S512x32_o0_4_S512x1 : S512x32.Slices ![0, 4] S512x1
  slices_S512x32_o0_5_S512x1 : S512x32.Slices ![0, 5] S512x1
  slices_S512x32_o0_6_S512x1 : S512x32.Slices ![0, 6] S512x1
  slices_S512x32_o0_7_S512x1 : S512x32.Slices ![0, 7] S512x1
  slices_S512x32_o0_8_S512x1 : S512x32.Slices ![0, 8] S512x1
  slices_S512x32_o0_9_S512x1 : S512x32.Slices ![0, 9] S512x1
  slices_S512x32_o0_10_S512x1 : S512x32.Slices ![0, 10] S512x1
  slices_S512x32_o0_11_S512x1 : S512x32.Slices ![0, 11] S512x1
  slices_S512x32_o0_12_S512x1 : S512x32.Slices ![0, 12] S512x1
  slices_S512x32_o0_13_S512x1 : S512x32.Slices ![0, 13] S512x1
  slices_S512x32_o0_14_S512x1 : S512x32.Slices ![0, 14] S512x1
  slices_S512x32_o0_15_S512x1 : S512x32.Slices ![0, 15] S512x1
  slices_S512x32_o0_16_S512x1 : S512x32.Slices ![0, 16] S512x1
  slices_S512x32_o0_17_S512x1 : S512x32.Slices ![0, 17] S512x1
  slices_S512x32_o0_18_S512x1 : S512x32.Slices ![0, 18] S512x1
  slices_S512x32_o0_19_S512x1 : S512x32.Slices ![0, 19] S512x1
  slices_S512x32_o0_20_S512x1 : S512x32.Slices ![0, 20] S512x1
  slices_S512x32_o0_21_S512x1 : S512x32.Slices ![0, 21] S512x1
  slices_S512x32_o0_22_S512x1 : S512x32.Slices ![0, 22] S512x1
  slices_S512x32_o0_23_S512x1 : S512x32.Slices ![0, 23] S512x1
  slices_S512x32_o0_24_S512x1 : S512x32.Slices ![0, 24] S512x1
  slices_S512x32_o0_25_S512x1 : S512x32.Slices ![0, 25] S512x1
  slices_S512x32_o0_26_S512x1 : S512x32.Slices ![0, 26] S512x1
  slices_S512x32_o0_27_S512x1 : S512x32.Slices ![0, 27] S512x1
  slices_S512x32_o0_28_S512x1 : S512x32.Slices ![0, 28] S512x1
  slices_S512x32_o0_29_S512x1 : S512x32.Slices ![0, 29] S512x1
  slices_S512x32_o0_30_S512x1 : S512x32.Slices ![0, 30] S512x1
  slices_S512x32_o0_31_S512x1 : S512x32.Slices ![0, 31] S512x1
  natLt_1_32 : 1 < 32
  reduces_S512x128_S128 : S512x128.Reduces [0] S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x1024_d1_w32 : S1x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S64x32 : 0 < S64x32.numel
  slices_S64x32_o0_0_S64x1 : S64x32.Slices ![0, 0] S64x1
  broadcasts_S64x1_S64x1024 : S64x1.Broadcasts S64x1024
  broadcasts_S1x1024_S64x1024 : S1x1024.Broadcasts S64x1024
  slices_S64x32_o0_1_S64x1 : S64x32.Slices ![0, 1] S64x1
  slices_S64x32_o0_2_S64x1 : S64x32.Slices ![0, 2] S64x1
  slices_S64x32_o0_3_S64x1 : S64x32.Slices ![0, 3] S64x1
  slices_S64x32_o0_4_S64x1 : S64x32.Slices ![0, 4] S64x1
  slices_S64x32_o0_5_S64x1 : S64x32.Slices ![0, 5] S64x1
  slices_S64x32_o0_6_S64x1 : S64x32.Slices ![0, 6] S64x1
  slices_S64x32_o0_7_S64x1 : S64x32.Slices ![0, 7] S64x1
  slices_S64x32_o0_8_S64x1 : S64x32.Slices ![0, 8] S64x1
  slices_S64x32_o0_9_S64x1 : S64x32.Slices ![0, 9] S64x1
  slices_S64x32_o0_10_S64x1 : S64x32.Slices ![0, 10] S64x1
  slices_S64x32_o0_11_S64x1 : S64x32.Slices ![0, 11] S64x1
  slices_S64x32_o0_12_S64x1 : S64x32.Slices ![0, 12] S64x1
  slices_S64x32_o0_13_S64x1 : S64x32.Slices ![0, 13] S64x1
  slices_S64x32_o0_14_S64x1 : S64x32.Slices ![0, 14] S64x1
  slices_S64x32_o0_15_S64x1 : S64x32.Slices ![0, 15] S64x1
  slices_S64x32_o0_16_S64x1 : S64x32.Slices ![0, 16] S64x1
  slices_S64x32_o0_17_S64x1 : S64x32.Slices ![0, 17] S64x1
  slices_S64x32_o0_18_S64x1 : S64x32.Slices ![0, 18] S64x1
  slices_S64x32_o0_19_S64x1 : S64x32.Slices ![0, 19] S64x1
  slices_S64x32_o0_20_S64x1 : S64x32.Slices ![0, 20] S64x1
  slices_S64x32_o0_21_S64x1 : S64x32.Slices ![0, 21] S64x1
  slices_S64x32_o0_22_S64x1 : S64x32.Slices ![0, 22] S64x1
  slices_S64x32_o0_23_S64x1 : S64x32.Slices ![0, 23] S64x1
  slices_S64x32_o0_24_S64x1 : S64x32.Slices ![0, 24] S64x1
  slices_S64x32_o0_25_S64x1 : S64x32.Slices ![0, 25] S64x1
  slices_S64x32_o0_26_S64x1 : S64x32.Slices ![0, 26] S64x1
  slices_S64x32_o0_27_S64x1 : S64x32.Slices ![0, 27] S64x1
  slices_S64x32_o0_28_S64x1 : S64x32.Slices ![0, 28] S64x1
  slices_S64x32_o0_29_S64x1 : S64x32.Slices ![0, 29] S64x1
  slices_S64x32_o0_30_S64x1 : S64x32.Slices ![0, 30] S64x1
  slices_S64x32_o0_31_S64x1 : S64x32.Slices ![0, 31] S64x1
  reduces_S64x1024_S64 : S64x1024.Reduces [1] S64
  shapeCasts_S64_S64x1 : S64.ShapeCasts S64x1
  h_S64x128 : 0 < S64x128.numel
  shapeCasts_S64x128_S64x128 : S64x128.ShapeCasts S64x128
  h_S64x1 : 0 < S64x1.numel
  shapeCasts_S64x1_S64x1 : S64x1.ShapeCasts S64x1
  broadcasts_S256x1_S256x128 : S256x1.Broadcasts S256x128
  gather_S100000x128_S32768x1_S32768x128_1_0_n_n_0_1_1128_wf : GatherDims.WF S100000x128 S32768x1 S32768x128 [1] [0] [] [0] [] 1 ![1, 128]
  dot_S64x1024_S1024x128_S64x128_1_0_0_1_n_n_wf : DotDims.WF S64x1024 S1024x128 S64x128 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x32.size a ≤ S4096x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S4096x32.size a
  hwx0_0 : ∀ i : grid0.Coords, EltTy.bits .i32 = 32 ∨ (Rect.block (s := S4096x32) S4096x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x32768.size a
  hwx0_1 : ∀ i : grid0.Coords, EltTy.bits .f32 = 32 ∨ (Rect.block (s := S1x32768) S1x128.size (cc0_transform_1 i) (hinb0_1 i)).WholeWords (EltTy.packing .f32)
  hrank1 : 0 < grid1.rank
  k1_t1_ok : k1_t1_loop.OK
  k1_mult1_dvd : ∀ k1_t1 : Fin k1_t1_loop.trips, 64 ∣ (k1_mult1 k1_t1).toNat
  k1_off1_inb : ∀ k1_t1 : Fin k1_t1_loop.trips, ∀ a, (k1_off1 k1_t1) a + S64x32.size a ≤ S256x32.size a
  k1_off2_inb : ∀ k1_t1 : Fin k1_t1_loop.trips, ∀ a, (k1_off2 k1_t1) a + S64x128.size a ≤ S256x128.size a
  k1_off3_inb : ∀ k1_t1 : Fin k1_t1_loop.trips, ∀ a, (k1_off3 k1_t1) a + S64x1.size a ≤ S256x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32.size a ≤ S4096x32.size a
  hwx1_0 : ∀ i : grid1.Coords, EltTy.bits .i32 = 32 ∨ (Rect.block (s := S4096x32) S256x32.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x32768.size a
  hwx1_1 : ∀ i : grid1.Coords, EltTy.bits .f32 = 32 ∨ (Rect.block (s := S1x32768) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S32768x128.size a
  hwx1_2 : ∀ i : grid1.Coords, EltTy.bits .bf16 = 32 ∨ (Rect.block (s := S32768x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S4096x128.size a
  hwx1_3 : ∀ i : grid1.Coords, EltTy.bits .f32 = 32 ∨ (Rect.block (s := S4096x128) S256x128.size (cc1_transform_3 i) (hinb1_3 i)).WholeWords (EltTy.packing .f32)

variable [Facts₀]

def gather_S100000x128_S32768x1_S32768x128_1_0_n_n_0_1_1128 : GatherDims S100000x128 S32768x1 S32768x128 where
  offsetDims := [1]
  collapsedSliceDims := [0]
  operandBatchingDims := []
  startIndicesBatchingDims := []
  startIndexMap := [0]
  indexVectorDim := 1
  sliceSizes := ![1, 128]
  wf := gather_S100000x128_S32768x1_S32768x128_1_0_n_n_0_1_1128_wf
def dot_S64x1024_S1024x128_S64x128_1_0_0_1_n_n : DotDims S64x1024 S1024x128 S64x128 where
  lhsContracting := [1]
  rhsContracting := [0]
  lhsNonContracting := [0]
  rhsNonContracting := [1]
  lhsBatch := []
  rhsBatch := []
  wf := dot_S64x1024_S1024x128_S64x128_1_0_0_1_n_n_wf

abbrev win0_0 : Pipeline.Window sig grid0 :=
  Pipeline.Window.ofSpec (Memref.whole main_arg0) S4096x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x32 : Shape := ⟨2, ![4096, 32]⟩
abbrev S32768 : Shape := ⟨1, ![32768]⟩
abbrev S100000x128 : Shape := ⟨2, ![100000, 128]⟩
abbrev S4096 : Shape := ⟨1, ![4096]⟩
abbrev S4096x1 : Shape := ⟨2, ![4096, 1]⟩
abbrev S_ : Shape := ⟨0, ![]⟩
abbrev S4096x32768 : Shape := ⟨2, ![4096, 32768]⟩
abbrev S4096x32x1 : Shape := ⟨3, ![4096, 32, 1]⟩
abbrev S4096x32x2 : Shape := ⟨3, ![4096, 32, 2]⟩
abbrev S1x32768 : Shape := ⟨2, ![1, 32768]⟩
abbrev S32768x1 : Shape := ⟨2, ![32768, 1]⟩
abbrev S32768x128 : Shape := ⟨2, ![32768, 128]⟩
abbrev S4096x128 : Shape := ⟨2, ![4096, 128]⟩

abbrev nBuf : Space → Nat
  | .hbm => 53
  | .vmem => 0
  | .smem => 0
  | _ => 0

abbrev bufTy : (tb : Table) → Fin (tcTables nBuf tb) → BufTy
  | .hbm, ⟨0, _⟩ => ⟨S4096x32, .i32⟩
  | .hbm, ⟨1, _⟩ => ⟨S32768, .i32⟩
  | .hbm, ⟨2, _⟩ => ⟨S100000x128, .f32⟩
  | .hbm, ⟨3, _⟩ => ⟨S4096, .i32⟩
  | .hbm, ⟨4, _⟩ => ⟨S4096x1, .i32⟩
  | .hbm, ⟨5, _⟩ => ⟨S_, .f32⟩
  | .hbm, ⟨6, _⟩ => ⟨S4096x32768, .f32⟩
  | .hbm, ⟨7, _⟩ => ⟨S_, .i32⟩
  | .hbm, ⟨8, _⟩ => ⟨S4096x1, .i32⟩
  | .hbm, ⟨9, _⟩ => ⟨S4096x1, .i1⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1, .i32⟩
  | .hbm, ⟨14, _⟩ => ⟨S_, .i32⟩
  | .hbm, ⟨15, _⟩ => ⟨S4096x32, .i32⟩
  | .hbm, ⟨16, _⟩ => ⟨S4096x32, .i1⟩
  | .hbm, ⟨17, _⟩ => ⟨S_, .i32⟩
  | .hbm, ⟨18, _⟩ => ⟨S4096x32, .i32⟩
  | .hbm, ⟨19, _⟩ => ⟨S4096x32, .i32⟩
  | .hbm, ⟨20, _⟩ => ⟨S4096x32, .i32⟩
  | .hbm, ⟨21, _⟩ => ⟨S4096x32, .i32⟩
  | .hbm, ⟨22, _⟩ => ⟨S4096x32x1, .i32⟩
  | .hbm, ⟨23, _⟩ => ⟨S4096x32x1, .i32⟩
  | .hbm, ⟨24, _⟩ => ⟨S4096x32x2, .i32⟩
  | .hbm, ⟨25, _⟩ => ⟨S_, .f32⟩
  | .hbm, ⟨26, _⟩ => ⟨S4096x32, .f32⟩
  | .hbm, ⟨27, _⟩ => ⟨S4096x32768, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S32768, .f32⟩
  | .hbm, ⟨34, _⟩ => ⟨S1x32768, .f32⟩
  | .hbm, ⟨35, _⟩ => ⟨S1x32768, .f32⟩
  | .hbm, ⟨36, _⟩ => ⟨S4096x32768, .f32⟩
  | .hbm, ⟨37, _⟩ => ⟨S4096x32768, .f32⟩
  | .hbm, ⟨38, _⟩ => ⟨S_, .f32⟩
  | .hbm, ⟨39, _⟩ => ⟨S1x32768, .f32⟩
  | .hbm, ⟨40, _⟩ => ⟨S1x32768, .f32⟩
  | .hbm, ⟨41, _⟩ => ⟨S4096x32768, .f32⟩
  | .hbm, ⟨42, _⟩ => ⟨S4096x32768, .f32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S32768x128, .f32⟩
  | .hbm, ⟨52, _⟩ => ⟨S4096x128, .f32⟩
  | _, _ => ⟨S4096x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x32768 : S_.BroadcastsInDim S4096x32768 (![] : Fin 0 → Fin S4096x32768.rank)
  bcast_S_S4096x1 : S_.BroadcastsInDim S4096x1 (![] : Fin 0 → Fin S4096x1.rank)
  bcast_S_S4096x32 : S_.BroadcastsInDim S4096x32 (![] : Fin 0 → Fin S4096x32.rank)
  bcast_S4096x1_S4096x32_0_1 : S4096x1.BroadcastsInDim S4096x32 (![0, 1] : Fin 2 → Fin S4096x32.rank)
  bcast_S4096x32_S4096x32x1_0_1 : S4096x32.BroadcastsInDim S4096x32x1 (![0, 1] : Fin 2 → Fin S4096x32x1.rank)
  concatenates_S4096x32x1_S4096x32x1_S4096x32x2_d2 : Shape.Concatenates [S4096x32x1, S4096x32x1] S4096x32x2 2
  reducesTo_S4096x32768_S4096_d1 : S4096x32768.ReducesTo [1] S4096
  h_S_ : 0 < S_.numel
  reducesTo_S4096x32768_S32768_d0 : S4096x32768.ReducesTo [0] S32768
  bcast_S32768_S1x32768_1 : S32768.BroadcastsInDim S1x32768 (![1] : Fin 1 → Fin S1x32768.rank)
  bcast_S4096x1_S4096x32768_0_1 : S4096x1.BroadcastsInDim S4096x32768 (![0, 1] : Fin 2 → Fin S4096x32768.rank)
  bcast_S_S1x32768 : S_.BroadcastsInDim S1x32768 (![] : Fin 0 → Fin S1x32768.rank)
  bcast_S1x32768_S4096x32768_0_1 : S1x32768.BroadcastsInDim S4096x32768 (![0, 1] : Fin 2 → Fin S4096x32768.rank)
  bcast_S_S32768 : S_.BroadcastsInDim S32768 (![] : Fin 0 → Fin S32768.rank)
  bcast_S32768_S32768x1_0 : S32768.BroadcastsInDim S32768x1 (![0] : Fin 1 → Fin S32768x1.rank)
  scatter_S4096x32768_S4096x32x2_S4096x32_n_01_01_2_wf : ScatterDims.WF S4096x32768 S4096x32x2 S4096x32 [] [0, 1] [0, 1] 2
  gather_S100000x128_S32768x1_S32768x128_1_0_n_n_0_1_1128_wf : GatherDims.WF S100000x128 S32768x1 S32768x128 [1] [0] [] [0] [] 1 ![1, 128]
  dot_S4096x32768_S32768x128_S4096x128_1_0_0_1_n_n_wf : DotDims.WF S4096x32768 S32768x128 S4096x128 [1] [0] [0] [1] [] []

variable [Facts₀]

def scatter_S4096x32768_S4096x32x2_S4096x32_n_01_01_2 : ScatterDims S4096x32768 S4096x32x2 S4096x32 where
  updateWindowDims := []
  insertedWindowDims := [0, 1]
  scatterDimsToOperandDims := [0, 1]
  indexVectorDim := 2
  wf := scatter_S4096x32768_S4096x32x2_S4096x32_n_01_01_2_wf
def gather_S100000x128_S32768x1_S32768x128_1_0_n_n_0_1_1128 : GatherDims S100000x128 S32768x1 S32768x128 where
  offsetDims := [1]
  collapsedSliceDims := [0]
  operandBatchingDims := []
  startIndicesBatchingDims := []
  startIndexMap := [0]
  indexVectorDim := 1
  sliceSizes := ![1, 128]
  wf := gather_S100000x128_S32768x1_S32768x128_1_0_n_n_0_1_1128_wf
def dot_S4096x32768_S32768x128_S4096x128_1_0_0_1_n_n : DotDims S4096x32768 S32768x128 S4096x128 where
  lhsContracting := [1]
  rhsContracting := [0]
  lhsNonContracting := [0]
  rhsNonContracting := [1]
  lhsBatch := []
  rhsBatch := []
  wf := dot_S4096x32768_S32768x128_S4096x128_1_0_0_1_n_n_wf

class Facts : Prop extends Facts₀ where

variable [Facts]
-- ==== Proof.K.Run0.lean ====
/-
  The column-norm kernel's body, run once on whole staging buffers.

  The body reads its input buffer (the whole [4096, 32] neighbour table) in eight row chunks inside a counted loop that
  carries a [1, 128] vector of column counts, then stores sqrt of the counts, floored at 1, over the whole [1, 128]
  output buffer.  The run goes through the loop by its invariant; what the output buffer ends with is the run's own
  find, one piece covering the buffer.
-/
import proofs.«426239_j15745350107506_3_alg».proof.Proof.Gen.Kernel.Launch
import proofs.«426239_j15745350107506_3_alg».proof.Proof.Gen.Kernel.Skeleton
import proofs.«426239_j15745350107506_3_alg».proof.Proof.Gen.Kernel.Points
import proofs.«426239_j15745350107506_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the column-norm body's stores leave in its output buffer (last first), with the proof that on whole
    buffers — the input's at contents `x0`, the output's at anything — the body runs to the continuation holding the
    input's as it was and the output's with those pieces written. -/
noncomputable def run0 (c : Dev nD) (i : grid0.Coords) (arg1 : Memref sig .tc .vmem S4096x32 .i32) (harg1 : arg1.IsWhole)
    (arg2 : Memref sig .tc .vmem S1x128 .f32) (harg2 : arg2.IsWhole) (x0 : Vec F S4096x32 .i32) :
    { L1 : List (View.Piece (Elt F) S1x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0
                ∗ (∃ f, arg2.view.loc (c : Thread nD τ) ↦[arg2.view.set]{fullShare} arg2.view.writes (Elt F) f L1)) -∗ K ⟨⟩))
          ⊢ wp frame (wpE (defs₀ (F := F)) Variants.none c none) E (cc0__col_norm_kernel i arg1 harg1 arg2 harg2) K } := by
  refine ⟨?_, fun E K => ?run⟩
  case run =>
    simp only [cc0__col_norm_kernel_eq_skeleton]; unfold cc0__col_norm_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

end Cert.Kernel.Hand

end
-- ==== Proof.K.Dat0.lean ====
/-
  The column-norm region (the first kernel launch): its proof data and body obligation, at entry contents `V`.

  Window 0 is the whole neighbour table, fetched once and kept; window 1 is the [1, 128] slice of the column
  normaliser that point `t` computes, written back at every point.  After the body each input buffer holds its block
  and the output buffer the body's one piece read back.  Nothing is kept between points: the invariant is the class's.
-/
import proofs.«426239_j15745350107506_3_alg».proof.Proof.K.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0_1 : View sig .tc .vmem S1x128 .f32 := (Memref.whole cc0_stg1_0 : Memref sig .tc .vmem S1x128 .f32).view
/-- Each window's current staging memref at point `t`, and its wholeness. -/
abbrev ms0_0 (t : Fin cfg0.N) : Memref sig .tc .vmem S4096x32 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)

/-- The body's pieces for the output buffer tile it (one store of the whole block). -/
theorem cover0_1 (c : Dev nD) (i : grid0.Coords) (arg1 : Memref sig .tc .vmem S4096x32 .i32) (harg1 : arg1.IsWhole)
    (arg2 : Memref sig .tc .vmem S1x128 .f32) (harg2 : arg2.IsWhole) (x0 : Vec F S4096x32 .i32) (y : S1x128.Idx) :
    ∃ pc ∈ (run0 c i arg1 harg1 arg2 harg2 x0).1, y ∈ pc.1.set :=
  View.cover_of_tiledL (run0 c i arg1 harg1 arg2 harg2 x0).1 S1x128.size (by sl_kernel_rfl) y

/-- What the body leaves in the output buffer: its pieces read back. -/
def out0_1 (c : Dev nD) (i : grid0.Coords) (arg1 : Memref sig .tc .vmem S4096x32 .i32) (harg1 : arg1.IsWhole)
    (arg2 : Memref sig .tc .vmem S1x128 .f32) (harg2 : arg2.IsWhole) (x0 : Vec F S4096x32 .i32) : Vec F S1x128 .f32 :=
  VO0_1.read (Elt F) (VO0_1.writes (Elt F) VO0_1.junk (run0 c i arg1 harg1 arg2 harg2 x0).1)

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 c (grid0.coords t) (ms0_0 t) (hs0_0 t) (ms0_1 t) (hs0_1 t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) :
    (dat0 V c).after 1 t = out0_1 c (grid0.coords t) (ms0_0 t) (hs0_0 t) (ms0_1 t) (hs0_1 t) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the run applies; the output's pieces cover its
    buffer, so what it holds is their read-back; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold out0_1
  iintro ⟨HΦ, Ho, ⟨%d0, H0⟩, ⟨%d1, H1⟩⟩
  iapply ((run0 c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Run1.lean ====
/-
  The aggregation kernel's body, run once on whole buffers, in each of the three cases its two conditionals meet over
  the grid: the first column tile of a row block (the accumulators are reset, then the four row chunks are added),
  a middle column tile (the chunks are added onto what the tile before left), and the last column tile (the chunks are
  added and the accumulator, divided by the square root of the row counts, is stored over the output block).

  In every case the run goes through the counted loop over the four 64-row chunks by its invariant; what each buffer
  ends with is the run's own find.
-/
import proofs.«426239_j15745350107506_3_alg».proof.Proof.K.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test, from the grid coordinates: the column-tile coordinate is 0. -/
abbrev cond1_0 (i : grid1.Coords) : Prop :=
  (Scalar.cmpi .ne (Scalar.extui (Scalar.cmpi .eq (BitVec.ofNat 32 (i 1).val) 0#32)) 0#32) = 1#1
/-- The second conditional's test: the column-tile coordinate is the last, 31. -/
abbrev cond1_1 (i : grid1.Coords) : Prop := k1_cond2 i = 1#1

set_option maxHeartbeats 2000000 in
/-- FIRST COLUMN TILE. The input buffers at `x2`, `x3`, `x4`; both accumulators at anything; the output block, which
    the body does not touch here, at `xi5` and handed back as it was. -/
noncomputable def run1_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i)
    (x2 : Vec F S256x32 .i32) (x3 : Vec F S1x1024 .f32) (x4 : Vec F S1024x128 .bf16) :
    Σ' (LS6 : List (View.Piece (Elt F) S256x128 .f32)), { LS7 : List (View.Piece (Elt F) S256x1 .f32) //
      ∀ (xi5 : Vec F S256x128 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare xi5 ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3 ∗ owns (c : Thread nD τ) arg4 fullShare x4
                ∗ owns (c : Thread nD τ) arg5 fullShare xi5
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun xi5 E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf2; obtain rfl := harg3.eq_unread hf3; obtain rfl := harg4.eq_unread hf4
    obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 2000000 in
/-- A MIDDLE COLUMN TILE. The accumulators at what the tile before left, `xs6` and `xs7`; the output block untouched. -/
noncomputable def run1_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i)
    (x2 : Vec F S256x32 .i32) (x3 : Vec F S1x1024 .f32) (x4 : Vec F S1024x128 .bf16) (xs6 : Vec F S256x128 .f32) (xs7 : Vec F S256x1 .f32) :
    Σ' (LS6 : List (View.Piece (Elt F) S256x128 .f32)), { LS7 : List (View.Piece (Elt F) S256x1 .f32) //
      ∀ (xi5 : Vec F S256x128 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare xi5 ∗ owns (c : Thread nD τ) arg6 fullShare xs6 ∗ owns (c : Thread nD τ) arg7 fullShare xs7
            ∗ (iprop(owns (c : Thread nD τ) arg2 fullShare x2 ∗ owns (c : Thread nD τ) arg3 fullShare x3 ∗ owns (c : Thread nD τ) arg4 fullShare x4
                ∗ owns (c : Thread nD τ) arg5 fullShare xi5
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun xi5 E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 2000000 in
/-- THE LAST COLUMN TILE. As a middle tile, then the output block stored whole. -/
noncomputable def run1_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i)
    (x2 : Vec F S256x32 .i32) (x3 : Vec F S1x1024 .f32) (x4 : Vec F S1024x128 .bf16) (xs6 : Vec F S256x128 .f32) (xs7 : Vec F S256x1 .f32) :
    Σ' (L5 : List (View.Piece (Elt F) S256x128 .f32)) (LS6 : List (View.Piece (Elt F) S256x128 .f32)), { LS7 : List (View.Piece (Elt F) S256x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare xs6 ∗ owns (c : Thread nD τ) arg7 fullShare xs7
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, ?_, fun E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.Kernel.Hand

end
-- ==== Proof.K.Dat1.lean ====
/-
  The aggregation region (the second kernel launch): its proof data and body obligation, at entry contents `V`.

  The grid is 16 row blocks by 32 column tiles, the column tile the fast coordinate: point t is row block t / 32,
  column tile t % 32.  Window 0 is the row block's 256 rows of the neighbour table, window 1 the tile's 1024 column
  normalisers, window 2 the tile's 1024 embedding rows, window 3 the row block's 256 output rows, written back only
  after the last column tile.  Two scratch buffers — the [256, 128] accumulator and the [256, 1] row counts — are
  reset at column tile 0 and added to at every tile, so the invariant between points carries them at named contents:
  `outsAt1` says, by recursion on the point, what the output block and the two accumulators hold after each point.
-/
import proofs.«426239_j15745350107506_3_alg».proof.Proof.K.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions over the grid, and where the output window is idle -/

/-- The first condition holds exactly at column tile 0. -/
theorem hcond1_0 : ∀ t : Fin cfg1.N, cond1_0 (grid1.coords t) ↔ t.val % 32 = 0 :=
  (by decide +kernel : ∀ t : Fin grid1.N, cond1_0 (grid1.coords t) ↔ t.val % 32 = 0)
/-- The second condition holds exactly at column tile 31. -/
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last column tile the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column tile it is live. -/
theorem liveAt1_3 : ∀ t : Fin cfg1.N, cond1_1 (grid1.coords t) → cfg1.idle 3 (grid1.coords t) = false := by decide +kernel

/-! ## The staging and scratch memrefs -/

abbrev VO1_3 : View sig .tc .vmem S256x128 .f32 := (Memref.whole cc1_stg3_0 : Memref sig .tc .vmem S256x128 .f32).view
abbrev ms1_0 (t : Fin cfg1.N) : Memref sig .tc .vmem S256x32 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
/-- The accumulator and the row counts: whole scoped buffers of the kernel's own. -/
abbrev scM1_0 : Memref sig .tc .vmem S256x128 .f32 := Memref.whole cc1_scratch0
abbrev scM1_1 : Memref sig .tc .vmem S256x1 .f32 := Memref.whole cc1_scratch1
abbrev VS1_0 : View sig .tc .vmem S256x128 .f32 := scM1_0.view
abbrev VS1_1 : View sig .tc .vmem S256x1 .f32 := scM1_1.view

/-- The class invariant with the two scratch buffers as memrefs owned at some contents (the other scoped buffers, the
    first launch's staging buffers, stay as they are listed). -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## What each case leaves in the accumulators and the output block -/

/-- Column tile 0: the accumulator's pieces hold a store of the whole buffer (the reset), so they cover it. -/
theorem scover6_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec F S256x32 .i32) (x3 : Vec F S1x1024 .f32) (x4 : Vec F S1024x128 .bf16) (y : S256x128.Idx) :
    ∃ pc ∈ (run1_A c i arg2 harg2 arg3 harg3 arg4 harg4 arg5 harg5 arg6 harg6 arg7 harg7 hc0 hc1 x2 x3 x4).1, y ∈ pc.1.set :=
  View.cover_of_tiledBy (run1_A c i arg2 harg2 arg3 harg3 arg4 harg4 arg5 harg5 arg6 harg6 arg7 harg7 hc0 hc1 x2 x3 x4).1 S64x128.size (by sl_kernel_rfl) y
theorem scover7_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec F S256x32 .i32) (x3 : Vec F S1x1024 .f32) (x4 : Vec F S1024x128 .bf16) (y : S256x1.Idx) :
    ∃ pc ∈ (run1_A c i arg2 harg2 arg3 harg3 arg4 harg4 arg5 harg5 arg6 harg6 arg7 harg7 hc0 hc1 x2 x3 x4).2.1, y ∈ pc.1.set :=
  View.cover_of_tiledBy (run1_A c i arg2 harg2 arg3 harg3 arg4 harg4 arg5 harg5 arg6 harg6 arg7 harg7 hc0 hc1 x2 x3 x4).2.1 S64x1.size (by sl_kernel_rfl) y
def s6_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec F S256x32 .i32) (x3 : Vec F S1x1024 .f32) (x4 : Vec F S1024x128 .bf16) : Vec F S256x128 .f32 :=
  VS1_0.read (Elt F) (VS1_0.writes (Elt F) VS1_0.junk (run1_A c i arg2 harg2 arg3 harg3 arg4 harg4 arg5 harg5 arg6 harg6 arg7 harg7 hc0 hc1 x2 x3 x4).1)
def s7_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec F S256x32 .i32) (x3 : Vec F S1x1024 .f32) (x4 : Vec F S1024x128 .bf16) : Vec F S256x1 .f32 :=
  VS1_1.read (Elt F) (VS1_1.writes (Elt F) VS1_1.junk (run1_A c i arg2 harg2 arg3 harg3 arg4 harg4 arg5 harg5 arg6 harg6 arg7 harg7 hc0 hc1 x2 x3 x4).2.1)

/-- A middle column tile: the four row chunks' pieces tile each accumulator. -/
theorem scover6_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec F S256x32 .i32) (x3 : Vec F S1x1024 .f32) (x4 : Vec F S1024x128 .bf16) (xs6 : Vec F S256x128 .f32) (xs7 : Vec F S256x1 .f32) (y : S256x128.Idx) :
    ∃ pc ∈ (run1_B c i arg2 harg2 arg3 harg3 arg4 harg4 arg5 harg5 arg6 harg6 arg7 harg7 hc0 hc1 x2 x3 x4 xs6 xs7).1, y ∈ pc.1.set :=
  View.cover_of_tiledL (run1_B c i arg2 harg2 arg3 harg3 arg4 harg4 arg5 harg5 arg6 harg6 arg7 harg7 hc0 hc1 x2 x3 x4 xs6 xs7).1 S64x128.size (by sl_kernel_rfl) y
theorem scover7_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec F S256x32 .i32) (x3 : Vec F S1x1024 .f32) (x4 : Vec F S1024x128 .bf16) (xs6 : Vec F S256x128 .f32) (xs7 : Vec F S256x1 .f32) (y : S256x1.Idx) :
    ∃ pc ∈ (run1_B c i arg2 harg2 arg3 harg3 arg4 harg4 arg5 harg5 arg6 harg6 arg7 harg7 hc0 hc1 x2 x3 x4 xs6 xs7).2.1, y ∈ pc.1.set :=
  View.cover_of_tiledL (run1_B c i arg2 harg2 arg3 harg3 arg4 harg4 arg5 harg5 arg6 harg6 arg7 harg7 hc0 hc1 x2 x3 x4 xs6 xs7).2.1 S64x1.size (by sl_kernel_rfl) y
def s6_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec F S256x32 .i32) (x3 : Vec F S1x1024 .f32) (x4 : Vec F S1024x128 .bf16) (xs6 : Vec F S256x128 .f32) (xs7 : Vec F S256x1 .f32) : Vec F S256x128 .f32 :=
  VS1_0.read (Elt F) (VS1_0.writes (Elt F) VS1_0.junk (run1_B c i arg2 harg2 arg3 harg3 arg4 harg4 arg5 harg5 arg6 harg6 arg7 harg7 hc0 hc1 x2 x3 x4 xs6 xs7).1)
def s7_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec F S256x32 .i32) (x3 : Vec F S1x1024 .f32) (x4 : Vec F S1024x128 .bf16) (xs6 : Vec F S256x128 .f32) (xs7 : Vec F S256x1 .f32) : Vec F S256x1 .f32 :=
  VS1_1.read (Elt F) (VS1_1.writes (Elt F) VS1_1.junk (run1_B c i arg2 harg2 arg3 harg3 arg4 harg4 arg5 harg5 arg6 harg6 arg7 harg7 hc0 hc1 x2 x3 x4 xs6 xs7).2.1)

/-- The last column tile: the same for the accumulators, and one store of the whole output block. -/
theorem cover5_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) (y : S256x128.Idx) :
    ∃ pc ∈ (run1_C c i arg2 harg2 arg3 harg3 arg4 harg4 arg5 harg5 arg6 harg6 arg7 harg7 hc0 hc1 x2 x3 x4 xs6 xs7).1, y ∈ pc.1.set :=
  View.cover_of_tiledL (run1_C c i arg2 harg2 arg3 harg3 arg4 harg4 arg5 harg5 arg6 harg6 arg7 harg7 hc0 hc1 x2 x3 x4 xs6 xs7).1 S256x128.size (by sl_kernel_rfl) y
theorem scover6_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) (y : S256x128.Idx) :
    ∃ pc ∈ (run1_C c i arg2 harg2 arg3 harg3 arg4 harg4 arg5 harg5 arg6 harg6 arg7 harg7 hc0 hc1 x2 x3 x4 xs6 xs7).2.1, y ∈ pc.1.set :=
  View.cover_of_tiledL (run1_C c i arg2 harg2 arg3 harg3 arg4 harg4 arg5 harg5 arg6 harg6 arg7 harg7 hc0 hc1 x2 x3 x4 xs6 xs7).2.1 S64x128.size (by sl_kernel_rfl) y
theorem scover7_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) (y : S256x1.Idx) :
    ∃ pc ∈ (run1_C c i arg2 harg2 arg3 harg3 arg4 harg4 arg5 harg5 arg6 harg6 arg7 harg7 hc0 hc1 x2 x3 x4 xs6 xs7).2.2.1, y ∈ pc.1.set :=
  View.cover_of_tiledL (run1_C c i arg2 harg2 arg3 harg3 arg4 harg4 arg5 harg5 arg6 harg6 arg7 harg7 hc0 hc1 x2 x3 x4 xs6 xs7).2.2.1 S64x1.size (by sl_kernel_rfl) y
def o5_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) : Vec F S256x128 .f32 :=
  VO1_3.read (Elt F) (VO1_3.writes (Elt F) VO1_3.junk (run1_C c i arg2 harg2 arg3 harg3 arg4 harg4 arg5 harg5 arg6 harg6 arg7 harg7 hc0 hc1 x2 x3 x4 xs6 xs7).1)
def s6_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) : Vec F S256x128 .f32 :=
  VS1_0.read (Elt F) (VS1_0.writes (Elt F) VS1_0.junk (run1_C c i arg2 harg2 arg3 harg3 arg4 harg4 arg5 harg5 arg6 harg6 arg7 harg7 hc0 hc1 x2 x3 x4 xs6 xs7).2.1)
def s7_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) : Vec F S256x1 .f32 :=
  VS1_1.read (Elt F) (VS1_1.writes (Elt F) VS1_1.junk (run1_C c i arg2 harg2 arg3 harg3 arg4 harg4 arg5 harg5 arg6 harg6 arg7 harg7 hc0 hc1 x2 x3 x4 xs6 xs7).2.2.1)

/-- The output block's component at a point that stores nothing into it: a placeholder nothing consults (the window
    is idle there and its block is not written back). -/
def o5_idle : Vec F S256x128 .f32 := VO1_3.read (Elt F) VO1_3.junk

/-! ## What the output block and the accumulators hold after each point -/

/-- After the body at position `n`: (the output block, the accumulator, the row counts). The case is the one the
    closed forms select at `n`; a case that adds onto the accumulators takes them at what position `n - 1` left. -/
def outsAt1 (c : Dev nD) : (n : ℕ) → n < cfg1.N → Vec F S256x128 .f32 × Vec F S256x128 .f32 × Vec F S256x1 .f32
  | 0, hn =>
    have h0 : (0 : ℕ) % 32 = 0 := Nat.zero_mod _
    have h1 : ¬(0 : ℕ) % 32 = 31 := by omega
    (o5_idle, s6_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩),
      s7_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩))
  | n + 1, hn =>
    if h0 : (n + 1) % 32 = 0 then
      have h1 : ¬(n + 1) % 32 = 31 := by omega
      (o5_idle, s6_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        s7_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 32 = 31 then
        (o5_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
          s6_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
          s7_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (o5_idle, s6_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
          s7_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at column tile 0: the reset case's contents. -/
theorem outsAt1_A (c : Dev nD) (t : Fin cfg1.N) (h0 : t.val % 32 = 0) (h1 : ¬t.val % 32 = 31) :
    outsAt1 V c t.val t.isLt = (o5_idle, s6_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t),
      s7_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at a middle column tile: that case's contents, over what the point before left. -/
theorem outsAt1_B (c : Dev nD) (t : Fin cfg1.N) (h0 : ¬t.val % 32 = 0) (h1 : ¬t.val % 32 = 31) :
    outsAt1 V c t.val t.isLt = (o5_idle, s6_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      s7_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last column tile: that case's contents, over what the point before left. -/
theorem outsAt1_C (c : Dev nD) (t : Fin cfg1.N) (h0 : ¬t.val % 32 = 0) (h1 : t.val % 32 = 31) :
    outsAt1 V c t.val t.isLt = (o5_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      s6_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      s7_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the class's invariant (the accumulators at anything); afterwards the
    scoped rest with each accumulator at what the point before left, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.Kernel.Hand

end
-- ==== Proof.K.Obl1.lean ====
/-
  The aggregation region's body obligation: at every grid point the body, called on the windows' current buffers and
  the invariant, runs to the next point's invariant and to each buffer at what the proof data say it leaves.
-/
import proofs.«426239_j15745350107506_3_alg».proof.Proof.K.Dat1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the column tile says which case the point is in.
    At column tile 0 the accumulators are handed over at anything (the first point: from the class invariant; a later
    row block's first tile: the previous block's contents forgotten) and come back at the reset case's contents; at
    the other tiles they are handed over at what the point before left. Off the last tile the output block's buffer
    is handed back as found; at the last tile it comes back at the one whole store's read-back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 512 := lt_of_lt_of_eq t.isLt (show cfg1.N = 512 from N_1)
  by_cases h0 : t.val % 32 = 0
  · have h1 : ¬t.val % 32 = 31 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold s6_A s7_A; (try dsimp only)
    by_cases hz : t.val = 0
    · rw [PhiS1_castSucc V c t, PhiS1_zero V c _ _ hz, PhiA1_eq]
      iintro ⟨⟨⟨Ha, Hb, Hc, HS6, HS7⟩, Hg⟩, Ho, ⟨%d0, H0⟩, ⟨%d1, H1⟩, ⟨%d2, H2⟩, ⟨%d3, H3⟩⟩
      iapply ((run1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, ⟨%e6, HS6⟩, ⟨%e7, HS7⟩⟩
      isplitl [Ha Hb Hc HS6 HS7 Hg]
      · isplitl [Ha Hb Hc HS6 HS7]
        · isplitl [Ha]; · iexact Ha
          isplitl [Hb]; · iexact Hb
          isplitl [Hc]; · iexact Hc
          isplitl [HS6]
          · unfold owns; iexists _; isplitr
            swap; · iexact HS6
            ipureintro; exact View.read_writes_of_cover _ _ _ _ _ (scover6_A c _ _ _ _ _ _ _ _ _ _ _ _ _ _ _ _ _ _)
          unfold owns; iexists _; isplitr
          swap; · iexact HS7
          ipureintro; exact View.read_writes_of_cover _ _ _ _ _ (scover7_A c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha, Hb, Hc, HS6, HS7⟩, Hg⟩, Ho, ⟨%d0, H0⟩, ⟨%d1, H1⟩, ⟨%d2, H2⟩, ⟨%d3, H3⟩⟩
      iapply ((run1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS6]; · iexists _; iexact HS6
      isplitl [HS7]; · iexists _; iexact HS7
      iintro ⟨H0, H1, H2, H3, ⟨%e6, HS6⟩, ⟨%e7, HS7⟩⟩
      isplitl [Ha Hb Hc HS6 HS7 Hg]
      · isplitl [Ha Hb Hc HS6 HS7]
        · isplitl [Ha]; · iexact Ha
          isplitl [Hb]; · iexact Hb
          isplitl [Hc]; · iexact Hc
          isplitl [HS6]
          · unfold owns; iexists _; isplitr
            swap; · iexact HS6
            ipureintro; exact View.read_writes_of_cover _ _ _ _ _ (scover6_A c _ _ _ _ _ _ _ _ _ _ _ _ _ _ _ _ _ _)
          unfold owns; iexists _; isplitr
          swap; · iexact HS7
          ipureintro; exact View.read_writes_of_cover _ _ _ _ _ (scover7_A c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 32 = 31
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold o5_C s6_C s7_C; (try dsimp only)
      rw [PhiS1_castSucc V c t, PhiS1_pos V c _ _ hz]
      iintro ⟨⟨⟨Ha, Hb, Hc, HS6, HS7⟩, Hg⟩, Ho, ⟨%d0, H0⟩, ⟨%d1, H1⟩, ⟨%d2, H2⟩, ⟨%d3, H3⟩⟩
      iapply ((run1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS6]; · iexact HS6
      isplitl [HS7]; · iexact HS7
      iintro ⟨H0, H1, H2, ⟨%e5, H3⟩, ⟨%e6, HS6⟩, ⟨%e7, HS7⟩⟩
      isplitl [Ha Hb Hc HS6 HS7 Hg]
      · isplitl [Ha Hb Hc HS6 HS7]
        · isplitl [Ha]; · iexact Ha
          isplitl [Hb]; · iexact Hb
          isplitl [Hc]; · iexact Hc
          isplitl [HS6]
          · unfold owns; iexists _; isplitr
            swap; · iexact HS6
            ipureintro; exact View.read_writes_of_cover _ _ _ _ _ (scover6_C c _ _ _ _ _ _ _ _ _ _ _ _ _ _ _ _ _ _ _ _)
          unfold owns; iexists _; isplitr
          swap; · iexact HS7
          ipureintro; exact View.read_writes_of_cover _ _ _ _ _ (scover7_C c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C c _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold s6_B s7_B; (try dsimp only)
      rw [PhiS1_castSucc V c t, PhiS1_pos V c _ _ hz]
      iintro ⟨⟨⟨Ha, Hb, Hc, HS6, HS7⟩, Hg⟩, Ho, ⟨%d0, H0⟩, ⟨%d1, H1⟩, ⟨%d2, H2⟩, ⟨%d3, H3⟩⟩
      iapply ((run1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, ⟨%e6, HS6⟩, ⟨%e7, HS7⟩⟩
      isplitl [Ha Hb Hc HS6 HS7 Hg]
      · isplitl [Ha Hb Hc HS6 HS7]
        · isplitl [Ha]; · iexact Ha
          isplitl [Hb]; · iexact Hb
          isplitl [Hc]; · iexact Hc
          isplitl [HS6]
          · unfold owns; iexists _; isplitr
            swap; · iexact HS6
            ipureintro; exact View.read_writes_of_cover _ _ _ _ _ (scover6_B c _ _ _ _ _ _ _ _ _ _ _ _ _ _ _ _ _ _ _ _)
          unfold owns; iexists _; isplitr
          swap; · iexact HS7
          ipureintro; exact View.read_writes_of_cover _ _ _ _ _ (scover7_B c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, HS6, HS7⟩, Hg⟩
  isplitl [Ha Hb Hc HS6 HS7]
  · isplitl [Ha]; · iexact Ha
    isplitl [Hb]; · iexact Hb
    isplitl [Hc]; · iexact Hc
    isplitl [HS6]; · iexists _; iexact HS6
    iexists _; iexact HS7
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end

end Cert.Kernel.Hand

end
-- ==== Proof.K.Segs.lean ====
/-
  The program as segments: the host stretch, then the two kernel regions, each entered from every unscoped buffer at
  the contents the segment before left, and left with its arrays at what its pipeline computes.

  The contents after the first region are the contents before it with the column normaliser's array at what the
  region's write-backs leave (`W2`); after the second, those with the result array at what its write-backs leave
  (`W3`).  Between segments the core's generator register rides along at some state and the core owes nothing.
  The frame claim follows from the generated conditional frame, which asks exactly for the two regions' records.
-/
import proofs.«426239_j15745350107506_3_alg».proof.Proof.K.Dat0
import proofs.«426239_j15745350107506_3_alg».proof.Proof.K.Obl1
import proofs.«426239_j15745350107506_3_alg».proof.Proof.Gen.Kernel.Regions
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each region's entry and exit -/

/-- The contents the first region is entered from: the launch memory after the host stretch. -/
abbrev E1 : (c : Dev nD) → (b : Ref sig .tc) → Buf (Elt F) ((c : Thread nD τ).loc b) := fun c b => V1 m c b
/-- The first region's proof data. -/
abbrev d0 (c : Dev nD) : Dat τ (Elt F) Unit ℕ (UR sig nD τ) ℕ cfg0 c := dat0 (E1 m) c
/-- After the first region: its arrays at what its pipeline leaves, every other buffer as entered. -/
def W2 (c : Dev nD) : Valuation τ sig (Elt F) :=
  Pipeline.withArrays spec0 c (V1 m c) fun w => (d0 m c).arrAt w cfg0.N
/-- What the first region leaves, as the unknowns the generated valuations are written over. -/
def outsA : Outs (F := F) := fun _ r c => W2 m c r
/-- The contents the second region is entered from. -/
abbrev E2 : (c : Dev nD) → (b : Ref sig .tc) → Buf (Elt F) ((c : Thread nD τ).loc b) := fun c b => V2 m (outsA m) c b
/-- The second region's proof data. -/
abbrev d1 (c : Dev nD) : Dat τ (Elt F) Unit ℕ (UR sig nD τ) ℕ cfg1 c := dat1 (E2 m) c
/-- After the second region. -/
def W3 (c : Dev nD) : Valuation τ sig (Elt F) :=
  Pipeline.withArrays spec1 c (V2 m (outsA m) c) fun w => (d1 m c).arrAt w cfg1.N
/-- What both regions leave. -/
def outs : Outs (F := F) := fun J r c => if J = 2 then W2 m c r else W3 m c r

theorem outs_two (r : Ref sig .tc) (c : Dev nD) : outs m 2 r c = W2 m c r := if_pos rfl
theorem outs_three (r : Ref sig .tc) (c : Dev nD) : outs m 3 r c = W3 m c r := if_neg (by decide)

/-- The valuation after the first region does not depend on what the second leaves. -/
theorem V2_outs (c : Dev nD) : V2 m (outs m) c = V2 m (outsA m) c := by
  unfold V2
  rw [outs_two]; rfl

/-- The contents after the first region, read at the TensorCore's references. -/
abbrev E2o : (c : Dev nD) → (b : Ref sig .tc) → Buf (Elt F) ((c : Thread nD τ).loc b) := fun c b => V2 m (outs m) c b
/-- The contents after the second region. -/
abbrev E3 : (c : Dev nD) → (b : Ref sig .tc) → Buf (Elt F) ((c : Thread nD τ).loc b) := fun c b => V3 m (outs m) c b

/-- What the first region leaves in the column normaliser's array. -/
theorem V2_main_v8 (c : Dev nD) : V2 m (outs m) c main_v8 = (d0 m c).arrAt 1 cfg0.N := by
  unfold V2
  rw [Function.update_self, outs_two]
  exact Pipeline.withArrays_arr spec0 launch0.win.arr_inj c _ _ 1

/-- What the second region leaves in the result array. -/
theorem V3_main_v9 (c : Dev nD) : V3 m (outs m) c main_v9 = (d1 m c).arrAt 3 cfg1.N := by
  unfold V3
  rw [Function.update_self, outs_three]
  exact Pipeline.withArrays_arr spec1 launch1.win.arr_inj c _ _ 3

/-- At the first region's exit each of its arrays holds what its pipeline leaves, -/
theorem hF0 (c : Dev nD) (w : Fin cfg0.W) : (d0 m c).arrAt w cfg0.N = E2o m c (Pipeline.arrRef spec0 w) := by
  match w with
  | ⟨0, _⟩ => exact ((d0 m c).arrAt_in 0 rfl _).trans ((A_eq0 (E1 m) c 0).trans (V2_of m (outs m) c main_arg0 (by decide)).symm)
  | ⟨1, _⟩ => exact (V2_main_v8 m c).symm
/-- and every other buffer what it held at entry. -/
theorem hrest0 (c : Dev nD) : ∀ b, b ∉ Finset.univ.image (Pipeline.arrRef spec0) → E2o m c b = E1 m c b := fun b hb =>
  V2_of m (outs m) c b (fun h => hb (Finset.mem_image.mpr ⟨1, Finset.mem_univ _, (List.mem_singleton.mp h).symm⟩))

/-- At the second region's exit each of its arrays holds what its pipeline leaves, -/
theorem hF1 (c : Dev nD) (w : Fin cfg1.W) : (d1 m c).arrAt w cfg1.N = E3 m c (Pipeline.arrRef spec1 w) := by
  match w with
  | ⟨0, _⟩ => exact ((d1 m c).arrAt_in 0 rfl _).trans ((A_eq1 (E2 m) c 0).trans ((congrFun (V2_outs m c) _).symm.trans (V3_of m (outs m) c main_arg0 (by decide)).symm))
  | ⟨1, _⟩ => exact ((d1 m c).arrAt_in 1 rfl _).trans ((A_eq1 (E2 m) c 1).trans ((congrFun (V2_outs m c) _).symm.trans (V3_of m (outs m) c main_v8 (by decide)).symm))
  | ⟨2, _⟩ => exact ((d1 m c).arrAt_in 2 rfl _).trans ((A_eq1 (E2 m) c 2).trans ((congrFun (V2_outs m c) _).symm.trans (V3_of m (outs m) c main_v7 (by decide)).symm))
  | ⟨3, _⟩ => exact (V3_main_v9 m c).symm
/-- and every other buffer what it held at entry. -/
theorem hrest1 (c : Dev nD) : ∀ b, b ∉ Finset.univ.image (Pipeline.arrRef spec1) → E3 m c b = E2 m c b := fun b hb =>
  (V3_of m (outs m) c b (fun h => hb (Finset.mem_image.mpr ⟨3, Finset.mem_univ _, (List.mem_singleton.mp h).symm⟩))).trans
    (congrFun (V2_outs m c) _)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- THE FIRST REGION: entered from every unscoped buffer at the contents after the host stretch, left with the column
    normaliser's array at what the write-backs leave. Its arrays are split out of the unscoped buffers and put back at
    the exit contents; the generator register goes into the class invariant and comes out. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2o m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION: entered from what the first left, left with the result array at what the write-backs leave.
    The two accumulators are scoped buffers of the kernel's own: they reach the invariant inside the class invariant's
    scoped rest and are given back the same way. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, V2_outs]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch element: the pipeline library's, at every pipeline's staging cells. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu
  imodintro
  isplitl [Hu]; · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

/-- The launch makes the first thread state's rest on every core: the generator register, nothing owed. -/
theorem hE0 (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, at any `F`: every weakly fair execution of @main from `m` with zero counters terminates, nothing
    faulting, and every final memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (m := m) (EP := emb₁) (ι := ()) (𝒱₀ := Variants.none) (L := L) (lv := lv) (hL := fun _ _ => rfl) (ρ := ρ) (outs := outs m)
    (pdats := pdats m) (O₀ := fun _ => 0) (G := fun _ => (BI.emp : sProp 𝕄)) (u₀ := u₀) (hu₀ := hu₀)
    (E := fun _ c => R c) (hE0 := hE0 ρ) (hE2 := fun c => by iintro ⟨-, H⟩; iexact H)
    (R0 := reg0 m) (hpre0 := fun _ => .rfl) (hpost0 := fun _ => .rfl)
    (R1 := reg1 m) (hpre1 := fun _ => .rfl) (hpost1 := fun _ => .rfl)

end Cert.Kernel.Hand

end
-- ==== Proof.KI.Run0.lean ====
/-
  The column-norm kernel's body, run once on whole staging buffers.

  The body reads its input buffer (the whole [4096, 32] neighbour table) in eight row chunks inside a counted loop that
  carries a [1, 128] vector of column counts, then stores sqrt of the counts, floored at 1, over the whole [1, 128]
  output buffer.  The run goes through the loop by its invariant; what the output buffer ends with is the run's own
  find, one piece covering the buffer.
-/
import proofs.«426239_j15745350107506_3_alg».proof.Proof.Gen.KernelIdeal.Launch
import proofs.«426239_j15745350107506_3_alg».proof.Proof.Gen.KernelIdeal.Skeleton
import proofs.«426239_j15745350107506_3_alg».proof.Proof.Gen.KernelIdeal.Points
import proofs.«426239_j15745350107506_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the column-norm body's stores leave in its output buffer (last first), with the proof that on whole
    buffers — the input's at contents `x0`, the output's at anything — the body runs to the continuation holding the
    input's as it was and the output's with those pieces written. -/
noncomputable def run0 (c : Dev nD) (i : grid0.Coords) (arg1 : Memref sig .tc .vmem S4096x32 .i32) (harg1 : arg1.IsWhole)
    (arg2 : Memref sig .tc .vmem S1x128 .f32) (harg2 : arg2.IsWhole) (x0 : Vec F S4096x32 .i32) :
    { L1 : List (View.Piece (Elt F) S1x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0
                ∗ (∃ f, arg2.view.loc (c : Thread nD τ) ↦[arg2.view.set]{fullShare} arg2.view.writes (Elt F) f L1)) -∗ K ⟨⟩))
          ⊢ wp frame (wpE (defs₀ (F := F)) Variants.none c none) E (cc0__col_norm_kernel i arg1 harg1 arg2 harg2) K } := by
  refine ⟨?_, fun E K => ?run⟩
  case run =>
    simp only [cc0__col_norm_kernel_eq_skeleton]; unfold cc0__col_norm_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

end Cert.KernelIdeal.Hand

end
-- ==== Proof.KI.Dat0.lean ====
/-
  The column-norm region (the first kernel launch): its proof data and body obligation, at entry contents `V`.

  Window 0 is the whole neighbour table, fetched once and kept; window 1 is the [1, 128] slice of the column
  normaliser that point `t` computes, written back at every point.  After the body each input buffer holds its block
  and the output buffer the body's one piece read back.  Nothing is kept between points: the invariant is the class's.
-/
import proofs.«426239_j15745350107506_3_alg».proof.Proof.KI.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0_1 : View sig .tc .vmem S1x128 .f32 := (Memref.whole cc0_stg1_0 : Memref sig .tc .vmem S1x128 .f32).view
/-- Each window's current staging memref at point `t`, and its wholeness. -/
abbrev ms0_0 (t : Fin cfg0.N) : Memref sig .tc .vmem S4096x32 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)

/-- The body's pieces for the output buffer tile it (one store of the whole block). -/
theorem cover0_1 (c : Dev nD) (i : grid0.Coords) (arg1 : Memref sig .tc .vmem S4096x32 .i32) (harg1 : arg1.IsWhole)
    (arg2 : Memref sig .tc .vmem S1x128 .f32) (harg2 : arg2.IsWhole) (x0 : Vec F S4096x32 .i32) (y : S1x128.Idx) :
    ∃ pc ∈ (run0 c i arg1 harg1 arg2 harg2 x0).1, y ∈ pc.1.set :=
  View.cover_of_tiledL (run0 c i arg1 harg1 arg2 harg2 x0).1 S1x128.size (by sl_kernel_rfl) y

/-- What the body leaves in the output buffer: its pieces read back. -/
def out0_1 (c : Dev nD) (i : grid0.Coords) (arg1 : Memref sig .tc .vmem S4096x32 .i32) (harg1 : arg1.IsWhole)
    (arg2 : Memref sig .tc .vmem S1x128 .f32) (harg2 : arg2.IsWhole) (x0 : Vec F S4096x32 .i32) : Vec F S1x128 .f32 :=
  VO0_1.read (Elt F) (VO0_1.writes (Elt F) VO0_1.junk (run0 c i arg1 harg1 arg2 harg2 x0).1)

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 c (grid0.coords t) (ms0_0 t) (hs0_0 t) (ms0_1 t) (hs0_1 t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) :
    (dat0 V c).after 1 t = out0_1 c (grid0.coords t) (ms0_0 t) (hs0_0 t) (ms0_1 t) (hs0_1 t) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the run applies; the output's pieces cover its
    buffer, so what it holds is their read-back; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold out0_1
  iintro ⟨HΦ, Ho, ⟨%d0, H0⟩, ⟨%d1, H1⟩⟩
  iapply ((run0 c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_1 c _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Run1.lean ====
/-
  The aggregation kernel's body, run once on whole buffers, in each of the three cases its two conditionals meet over
  the grid: the first column tile of a row block (the accumulators are reset, then the four row chunks are added),
  a middle column tile (the chunks are added onto what the tile before left), and the last column tile (the chunks are
  added and the accumulator, divided by the square root of the row counts, is stored over the output block).

  In every case the run goes through the counted loop over the four 64-row chunks by its invariant; what each buffer
  ends with is the run's own find.
-/
import proofs.«426239_j15745350107506_3_alg».proof.Proof.KI.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test, from the grid coordinates: the column-tile coordinate is 0. -/
abbrev cond1_0 (i : grid1.Coords) : Prop :=
  (Scalar.cmpi .ne (Scalar.extui (Scalar.cmpi .eq (BitVec.ofNat 32 (i 1).val) 0#32)) 0#32) = 1#1
/-- The second conditional's test: the column-tile coordinate is the last, 31. -/
abbrev cond1_1 (i : grid1.Coords) : Prop := k1_cond2 i = 1#1

set_option maxHeartbeats 2000000 in
/-- FIRST COLUMN TILE. The input buffers at `x2`, `x3`, `x4`; both accumulators at anything; the output block, which
    the body does not touch here, at `xi5` and handed back as it was. -/
noncomputable def run1_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i)
    (x2 : Vec F S256x32 .i32) (x3 : Vec F S1x1024 .f32) (x4 : Vec F S1024x128 .bf16) :
    Σ' (LS6 : List (View.Piece (Elt F) S256x128 .f32)), { LS7 : List (View.Piece (Elt F) S256x1 .f32) //
      ∀ (xi5 : Vec F S256x128 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare xi5 ∗ (∃ d, owns (c : Thread nD τ) arg6 fullShare d) ∗ (∃ d, owns (c : Thread nD τ) arg7 fullShare d)
            ∗ (iprop(owns (c : Thread nD τ) arg2 fullShare x2 ∗ owns (c : Thread nD τ) arg3 fullShare x3 ∗ owns (c : Thread nD τ) arg4 fullShare x4
                ∗ owns (c : Thread nD τ) arg5 fullShare xi5
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun xi5 E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf2; obtain rfl := harg3.eq_unread hf3; obtain rfl := harg4.eq_unread hf4
    obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 2000000 in
/-- A MIDDLE COLUMN TILE. The accumulators at what the tile before left, `xs6` and `xs7`; the output block untouched. -/
noncomputable def run1_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i)
    (x2 : Vec F S256x32 .i32) (x3 : Vec F S1x1024 .f32) (x4 : Vec F S1024x128 .bf16) (xs6 : Vec F S256x128 .f32) (xs7 : Vec F S256x1 .f32) :
    Σ' (LS6 : List (View.Piece (Elt F) S256x128 .f32)), { LS7 : List (View.Piece (Elt F) S256x1 .f32) //
      ∀ (xi5 : Vec F S256x128 .f32) (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare xi5 ∗ owns (c : Thread nD τ) arg6 fullShare xs6 ∗ owns (c : Thread nD τ) arg7 fullShare xs7
            ∗ (iprop(owns (c : Thread nD τ) arg2 fullShare x2 ∗ owns (c : Thread nD τ) arg3 fullShare x3 ∗ owns (c : Thread nD τ) arg4 fullShare x4
                ∗ owns (c : Thread nD τ) arg5 fullShare xi5
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, fun xi5 E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3; obtain rfl := harg4.eq_unread hf4
    obtain rfl := harg5.eq_unread hf5
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 2000000 in
/-- THE LAST COLUMN TILE. As a middle tile, then the output block stored whole. -/
noncomputable def run1_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i)
    (x2 : Vec F S256x32 .i32) (x3 : Vec F S1x1024 .f32) (x4 : Vec F S1024x128 .bf16) (xs6 : Vec F S256x128 .f32) (xs7 : Vec F S256x1 .f32) :
    Σ' (L5 : List (View.Piece (Elt F) S256x128 .f32)) (LS6 : List (View.Piece (Elt F) S256x128 .f32)), { LS7 : List (View.Piece (Elt F) S256x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare xs6 ∗ owns (c : Thread nD τ) arg7 fullShare xs7
            ∗ (iprop(owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc1__agg_kernel i arg2 harg2 arg3 harg3 arg4 harg4 arg5 harg5 arg6 harg6 arg7 harg7) K } := by
  refine ⟨?_, ?_, ?_, fun E K => ?run⟩
  case run =>
    simp only [cc1__agg_kernel_eq_skeleton]; unfold cc1__agg_kernel_skel
    unfold owns
    iintro ⟨⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf2; obtain rfl := harg3.eq_unread hf3; obtain rfl := harg4.eq_unread hf4
    obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

end Cert.KernelIdeal.Hand

end
-- ==== Proof.KI.Dat1.lean ====
/-
  The aggregation region (the second kernel launch): its proof data and body obligation, at entry contents `V`.

  The grid is 16 row blocks by 32 column tiles, the column tile the fast coordinate: point t is row block t / 32,
  column tile t % 32.  Window 0 is the row block's 256 rows of the neighbour table, window 1 the tile's 1024 column
  normalisers, window 2 the tile's 1024 embedding rows, window 3 the row block's 256 output rows, written back only
  after the last column tile.  Two scratch buffers — the [256, 128] accumulator and the [256, 1] row counts — are
  reset at column tile 0 and added to at every tile, so the invariant between points carries them at named contents:
  `outsAt1` says, by recursion on the point, what the output block and the two accumulators hold after each point.
-/
import proofs.«426239_j15745350107506_3_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions over the grid, and where the output window is idle -/

/-- The first condition holds exactly at column tile 0. -/
theorem hcond1_0 : ∀ t : Fin cfg1.N, cond1_0 (grid1.coords t) ↔ t.val % 32 = 0 :=
  (by decide +kernel : ∀ t : Fin grid1.N, cond1_0 (grid1.coords t) ↔ t.val % 32 = 0)
/-- The second condition holds exactly at column tile 31. -/
theorem hcond1_1 : ∀ t : Fin cfg1.N, cond1_1 (grid1.coords t) ↔ t.val % 32 = 31 :=
  (by decide +kernel : ∀ t : Fin grid1.N, cond1_1 (grid1.coords t) ↔ t.val % 32 = 31)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last column tile the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column tile it is live. -/
theorem liveAt1_3 : ∀ t : Fin cfg1.N, cond1_1 (grid1.coords t) → cfg1.idle 3 (grid1.coords t) = false := by decide +kernel

/-! ## The staging and scratch memrefs -/

abbrev VO1_3 : View sig .tc .vmem S256x128 .f32 := (Memref.whole cc1_stg3_0 : Memref sig .tc .vmem S256x128 .f32).view
abbrev ms1_0 (t : Fin cfg1.N) : Memref sig .tc .vmem S256x32 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
/-- The accumulator and the row counts: whole scoped buffers of the kernel's own. -/
abbrev scM1_0 : Memref sig .tc .vmem S256x128 .f32 := Memref.whole cc1_scratch0
abbrev scM1_1 : Memref sig .tc .vmem S256x1 .f32 := Memref.whole cc1_scratch1
abbrev VS1_0 : View sig .tc .vmem S256x128 .f32 := scM1_0.view
abbrev VS1_1 : View sig .tc .vmem S256x1 .f32 := scM1_1.view

/-- The class invariant with the two scratch buffers as memrefs owned at some contents (the other scoped buffers, the
    first launch's staging buffers, stay as they are listed). -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## What each case leaves in the accumulators and the output block -/

/-- Column tile 0: the accumulator's pieces hold a store of the whole buffer (the reset), so they cover it. -/
theorem scover6_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec F S256x32 .i32) (x3 : Vec F S1x1024 .f32) (x4 : Vec F S1024x128 .bf16) (y : S256x128.Idx) :
    ∃ pc ∈ (run1_A c i arg2 harg2 arg3 harg3 arg4 harg4 arg5 harg5 arg6 harg6 arg7 harg7 hc0 hc1 x2 x3 x4).1, y ∈ pc.1.set :=
  View.cover_of_tiledBy (run1_A c i arg2 harg2 arg3 harg3 arg4 harg4 arg5 harg5 arg6 harg6 arg7 harg7 hc0 hc1 x2 x3 x4).1 S64x128.size (by sl_kernel_rfl) y
theorem scover7_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec F S256x32 .i32) (x3 : Vec F S1x1024 .f32) (x4 : Vec F S1024x128 .bf16) (y : S256x1.Idx) :
    ∃ pc ∈ (run1_A c i arg2 harg2 arg3 harg3 arg4 harg4 arg5 harg5 arg6 harg6 arg7 harg7 hc0 hc1 x2 x3 x4).2.1, y ∈ pc.1.set :=
  View.cover_of_tiledBy (run1_A c i arg2 harg2 arg3 harg3 arg4 harg4 arg5 harg5 arg6 harg6 arg7 harg7 hc0 hc1 x2 x3 x4).2.1 S64x1.size (by sl_kernel_rfl) y
def s6_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec F S256x32 .i32) (x3 : Vec F S1x1024 .f32) (x4 : Vec F S1024x128 .bf16) : Vec F S256x128 .f32 :=
  VS1_0.read (Elt F) (VS1_0.writes (Elt F) VS1_0.junk (run1_A c i arg2 harg2 arg3 harg3 arg4 harg4 arg5 harg5 arg6 harg6 arg7 harg7 hc0 hc1 x2 x3 x4).1)
def s7_A (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec F S256x32 .i32) (x3 : Vec F S1x1024 .f32) (x4 : Vec F S1024x128 .bf16) : Vec F S256x1 .f32 :=
  VS1_1.read (Elt F) (VS1_1.writes (Elt F) VS1_1.junk (run1_A c i arg2 harg2 arg3 harg3 arg4 harg4 arg5 harg5 arg6 harg6 arg7 harg7 hc0 hc1 x2 x3 x4).2.1)

/-- A middle column tile: the four row chunks' pieces tile each accumulator. -/
theorem scover6_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec F S256x32 .i32) (x3 : Vec F S1x1024 .f32) (x4 : Vec F S1024x128 .bf16) (xs6 : Vec F S256x128 .f32) (xs7 : Vec F S256x1 .f32) (y : S256x128.Idx) :
    ∃ pc ∈ (run1_B c i arg2 harg2 arg3 harg3 arg4 harg4 arg5 harg5 arg6 harg6 arg7 harg7 hc0 hc1 x2 x3 x4 xs6 xs7).1, y ∈ pc.1.set :=
  View.cover_of_tiledL (run1_B c i arg2 harg2 arg3 harg3 arg4 harg4 arg5 harg5 arg6 harg6 arg7 harg7 hc0 hc1 x2 x3 x4 xs6 xs7).1 S64x128.size (by sl_kernel_rfl) y
theorem scover7_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec F S256x32 .i32) (x3 : Vec F S1x1024 .f32) (x4 : Vec F S1024x128 .bf16) (xs6 : Vec F S256x128 .f32) (xs7 : Vec F S256x1 .f32) (y : S256x1.Idx) :
    ∃ pc ∈ (run1_B c i arg2 harg2 arg3 harg3 arg4 harg4 arg5 harg5 arg6 harg6 arg7 harg7 hc0 hc1 x2 x3 x4 xs6 xs7).2.1, y ∈ pc.1.set :=
  View.cover_of_tiledL (run1_B c i arg2 harg2 arg3 harg3 arg4 harg4 arg5 harg5 arg6 harg6 arg7 harg7 hc0 hc1 x2 x3 x4 xs6 xs7).2.1 S64x1.size (by sl_kernel_rfl) y
def s6_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec F S256x32 .i32) (x3 : Vec F S1x1024 .f32) (x4 : Vec F S1024x128 .bf16) (xs6 : Vec F S256x128 .f32) (xs7 : Vec F S256x1 .f32) : Vec F S256x128 .f32 :=
  VS1_0.read (Elt F) (VS1_0.writes (Elt F) VS1_0.junk (run1_B c i arg2 harg2 arg3 harg3 arg4 harg4 arg5 harg5 arg6 harg6 arg7 harg7 hc0 hc1 x2 x3 x4 xs6 xs7).1)
def s7_B (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec F S256x32 .i32) (x3 : Vec F S1x1024 .f32) (x4 : Vec F S1024x128 .bf16) (xs6 : Vec F S256x128 .f32) (xs7 : Vec F S256x1 .f32) : Vec F S256x1 .f32 :=
  VS1_1.read (Elt F) (VS1_1.writes (Elt F) VS1_1.junk (run1_B c i arg2 harg2 arg3 harg3 arg4 harg4 arg5 harg5 arg6 harg6 arg7 harg7 hc0 hc1 x2 x3 x4 xs6 xs7).2.1)

/-- The last column tile: the same for the accumulators, and one store of the whole output block. -/
theorem cover5_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) (y : S256x128.Idx) :
    ∃ pc ∈ (run1_C c i arg2 harg2 arg3 harg3 arg4 harg4 arg5 harg5 arg6 harg6 arg7 harg7 hc0 hc1 x2 x3 x4 xs6 xs7).1, y ∈ pc.1.set :=
  View.cover_of_tiledL (run1_C c i arg2 harg2 arg3 harg3 arg4 harg4 arg5 harg5 arg6 harg6 arg7 harg7 hc0 hc1 x2 x3 x4 xs6 xs7).1 S256x128.size (by sl_kernel_rfl) y
theorem scover6_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) (y : S256x128.Idx) :
    ∃ pc ∈ (run1_C c i arg2 harg2 arg3 harg3 arg4 harg4 arg5 harg5 arg6 harg6 arg7 harg7 hc0 hc1 x2 x3 x4 xs6 xs7).2.1, y ∈ pc.1.set :=
  View.cover_of_tiledL (run1_C c i arg2 harg2 arg3 harg3 arg4 harg4 arg5 harg5 arg6 harg6 arg7 harg7 hc0 hc1 x2 x3 x4 xs6 xs7).2.1 S64x128.size (by sl_kernel_rfl) y
theorem scover7_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) (y : S256x1.Idx) :
    ∃ pc ∈ (run1_C c i arg2 harg2 arg3 harg3 arg4 harg4 arg5 harg5 arg6 harg6 arg7 harg7 hc0 hc1 x2 x3 x4 xs6 xs7).2.2.1, y ∈ pc.1.set :=
  View.cover_of_tiledL (run1_C c i arg2 harg2 arg3 harg3 arg4 harg4 arg5 harg5 arg6 harg6 arg7 harg7 hc0 hc1 x2 x3 x4 xs6 xs7).2.2.1 S64x1.size (by sl_kernel_rfl) y
def o5_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) : Vec F S256x128 .f32 :=
  VO1_3.read (Elt F) (VO1_3.writes (Elt F) VO1_3.junk (run1_C c i arg2 harg2 arg3 harg3 arg4 harg4 arg5 harg5 arg6 harg6 arg7 harg7 hc0 hc1 x2 x3 x4 xs6 xs7).1)
def s6_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) : Vec F S256x128 .f32 :=
  VS1_0.read (Elt F) (VS1_0.writes (Elt F) VS1_0.junk (run1_C c i arg2 harg2 arg3 harg3 arg4 harg4 arg5 harg5 arg6 harg6 arg7 harg7 hc0 hc1 x2 x3 x4 xs6 xs7).2.1)
def s7_C (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec F S256x32 .i32) (x3 : Vec F S1x1024 .f32) (x4 : Vec F S1024x128 .bf16) (xs6 : Vec F S256x128 .f32) (xs7 : Vec F S256x1 .f32) : Vec F S256x1 .f32 :=
  VS1_1.read (Elt F) (VS1_1.writes (Elt F) VS1_1.junk (run1_C c i arg2 harg2 arg3 harg3 arg4 harg4 arg5 harg5 arg6 harg6 arg7 harg7 hc0 hc1 x2 x3 x4 xs6 xs7).2.2.1)

/-- The output block's component at a point that stores nothing into it: a placeholder nothing consults (the window
    is idle there and its block is not written back). -/
def o5_idle : Vec F S256x128 .f32 := VO1_3.read (Elt F) VO1_3.junk

/-! ## What the output block and the accumulators hold after each point -/

/-- After the body at position `n`: (the output block, the accumulator, the row counts). The case is the one the
    closed forms select at `n`; a case that adds onto the accumulators takes them at what position `n - 1` left. -/
def outsAt1 (c : Dev nD) : (n : ℕ) → n < cfg1.N → Vec F S256x128 .f32 × Vec F S256x128 .f32 × Vec F S256x1 .f32
  | 0, hn =>
    have h0 : (0 : ℕ) % 32 = 0 := Nat.zero_mod _
    have h1 : ¬(0 : ℕ) % 32 = 31 := by omega
    (o5_idle, s6_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩),
      s7_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩))
  | n + 1, hn =>
    if h0 : (n + 1) % 32 = 0 then
      have h1 : ¬(n + 1) % 32 = 31 := by omega
      (o5_idle, s6_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
        s7_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 32 = 31 then
        (o5_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
          s6_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
          s7_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (o5_idle, s6_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
          s7_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at column tile 0: the reset case's contents. -/
theorem outsAt1_A (c : Dev nD) (t : Fin cfg1.N) (h0 : t.val % 32 = 0) (h1 : ¬t.val % 32 = 31) :
    outsAt1 V c t.val t.isLt = (o5_idle, s6_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t),
      s7_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- `outsAt1` at a middle column tile: that case's contents, over what the point before left. -/
theorem outsAt1_B (c : Dev nD) (t : Fin cfg1.N) (h0 : ¬t.val % 32 = 0) (h1 : ¬t.val % 32 = 31) :
    outsAt1 V c t.val t.isLt = (o5_idle, s6_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      s7_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last column tile: that case's contents, over what the point before left. -/
theorem outsAt1_C (c : Dev nD) (t : Fin cfg1.N) (h0 : ¬t.val % 32 = 0) (h1 : t.val % 32 = 31) :
    outsAt1 V c t.val t.isLt = (o5_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      s6_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      s7_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point the class's invariant (the accumulators at anything); afterwards the
    scoped rest with each accumulator at what the point before left, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.KernelIdeal.Hand

end
-- ==== Proof.KI.Obl1.lean ====
/-
  The aggregation region's body obligation: at every grid point the body, called on the windows' current buffers and
  the invariant, runs to the next point's invariant and to each buffer at what the proof data say it leaves.
-/
import proofs.«426239_j15745350107506_3_alg».proof.Proof.KI.Dat1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the column tile says which case the point is in.
    At column tile 0 the accumulators are handed over at anything (the first point: from the class invariant; a later
    row block's first tile: the previous block's contents forgotten) and come back at the reset case's contents; at
    the other tiles they are handed over at what the point before left. Off the last tile the output block's buffer
    is handed back as found; at the last tile it comes back at the one whole store's read-back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 512 := lt_of_lt_of_eq t.isLt (show cfg1.N = 512 from N_1)
  by_cases h0 : t.val % 32 = 0
  · have h1 : ¬t.val % 32 = 31 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold s6_A s7_A; (try dsimp only)
    by_cases hz : t.val = 0
    · rw [PhiS1_castSucc V c t, PhiS1_zero V c _ _ hz, PhiA1_eq]
      iintro ⟨⟨⟨Ha, Hb, Hc, HS6, HS7⟩, Hg⟩, Ho, ⟨%d0, H0⟩, ⟨%d1, H1⟩, ⟨%d2, H2⟩, ⟨%d3, H3⟩⟩
      iapply ((run1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, ⟨%e6, HS6⟩, ⟨%e7, HS7⟩⟩
      isplitl [Ha Hb Hc HS6 HS7 Hg]
      · isplitl [Ha Hb Hc HS6 HS7]
        · isplitl [Ha]; · iexact Ha
          isplitl [Hb]; · iexact Hb
          isplitl [Hc]; · iexact Hc
          isplitl [HS6]
          · unfold owns; iexists _; isplitr
            swap; · iexact HS6
            ipureintro; exact View.read_writes_of_cover _ _ _ _ _ (scover6_A c _ _ _ _ _ _ _ _ _ _ _ _ _ _ _ _ _ _)
          unfold owns; iexists _; isplitr
          swap; · iexact HS7
          ipureintro; exact View.read_writes_of_cover _ _ _ _ _ (scover7_A c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha, Hb, Hc, HS6, HS7⟩, Hg⟩, Ho, ⟨%d0, H0⟩, ⟨%d1, H1⟩, ⟨%d2, H2⟩, ⟨%d3, H3⟩⟩
      iapply ((run1_A c (grid1.coords t) _ _ _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS6]; · iexists _; iexact HS6
      isplitl [HS7]; · iexists _; iexact HS7
      iintro ⟨H0, H1, H2, H3, ⟨%e6, HS6⟩, ⟨%e7, HS7⟩⟩
      isplitl [Ha Hb Hc HS6 HS7 Hg]
      · isplitl [Ha Hb Hc HS6 HS7]
        · isplitl [Ha]; · iexact Ha
          isplitl [Hb]; · iexact Hb
          isplitl [Hc]; · iexact Hc
          isplitl [HS6]
          · unfold owns; iexists _; isplitr
            swap; · iexact HS6
            ipureintro; exact View.read_writes_of_cover _ _ _ _ _ (scover6_A c _ _ _ _ _ _ _ _ _ _ _ _ _ _ _ _ _ _)
          unfold owns; iexists _; isplitr
          swap; · iexact HS7
          ipureintro; exact View.read_writes_of_cover _ _ _ _ _ (scover7_A c _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 32 = 31
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold o5_C s6_C s7_C; (try dsimp only)
      rw [PhiS1_castSucc V c t, PhiS1_pos V c _ _ hz]
      iintro ⟨⟨⟨Ha, Hb, Hc, HS6, HS7⟩, Hg⟩, Ho, ⟨%d0, H0⟩, ⟨%d1, H1⟩, ⟨%d2, H2⟩, ⟨%d3, H3⟩⟩
      iapply ((run1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS6]; · iexact HS6
      isplitl [HS7]; · iexact HS7
      iintro ⟨H0, H1, H2, ⟨%e5, H3⟩, ⟨%e6, HS6⟩, ⟨%e7, HS7⟩⟩
      isplitl [Ha Hb Hc HS6 HS7 Hg]
      · isplitl [Ha Hb Hc HS6 HS7]
        · isplitl [Ha]; · iexact Ha
          isplitl [Hb]; · iexact Hb
          isplitl [Hc]; · iexact Hc
          isplitl [HS6]
          · unfold owns; iexists _; isplitr
            swap; · iexact HS6
            ipureintro; exact View.read_writes_of_cover _ _ _ _ _ (scover6_C c _ _ _ _ _ _ _ _ _ _ _ _ _ _ _ _ _ _ _ _)
          unfold owns; iexists _; isplitr
          swap; · iexact HS7
          ipureintro; exact View.read_writes_of_cover _ _ _ _ _ (scover7_C c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C c _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold s6_B s7_B; (try dsimp only)
      rw [PhiS1_castSucc V c t, PhiS1_pos V c _ _ hz]
      iintro ⟨⟨⟨Ha, Hb, Hc, HS6, HS7⟩, Hg⟩, Ho, ⟨%d0, H0⟩, ⟨%d1, H1⟩, ⟨%d2, H2⟩, ⟨%d3, H3⟩⟩
      iapply ((run1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2 _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, ⟨%e6, HS6⟩, ⟨%e7, HS7⟩⟩
      isplitl [Ha Hb Hc HS6 HS7 Hg]
      · isplitl [Ha Hb Hc HS6 HS7]
        · isplitl [Ha]; · iexact Ha
          isplitl [Hb]; · iexact Hb
          isplitl [Hc]; · iexact Hc
          isplitl [HS6]
          · unfold owns; iexists _; isplitr
            swap; · iexact HS6
            ipureintro; exact View.read_writes_of_cover _ _ _ _ _ (scover6_B c _ _ _ _ _ _ _ _ _ _ _ _ _ _ _ _ _ _ _ _)
          unfold owns; iexists _; isplitr
          swap; · iexact HS7
          ipureintro; exact View.read_writes_of_cover _ _ _ _ _ (scover7_B c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, HS6, HS7⟩, Hg⟩
  isplitl [Ha Hb Hc HS6 HS7]
  · isplitl [Ha]; · iexact Ha
    isplitl [Hb]; · iexact Hb
    isplitl [Hc]; · iexact Hc
    isplitl [HS6]; · iexists _; iexact HS6
    iexists _; iexact HS7
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end

end Cert.KernelIdeal.Hand

end
-- ==== Proof.KI.Segs.lean ====
/-
  The program as segments: the host stretch, then the two kernel regions, each entered from every unscoped buffer at
  the contents the segment before left, and left with its arrays at what its pipeline computes.

  The contents after the first region are the contents before it with the column normaliser's array at what the
  region's write-backs leave (`W2`); after the second, those with the result array at what its write-backs leave
  (`W3`).  Between segments the core's generator register rides along at some state and the core owes nothing.
  The frame claim follows from the generated conditional frame, which asks exactly for the two regions' records.
-/
import proofs.«426239_j15745350107506_3_alg».proof.Proof.KI.Dat0
import proofs.«426239_j15745350107506_3_alg».proof.Proof.KI.Obl1
import proofs.«426239_j15745350107506_3_alg».proof.Proof.Gen.KernelIdeal.Regions
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each region's entry and exit -/

/-- The contents the first region is entered from: the launch memory after the host stretch. -/
abbrev E1 : (c : Dev nD) → (b : Ref sig .tc) → Buf (Elt F) ((c : Thread nD τ).loc b) := fun c b => V1 m c b
/-- The first region's proof data. -/
abbrev d0 (c : Dev nD) : Dat τ (Elt F) Unit ℕ (UR sig nD τ) ℕ cfg0 c := dat0 (E1 m) c
/-- After the first region: its arrays at what its pipeline leaves, every other buffer as entered. -/
def W2 (c : Dev nD) : Valuation τ sig (Elt F) :=
  Pipeline.withArrays spec0 c (V1 m c) fun w => (d0 m c).arrAt w cfg0.N
/-- What the first region leaves, as the unknowns the generated valuations are written over. -/
def outsA : Outs (F := F) := fun _ r c => W2 m c r
/-- The contents the second region is entered from. -/
abbrev E2 : (c : Dev nD) → (b : Ref sig .tc) → Buf (Elt F) ((c : Thread nD τ).loc b) := fun c b => V2 m (outsA m) c b
/-- The second region's proof data. -/
abbrev d1 (c : Dev nD) : Dat τ (Elt F) Unit ℕ (UR sig nD τ) ℕ cfg1 c := dat1 (E2 m) c
/-- After the second region. -/
def W3 (c : Dev nD) : Valuation τ sig (Elt F) :=
  Pipeline.withArrays spec1 c (V2 m (outsA m) c) fun w => (d1 m c).arrAt w cfg1.N
/-- What both regions leave. -/
def outs : Outs (F := F) := fun J r c => if J = 2 then W2 m c r else W3 m c r

theorem outs_two (r : Ref sig .tc) (c : Dev nD) : outs m 2 r c = W2 m c r := if_pos rfl
theorem outs_three (r : Ref sig .tc) (c : Dev nD) : outs m 3 r c = W3 m c r := if_neg (by decide)

/-- The valuation after the first region does not depend on what the second leaves. -/
theorem V2_outs (c : Dev nD) : V2 m (outs m) c = V2 m (outsA m) c := by
  unfold V2
  rw [outs_two]; rfl

/-- The contents after the first region, read at the TensorCore's references. -/
abbrev E2o : (c : Dev nD) → (b : Ref sig .tc) → Buf (Elt F) ((c : Thread nD τ).loc b) := fun c b => V2 m (outs m) c b
/-- The contents after the second region. -/
abbrev E3 : (c : Dev nD) → (b : Ref sig .tc) → Buf (Elt F) ((c : Thread nD τ).loc b) := fun c b => V3 m (outs m) c b

/-- What the first region leaves in the column normaliser's array. -/
theorem V2_main_v8 (c : Dev nD) : V2 m (outs m) c main_v8 = (d0 m c).arrAt 1 cfg0.N := by
  unfold V2
  rw [Function.update_self, outs_two]
  exact Pipeline.withArrays_arr spec0 launch0.win.arr_inj c _ _ 1

/-- What the second region leaves in the result array. -/
theorem V3_main_v9 (c : Dev nD) : V3 m (outs m) c main_v9 = (d1 m c).arrAt 3 cfg1.N := by
  unfold V3
  rw [Function.update_self, outs_three]
  exact Pipeline.withArrays_arr spec1 launch1.win.arr_inj c _ _ 3

/-- At the first region's exit each of its arrays holds what its pipeline leaves, -/
theorem hF0 (c : Dev nD) (w : Fin cfg0.W) : (d0 m c).arrAt w cfg0.N = E2o m c (Pipeline.arrRef spec0 w) := by
  match w with
  | ⟨0, _⟩ => exact ((d0 m c).arrAt_in 0 rfl _).trans ((A_eq0 (E1 m) c 0).trans (V2_of m (outs m) c main_arg0 (by decide)).symm)
  | ⟨1, _⟩ => exact (V2_main_v8 m c).symm
/-- and every other buffer what it held at entry. -/
theorem hrest0 (c : Dev nD) : ∀ b, b ∉ Finset.univ.image (Pipeline.arrRef spec0) → E2o m c b = E1 m c b := fun b hb =>
  V2_of m (outs m) c b (fun h => hb (Finset.mem_image.mpr ⟨1, Finset.mem_univ _, (List.mem_singleton.mp h).symm⟩))

/-- At the second region's exit each of its arrays holds what its pipeline leaves, -/
theorem hF1 (c : Dev nD) (w : Fin cfg1.W) : (d1 m c).arrAt w cfg1.N = E3 m c (Pipeline.arrRef spec1 w) := by
  match w with
  | ⟨0, _⟩ => exact ((d1 m c).arrAt_in 0 rfl _).trans ((A_eq1 (E2 m) c 0).trans ((congrFun (V2_outs m c) _).symm.trans (V3_of m (outs m) c main_arg0 (by decide)).symm))
  | ⟨1, _⟩ => exact ((d1 m c).arrAt_in 1 rfl _).trans ((A_eq1 (E2 m) c 1).trans ((congrFun (V2_outs m c) _).symm.trans (V3_of m (outs m) c main_v8 (by decide)).symm))
  | ⟨2, _⟩ => exact ((d1 m c).arrAt_in 2 rfl _).trans ((A_eq1 (E2 m) c 2).trans ((congrFun (V2_outs m c) _).symm.trans (V3_of m (outs m) c main_v7 (by decide)).symm))
  | ⟨3, _⟩ => exact (V3_main_v9 m c).symm
/-- and every other buffer what it held at entry. -/
theorem hrest1 (c : Dev nD) : ∀ b, b ∉ Finset.univ.image (Pipeline.arrRef spec1) → E3 m c b = E2 m c b := fun b hb =>
  (V3_of m (outs m) c b (fun h => hb (Finset.mem_image.mpr ⟨3, Finset.mem_univ _, (List.mem_singleton.mp h).symm⟩))).trans
    (congrFun (V2_outs m c) _)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- THE FIRST REGION: entered from every unscoped buffer at the contents after the host stretch, left with the column
    normaliser's array at what the write-backs leave. Its arrays are split out of the unscoped buffers and put back at
    the exit contents; the generator register goes into the class invariant and comes out. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2o m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION: entered from what the first left, left with the result array at what the write-backs leave.
    The two accumulators are scoped buffers of the kernel's own: they reach the invariant inside the class invariant's
    scoped rest and are given back the same way. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, V2_outs]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch element: the pipeline library's, at every pipeline's staging cells. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu
  imodintro
  isplitl [Hu]; · iapply (show (ownU _ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

/-- The launch makes the first thread state's rest on every core: the generator register, nothing owed. -/
theorem hE0 (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, at any `F`: every weakly fair execution of @main from `m` with zero counters terminates, nothing
    faulting, and every final memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (m := m) (EP := emb₁) (ι := ()) (𝒱₀ := Variants.none) (L := L) (lv := lv) (hL := fun _ _ => rfl) (ρ := ρ) (outs := outs m)
    (pdats := pdats m) (O₀ := fun _ => 0) (G := fun _ => (BI.emp : sProp 𝕄)) (u₀ := u₀) (hu₀ := hu₀)
    (E := fun _ c => R c) (hE0 := hE0 ρ) (hE2 := fun c => by iintro ⟨-, H⟩; iexact H)
    (R0 := reg0 m) (hpre0 := fun _ => .rfl) (hpost0 := fun _ => .rfl)
    (R1 := reg1 m) (hpre1 := fun _ => .rfl) (hpost1 := fun _ => .rfl)

end Cert.KernelIdeal.Hand

end
-- ==== Proof.Spec.lean ====
/-
  The mathematics of the dense-adjacency aggregation, over abstract arrays.

  A row `b` of the neighbour table `n : [4096, 32]` names up to 32 columns `u < 32768`; `mask n b u` is 1 when some
  entry of row `b` is the word `u`, else 0 (duplicates collapse).  `rowCount n b` and `colCount n u` are the sums of
  the mask along a row and along a column, `colDen n u = max (sqrt (colCount n u)) 1`.  With `E : [32768, 128]` the
  gathered embedding rows, the aggregation is written in two arrangements:

    * `aggLate`  : ( ∑ᵤ (mask b u / colDen u) · E u d ) / sqrt (rowCount b)     — the quotient by the row norm taken last;
    * `aggEarly` : ∑ᵤ ((mask b u / sqrt (rowCount b)) / colDen u) · E u d       — every mask entry normalised first.

  They agree (`Algebra.lean`) when every row names at least one column and `E` is finite: then every quantity is a
  real number, sqrt (rowCount b) ≥ 1, and the identity is distributivity of a real quotient over a finite sum.
-/
import Idealize.ShloMosaic.PureOps.Ideal
import Idealize.ShloMosaic.Lib.ValueIdx

noncomputable section

namespace Cert.AggSpec

open Idealize.ShloMosaic Idealize.ShloMosaic.ValueIdx

/-- The neighbour table, the embedding rows and the result, as index types. -/
abbrev SN : Shape := ⟨2, ![4096, 32]⟩
abbrev SE : Shape := ⟨2, ![32768, 128]⟩
abbrev SO : Shape := ⟨2, ![4096, 128]⟩

/-- Row `b` names column `u`: some entry of the row is the word `u`. -/
def hit (n : SN.Idx → BitVec 32) (b : Fin 4096) (u : Fin 32768) : Prop :=
  ∃ k : Fin 32, n (ix2 b k) = BitVec.ofNat 32 u.val

open Classical in
/-- The 0/1 adjacency entry. -/
def mask (n : SN.Idx → BitVec 32) (b : Fin 4096) (u : Fin 32768) : EReal :=
  if hit n b u then 1 else 0

/-- How many columns row `b` names. -/
def rowCount (n : SN.Idx → BitVec 32) (b : Fin 4096) : EReal := ∑ u : Fin 32768, mask n b u

/-- How many rows name column `u`. -/
def colCount (n : SN.Idx → BitVec 32) (u : Fin 32768) : EReal := ∑ b : Fin 4096, mask n b u

/-- The column normaliser: sqrt of the column's count, at least 1. -/
def colDen (n : SN.Idx → BitVec 32) (u : Fin 32768) : EReal := max (Ideal.sqrt (colCount n u)) 1

/-- The row normaliser. -/
def rowDen (n : SN.Idx → BitVec 32) (b : Fin 4096) : EReal := Ideal.sqrt (rowCount n b)

/-- The aggregation with the quotient by the row norm taken LAST (the kernel's arrangement). -/
def aggLate (n : SN.Idx → BitVec 32) (E : SE.Idx → EReal) (b : Fin 4096) (d : Fin 128) : EReal :=
  Ideal.div (∑ u : Fin 32768, Ideal.div (mask n b u) (colDen n u) * E (ix2 u d)) (rowDen n b)

/-- The aggregation with every mask entry normalised FIRST (the reference's arrangement). -/
def aggEarly (n : SN.Idx → BitVec 32) (E : SE.Idx → EReal) (b : Fin 4096) (d : Fin 128) : EReal :=
  ∑ u : Fin 32768, Ideal.div (Ideal.div (mask n b u) (rowDen n b)) (colDen n u) * E (ix2 u d)

/-- Every entry of the neighbour table is a column index: `0 ≤ n[b,k] < 32768` as a signed word. -/
def InRange (n : SN.Idx → BitVec 32) : Prop :=
  ∀ j : SN.Idx, 0 ≤ (n j).toInt ∧ (n j).toInt < 32768

/-- Every embedding entry is a real number. -/
def Finite (E : SE.Idx → EReal) : Prop := ∀ j : SE.Idx, ∃ r : ℝ, E j = (r : EReal)

end Cert.AggSpec

end
-- ==== Proof.ValDefs.lean ====
/-
  What one grid point of each kernel contributes, as pure functions of the blocks it is handed.

  A block row `r` of a neighbour-table block `x` names the column word `w` when some of its 32 entries is `w`;
  `rowMask x r w` is that as 0/1.  The column tile `j` of width `T` has the words `colWord T j l`, `l < T`.
    * `tileColSum x T j l`  : how many rows of the block name the tile's lane `l` (the column-norm kernel's count);
    * `tileRowSum x j r`    : how many lanes of the 1024-wide tile `j` row `r` names (the row counts' increment);
    * `tileDot x cd e j r d` : ∑ₗ (rowMask r l / cd l) · e l d over the tile (the accumulator's increment).
  `aggOver` is the aggregation with the quotient by the row norm taken last, over a GIVEN column normaliser array.
-/
import proofs.«426239_j15745350107506_3_alg».proof.Proof.Spec

noncomputable section

namespace Cert.AggSpec

open Idealize.ShloMosaic Idealize.ShloMosaic.ValueIdx

/-- Row `r` of the block names the word `w`. -/
def rowHit {R : Nat} (x : (⟨2, ![R, 32]⟩ : Shape).Idx → BitVec 32) (r : Fin R) (w : BitVec 32) : Prop :=
  ∃ k : Fin 32, x (ix2 r k) = w

open Classical in
/-- The same as 0/1. -/
def rowMask {R : Nat} (x : (⟨2, ![R, 32]⟩ : Shape).Idx → BitVec 32) (r : Fin R) (w : BitVec 32) : EReal :=
  if rowHit x r w then 1 else 0

/-- Lane `l` of column tile `j` of width `T`, as the 32-bit word the kernels compare against. -/
def colWord (T j l : Nat) : BitVec 32 := BitVec.ofNat 32 (j * T + l)

/-- How many of the block's rows name lane `l` of tile `j` (width `T`). -/
def tileColSum {R : Nat} (x : (⟨2, ![R, 32]⟩ : Shape).Idx → BitVec 32) (T j l : Nat) : EReal :=
  ∑ b : Fin R, rowMask x b (colWord T j l)

/-- How many lanes of the 1024-wide tile `j` row `r` names. -/
def tileRowSum (x : (⟨2, ![256, 32]⟩ : Shape).Idx → BitVec 32) (j : Nat) (r : Fin 256) : EReal :=
  ∑ l : Fin 1024, rowMask x r (colWord 1024 j l.val)

/-- The tile's contribution to the accumulator at (r, d). -/
def tileDot (x : (⟨2, ![256, 32]⟩ : Shape).Idx → BitVec 32) (cd : (⟨2, ![1, 1024]⟩ : Shape).Idx → EReal)
    (e : (⟨2, ![1024, 128]⟩ : Shape).Idx → EReal) (j : Nat) (r : Fin 256) (d : Fin 128) : EReal :=
  ∑ l : Fin 1024, Ideal.div (rowMask x r (colWord 1024 j l.val)) (cd (ix2 0 l)) * e (ix2 l d)

/-- The aggregation over a given column normaliser array `cd : [1, 32768]`, the quotient by the row norm last. -/
def aggOver (n : SN.Idx → BitVec 32) (cd : (⟨2, ![1, 32768]⟩ : Shape).Idx → EReal) (E : SE.Idx → EReal)
    (b : Fin 4096) (d : Fin 128) : EReal :=
  Ideal.div (∑ u : Fin 32768, Ideal.div (mask n b u) (cd (ix2 0 u)) * E (ix2 u d)) (rowDen n b)

/-- Over the specification's own normaliser it is `aggLate`. -/
theorem aggOver_colDen (n : SN.Idx → BitVec 32) (cd : (⟨2, ![1, 32768]⟩ : Shape).Idx → EReal) (E : SE.Idx → EReal)
    (hcd : ∀ u : Fin 32768, cd (ix2 0 u) = colDen n u) (b : Fin 4096) (d : Fin 128) :
    aggOver n cd E b d = aggLate n E b d := by
  have h : (∑ u : Fin 32768, Ideal.div (mask n b u) (cd (ix2 0 u)) * E (ix2 u d))
      = ∑ u : Fin 32768, Ideal.div (mask n b u) (colDen n u) * E (ix2 u d) :=
    Finset.sum_congr rfl fun u _ => by rw [hcd]
  unfold aggOver aggLate
  rw [h]

end Cert.AggSpec

end
-- ==== Proof.KI.Val0Point.lean ====
/-
  What the column-norm kernel leaves in its output block at one grid point, read at a lane, at the ideal instance:
  lane `l` of point `i` holds max (sqrt (the number of table rows naming column 128·i + l)) 1.
-/
import proofs.«426239_j15745350107506_3_alg».proof.Proof.KI.Dat0
import proofs.«426239_j15745350107506_3_alg».proof.Proof.ValDefs
import Idealize.ShloMosaic.PureOps.Ideal.Laws
import Idealize.ShloMosaic.Lib.Pipeline.Value
import Idealize.ShloMosaic.Lib.ValueLayout
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.AggSpec Idealize.ShloMosaic.ValueIdx

namespace Val0

/-! ### One-bit words -/

/-- A disjunction of one-bit words is set iff one side is. -/
theorem bit_or_eq_one (a b : BitVec 1) : a ||| b = 1#1 ↔ a = 1#1 ∨ b = 1#1 := by
  rcases BitVec.eq_zero_or_eq_one a with h | h <;> rcases BitVec.eq_zero_or_eq_one b with h' | h' <;> subst h <;> subst h' <;> decide

/-- The word of a truth value is set iff it is true. -/
theorem ofBool_eq_one (c : Bool) : BitVec.ofBool c = 1#1 ↔ c = true := by
  cases c <;> decide

/-- A one-bit word widened to 32 bits and read as a signed integer is 1 or 0. -/
theorem bit_toReal (a : BitVec 1) : (((a.setWidth 32).toInt : ℝ) : EReal) = if a = 1#1 then 1 else 0 := by
  rcases BitVec.eq_zero_or_eq_one a with h | h <;> subst h
  · have e : (BitVec.setWidth 32 (0#1)).toInt = 0 := by decide
    rw [e, if_neg (by decide)]; simp
  · have e : (BitVec.setWidth 32 (1#1)).toInt = 1 := by decide
    rw [e, if_pos rfl]; simp

/-! ### The comparison of one column of a chunk with the lane words, and the chain of their disjunctions -/

/-- Column `n < 32` of a [512, 32] chunk is a [512, 1] block of it. -/
theorem slices_col {n : ℕ} (h : n < 32) : S512x32.Slices ![0, n] S512x1 :=
  ⟨rfl, fun a => by
    match a with
    | ⟨0, _⟩ => exact Nat.le_refl _
    | ⟨1, _⟩ => exact h⟩

/-- Column `n` of the chunk compared with the lane words: the bit at `(b, l)` says `r[b, n] = v3[l]`. -/
def hitCol (r : IVec S512x32 32) (v3 : IVec S1x128 32) (n : ℕ) (h : S512x32.Slices ![0, n] S512x1) : IVec S512x128 1 :=
  cmpi .eq (broadcastTo S512x128 (extractStridedSlice S512x1 ![0, n] r h) broadcasts_S512x1_S512x128)
    (broadcastTo S512x128 v3 broadcasts_S1x128_S512x128)

/-- The disjunction of the first `n` columns' comparisons. -/
def orChain (r : IVec S512x32 32) (v3 : IVec S1x128 32) : (n : ℕ) → n ≤ 32 → IVec S512x128 1
  | 0, _ => broadcast S512x128 0#1
  | n + 1, h => ori (orChain r v3 n (Nat.le_of_succ_le h)) (hitCol r v3 n (slices_col h))

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison's bit at `(b, l)` is set iff entry `n` of row `b` is lane `l`'s word. -/
theorem hitCol_apply (r : IVec S512x32 32) (v3 : IVec S1x128 32) (n : ℕ) (hn : n < 32) (h : S512x32.Slices ![0, n] S512x1)
    (b : Fin 512) (l : Fin 128) :
    hitCol r v3 n h (ix2 b l) = 1#1 ↔ r (ix2 b ⟨n, hn⟩) = v3 (ix2 0 l) := by
  have e1 : broadcastTo S512x128 (extractStridedSlice S512x1 ![0, n] r h) broadcasts_S512x1_S512x128 (ix2 b l) = r (ix2 b ⟨n, hn⟩) :=
    (broadcastTo_a1_ab_apply _ _ b l).trans (slice2_axis1_apply n r h b 0 ⟨n, hn⟩ rfl)
  have e2 : broadcastTo S512x128 v3 broadcasts_S1x128_S512x128 (ix2 b l) = v3 (ix2 0 l) :=
    broadcastTo_1b_ab_apply _ _ b l
  show BitVec.ofBool (_ == _) = 1#1 ↔ _
  rw [e1, e2, ofBool_eq_one, beq_iff_eq]

/-- The disjunction's bit at `(b, l)` is set iff one of the first `n` entries of row `b` is lane `l`'s word. -/
theorem orChain_apply (r : IVec S512x32 32) (v3 : IVec S1x128 32) (n : ℕ) (hn : n ≤ 32) (b : Fin 512) (l : Fin 128) :
    orChain r v3 n hn (ix2 b l) = 1#1 ↔ ∃ k : Fin 32, k.val < n ∧ r (ix2 b k) = v3 (ix2 0 l) := by
  induction n with
  | zero =>
    constructor
    · intro h; exact absurd h (by show ¬ (0#1 = 1#1); decide)
    · rintro ⟨k, hk, _⟩; exact absurd hk (Nat.not_lt_zero _)
  | succ n ih =>
    have hn' : n < 32 := hn
    show orChain r v3 n (Nat.le_of_succ_le hn) (ix2 b l) ||| hitCol r v3 n (slices_col hn) (ix2 b l) = 1#1 ↔ _
    rw [bit_or_eq_one, ih (Nat.le_of_succ_le hn), hitCol_apply r v3 n hn']
    constructor
    · rintro (⟨k, hk, e⟩ | e)
      · exact ⟨k, Nat.lt_succ_of_lt hk, e⟩
      · exact ⟨⟨n, hn'⟩, Nat.lt_succ_self n, e⟩
    · rintro ⟨k, hk, e⟩
      rcases Nat.lt_succ_iff_lt_or_eq.mp hk with h | h
      · exact Or.inl ⟨k, h, e⟩
      · refine Or.inr ?_
        have : k = ⟨n, hn'⟩ := Fin.ext h
        rw [← this]; exact e

/-! ### One trip of the counted loop -/

section Trip
variable {F : FTy → Type} [FloatOps F]

/-- The chunk of rows trip `k` loads. -/
abbrev chunkOf (arg1 : Memref sig .tc .vmem S4096x32 .i32) (X : BufTy.Contents (Elt F) arg1.view.ty) (k : Fin k0_t1_loop.trips) :
    Vec F S512x32 .i32 :=
  View.readAt (Elt F) arg1.view (Rect.unit (s := S4096x32) (k0_off1 k) S512x32.size (k0_off1_inb k)).toLoadRect X

/-- The trip's yield, as the run found it. -/
theorem trip_open (c : Dev nD) (i : grid0.Coords) (arg1 : Memref sig .tc .vmem S4096x32 .i32) (harg1 : arg1.IsWhole)
    (arg2 : Memref sig .tc .vmem S1x128 .f32) (harg2 : arg2.IsWhole) (X : BufTy.Contents (Elt F) arg1.view.ty)
    (k : Fin k0_t1_loop.trips) :
    (trip_k0_t1 (F := F) Variants.none c none i arg1 harg1 arg2 harg2 X k).1
      = fun acc => k0_pay3 i acc (trip_k0_t1.sl.r arg1 X k) (trip_k0_t1.sl.v125 i arg1 X k) (trip_k0_t1.sl.v126 arg1 X k) := by
  unfold trip_k0_t1
  dsimp only

/-- The rows the trip loads are the chunk. -/
theorem trip_chunk_eq (arg1 : Memref sig .tc .vmem S4096x32 .i32) (X : BufTy.Contents (Elt F) arg1.view.ty) (k : Fin k0_t1_loop.trips) :
    trip_k0_t1.sl.r (F := F) arg1 X k = chunkOf arg1 X k := rfl

set_option maxHeartbeats 1000000 in
/-- The mask the trip has built before its last part is the disjunction of the chunk's first 22 columns' comparisons. -/
theorem trip_mask22_eq (i : grid0.Coords) (arg1 : Memref sig .tc .vmem S4096x32 .i32) (X : BufTy.Contents (Elt F) arg1.view.ty) (k : Fin k0_t1_loop.trips) :
    trip_k0_t1.sl.v125 (F := F) i arg1 X k = orChain (chunkOf arg1 X k) (k0_pay1 i) 22 (by decide) := rfl

/-- The column the trip's last part starts from is column 22 of the chunk. -/
theorem trip_col22_eq (arg1 : Memref sig .tc .vmem S4096x32 .i32) (X : BufTy.Contents (Elt F) arg1.view.ty) (k : Fin k0_t1_loop.trips) :
    trip_k0_t1.sl.v126 (F := F) arg1 X k = extractStridedSlice S512x1 ![0, 22] (chunkOf arg1 X k) (slices_col (by decide)) := rfl

set_option maxHeartbeats 1000000 in
/-- The trip's last part, from the first 22 columns' mask: the remaining ten columns are joined in, the 0/1 mask is summed
    down its rows and added to the carried vector. -/
theorem pay3_eq (i : grid0.Coords) (acc : FVec F S1x128 .f32) (r : Vec F S512x32 .i32) :
    k0_pay3 i acc r (orChain r (k0_pay1 i) 22 (by decide)) (extractStridedSlice S512x1 ![0, 22] r (slices_col (by decide)))
      = addf acc (shapeCast S1x128 (multiReduction .add [0] S128
          (sitofp .f32 (extui 32 (orChain r (k0_pay1 i) 32 (Nat.le_refl _)) natLt_1_32))
          0x00000000#32 reduces_S512x128_S128 (.inl rfl) rfl) shapeCasts_S128_S1x128) := rfl

end Trip

/-! ### Reading the trip at the ideal instance -/

section Value

/-- The source index of a column sum over result lane `l` with row `b` put back is `(b, l)`. -/
theorem lift_row (b : Fin 512) (l : Fin 128) :
    reduces_S512x128_S128.lift (ix1 l) b = ix2 b l := by
  funext a; apply Fin.ext
  match a with
  | ⟨0, _⟩ => rfl
  | ⟨1, _⟩ => rfl

/-- The carried vector plus the column sums of a 0/1 mask, at lane `l`: the count of the mask's rows set there is added. -/
theorem colsum_apply (acc : FVec Ideal S1x128 .f32) (m : IVec S512x128 1) (l : Fin 128) :
    addf acc (shapeCast S1x128 (multiReduction .add [0] S128 (sitofp .f32 (extui 32 m natLt_1_32))
        0x00000000#32 reduces_S512x128_S128 (.inl rfl) rfl) shapeCasts_S128_S1x128) (ix2 0 l)
      = acc (ix2 0 l) + ∑ b : Fin 512, (if m (ix2 b l) = 1#1 then (1 : EReal) else 0) := by
  rw [addf_apply]
  refine congrArg (acc (ix2 0 l) + ·) ?_
  refine (shapeCast_a_1a_apply _ _ 0 l).trans ?_
  refine (Ideal.multiReduction_add_single _ _ reduces_S512x128_S128 _ _ (ix1 l)).trans ?_
  show (∑ b : Fin 512, (sitofp .f32 (extui 32 m natLt_1_32) : FVec Ideal S512x128 .f32) (reduces_S512x128_S128.lift (ix1 l) b)) = _
  refine Finset.sum_congr rfl fun b _ => ?_
  rw [lift_row b l]
  exact bit_toReal (m (ix2 b l))

/-- The chunk trip `k` loads is rows `512 k …` of the table. -/
theorem chunk_apply {F : FTy → Type} (arg1 : Memref sig .tc .vmem S4096x32 .i32) (harg1 : arg1.IsWhole) (x0 : Vec F S4096x32 .i32)
    (k : Fin k0_t1_loop.trips) (b : Fin 512) (kk : Fin 32) (hb : 512 * k.val + b.val < 4096) :
    chunkOf arg1 (harg1.unread x0) k (ix2 b kk) = x0 (ix2 ⟨512 * k.val + b.val, hb⟩ kk) := by
  show View.readAt (Elt F) arg1.view (Rect.unit (s := S4096x32) (k0_off1 k) S512x32.size (k0_off1_inb k)).toLoadRect (harg1.unread x0) (ix2 b kk) = _
  rw [View.readAt_eq_ld, harg1.read_unread]
  refine congrArg x0 (funext fun a => Fin.ext ?_)
  show k0_off1 k a + 1 * (ix2 b kk a).val = _
  rw [k0_off1_eq]
  match a with
  | ⟨0, _⟩ => show 512 * k.val + 1 * b.val = 512 * k.val + b.val; omega
  | ⟨1, _⟩ => show 0 + 1 * kk.val = kk.val; omega

/-- The lane words of grid point `i`: lane `l` is the word `128 i + l`. -/
theorem uidx_apply (i : grid0.Coords) (l : Fin 128) : k0_pay1 i (ix2 0 l) = colWord 128 (i 0).val l.val := by
  show BitVec.ofNat 32 (i 0).val * 128#32 + BitVec.ofNat 32 (0 * 128 + l.val) = BitVec.ofNat 32 ((i 0).val * 128 + l.val)
  rw [Nat.zero_mul, Nat.zero_add, BitVec.ofNat_add, BitVec.ofNat_mul]

/-- Row `j` of the table names the word `w`, as 0/1; 0 past the table. -/
def rowG (x : (⟨2, ![4096, 32]⟩ : Shape).Idx → BitVec 32) (w : BitVec 32) (j : ℕ) : EReal :=
  if h : j < 4096 then rowMask x ⟨j, h⟩ w else 0

/-- Two 0/1 indicators of equivalent conditions agree. -/
theorem ite_one_zero_congr {P Q : Prop} {dp : Decidable P} {dq : Decidable Q} (h : P ↔ Q) :
    (if P then (1 : EReal) else 0) = if Q then 1 else 0 := by
  by_cases hq : Q
  · rw [if_pos hq, if_pos (h.mpr hq)]
  · rw [if_neg hq, if_neg (mt h.mp hq)]

/-- Trip `k` adds to lane `l` the number of rows `512 k ≤ j < 512 (k + 1)` naming the lane's word. -/
theorem trip_apply (c : Dev nD) (i : grid0.Coords) (arg1 : Memref sig .tc .vmem S4096x32 .i32) (harg1 : arg1.IsWhole)
    (arg2 : Memref sig .tc .vmem S1x128 .f32) (harg2 : arg2.IsWhole) (x0 : Vec Ideal S4096x32 .i32)
    (k : Fin k0_t1_loop.trips) (acc : FVec Ideal S1x128 .f32) (l : Fin 128) :
    tripR_k0_t1 (F := Ideal) Variants.none c none i arg1 harg1 arg2 harg2 (harg1.unread x0) k acc (ix2 0 l)
      = acc (ix2 0 l) + ∑ b : Fin 512, rowG x0 (colWord 128 (i 0).val l.val) (512 * k.val + b.val) := by
  have hk : k.val < 8 := Nat.lt_of_lt_of_le k.isLt k0_t1_abs.2.1
  show (trip_k0_t1 (F := Ideal) Variants.none c none i arg1 harg1 arg2 harg2 (harg1.unread x0) k).1 acc (ix2 0 l) = _
  rw [trip_open]
  refine (congrFun (pay3_eq i acc (chunkOf arg1 (harg1.unread x0) k)) (ix2 0 l)).trans ?_
  rw [colsum_apply]
  refine congrArg (acc (ix2 0 l) + ·) (Finset.sum_congr rfl fun b _ => ?_)
  have hb : 512 * k.val + b.val < 4096 := by have := b.isLt; omega
  unfold rowG rowMask rowHit
  rw [dif_pos hb]
  refine ite_one_zero_congr ?_
  rw [orChain_apply]
  constructor
  · rintro ⟨kk, -, e⟩
    refine ⟨kk, ?_⟩
    rw [← chunk_apply arg1 harg1 x0 k b kk hb, e, uidx_apply]
  · rintro ⟨kk, e⟩
    refine ⟨kk, kk.isLt, ?_⟩
    rw [chunk_apply arg1 harg1 x0 k b kk hb, uidx_apply]; exact e

/-! ### The loop: the carried vector before trip `n` counts the first `512 n` rows -/

/-- The loop makes eight trips. -/
theorem trips_eq : k0_t1_loop.trips = 8 := by decide

/-- Before trip `n` lane `l` of the carried vector is the number of rows `j < 512 n` naming the lane's word. -/
theorem st_apply (c : Dev nD) (i : grid0.Coords) (arg1 : Memref sig .tc .vmem S4096x32 .i32) (harg1 : arg1.IsWhole)
    (arg2 : Memref sig .tc .vmem S1x128 .f32) (harg2 : arg2.IsWhole) (x0 : Vec Ideal S4096x32 .i32) (l : Fin 128)
    (n : ℕ) (hn : n ≤ 8) :
    st_k0_t1 (F := Ideal) Variants.none c none i arg1 harg1 arg2 harg2 (harg1.unread x0) k0_pay2 n (ix2 0 l)
      = ∑ j ∈ Finset.range (512 * n), rowG x0 (colWord 128 (i 0).val l.val) j := by
  induction n with
  | zero =>
    show Ideal.ofBits .f32 0x00000000#32 = _
    rw [Ideal.ofBits_zero_f32, Nat.mul_zero, Finset.range_zero, Finset.sum_empty]
  | succ n ih =>
    have h8 := trips_eq
    have hlt : n < k0_t1_loop.trips := by omega
    have hs := st_k0_t1_succ (F := Ideal) Variants.none c none i arg1 harg1 arg2 harg2 (harg1.unread x0) k0_pay2 ⟨n, hlt⟩
    rw [show st_k0_t1 (F := Ideal) Variants.none c none i arg1 harg1 arg2 harg2 (harg1.unread x0) k0_pay2 (n + 1)
        = tripR_k0_t1 (F := Ideal) Variants.none c none i arg1 harg1 arg2 harg2 (harg1.unread x0) ⟨n, hlt⟩
            (st_k0_t1 (F := Ideal) Variants.none c none i arg1 harg1 arg2 harg2 (harg1.unread x0) k0_pay2 n) from hs]
    rw [trip_apply, ih (Nat.le_of_succ_le hn), Nat.mul_succ, Finset.sum_range_add, Finset.sum_range (n := 512)]

end Value

/-! ### The block the grid point leaves -/

section Final
variable {F : FTy → Type} [FloatOps F]

/-- The one piece the body's store leaves: max (sqrt ·) 1 of the loop's result. -/
theorem run0_pieces (c : Dev nD) (i : grid0.Coords) (arg1 : Memref sig .tc .vmem S4096x32 .i32) (harg1 : arg1.IsWhole)
    (arg2 : Memref sig .tc .vmem S1x128 .f32) (harg2 : arg2.IsWhole) (x0 : Vec F S4096x32 .i32) :
    (run0 (F := F) c i arg1 harg1 arg2 harg2 x0).1
      = [⟨Rect.unit ![0, 0] ![1, 128] inb_S1x128_S1x128_0_0,
          k0_pay4 (st_k0_t1 Variants.none c none i arg1 harg1 arg2 harg2 (harg1.unread x0) k0_pay2 8)⟩] := by
  unfold run0
  dsimp only
  rfl

end Final

/-- The zero offsets of a rank-2 rectangle, as a function. -/
theorem zero_off2 : (![0, 0] : Fin 2 → ℕ) = fun _ => 0 := by
  funext a
  match a with
  | ⟨0, _⟩ => rfl
  | ⟨1, _⟩ => rfl

end Val0

open Val0

/-- Lane l of the block that grid point i stores: max (sqrt (the number of table rows naming column 128·i + l)) 1. -/
theorem out0_1_apply (c : Dev nD) (i : grid0.Coords) (arg1 : Memref sig .tc .vmem S4096x32 .i32) (harg1 : arg1.IsWhole)
    (arg2 : Memref sig .tc .vmem S1x128 .f32) (harg2 : arg2.IsWhole) (x0 : Vec Ideal S4096x32 .i32) (l : Fin 128) :
    out0_1 (F := Ideal) c i arg1 harg1 arg2 harg2 x0 (ix2 0 l)
      = max (Ideal.sqrt (tileColSum x0 128 (i 0).val l.val)) 1 := by
  unfold out0_1
  rw [View.read_writes_eq_canon _ _ _ (cover0_1 c i arg1 harg1 arg2 harg2 x0), run0_pieces,
    View.canon_unit_zero (S := S1x128) zero_off2]
  show max (Ideal.sqrt (st_k0_t1 (F := Ideal) Variants.none c none i arg1 harg1 arg2 harg2 (harg1.unread x0) k0_pay2 8 (ix2 0 l)))
      (Ideal.ofBits .f32 0x3F800000#32) = _
  rw [Ideal.ofBits_one_f32, st_apply c i arg1 harg1 arg2 harg2 x0 l 8 (Nat.le_refl _), Finset.sum_range]
  unfold tileColSum
  refine congrArg (fun s => max (Ideal.sqrt s) 1) (Finset.sum_congr rfl fun b _ => ?_)
  unfold rowG
  rw [dif_pos b.isLt]

end Cert.KernelIdeal.Hand

end
-- ==== Proof.KI.Val0Array.lean ====
/-
  What the column-norm region leaves in its result array: entry (0, u) of the [1, 32768] array is the column normaliser
  of column u of the neighbour table the region was entered with — every point writes its own 128 lanes back, and the
  256 points' blocks tile the array.

  The steps: the input block at every point is the whole table (its block index is (0, 0) and the block has the
  array's own sizes); lane l of the 128-wide tile t is column 128·t + l, so the tile's count over the whole table is
  that column's count; hence what point t writes back is block (0, t) of the array u ↦ max (sqrt (colCount u)) 1;
  lane u lies in the block of point u / 128, so the blocks cover the array and it ends holding that function.
-/
import proofs.«426239_j15745350107506_3_alg».proof.Proof.KI.Segs
import proofs.«426239_j15745350107506_3_alg».proof.Proof.KI.Val0Point

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.AggSpec Idealize.ShloMosaic.ValueIdx

variable (m : (ℓ : Loc nD τ sig) → Buf (Elt Ideal) ℓ)

/-- The grid's 256 points, one by one: the grid coordinate is the point's number, the table's block index is (0, 0),
    the result's is (0, t). -/
theorem colnorm_grid_facts : ∀ t : Fin cfg0.N, ((grid0.coords t) 0).val = t.val
    ∧ win0_0.index t (0 : Fin 2) = 0 ∧ win0_0.index t (1 : Fin 2) = 0
    ∧ win0_1.index t (0 : Fin 2) = 0 ∧ win0_1.index t (1 : Fin 2) = t.val :=
  (by decide +kernel : ∀ t : Fin grid0.N, _)

/-- The [1, 32768] array of the column normalisers of a neighbour table: entry (0, u) is max (sqrt (colCount u)) 1. -/
abbrev colnormArr (n : SN.Idx → BitVec 32) : S1x32768.Idx → EReal := fun j => colDen n (j 1)

/-- The region's one input block is the whole neighbour table, at every point: entry y of block (0, 0) of the array's own
    sizes sits at 0·4096 + y₀, 0·32 + y₁. -/
theorem colnorm_table_block (c : Dev nD) (t : Fin cfg0.N) :
    (iblk0 (E1 m) c 0 t : Vec Ideal S4096x32 .i32) = (E1 m c main_arg0 : S4096x32.Idx → Elt Ideal .i32) := by
  obtain ⟨-, e0, e1, -, -⟩ := colnorm_grid_facts t
  funext y
  unfold iblk0
  rw [View.read_apply]
  show (E1 m c main_arg0 : S4096x32.Idx → Elt Ideal .i32) (((cfg0.win 0).blk t).view.emb y) = E1 m c main_arg0 y
  refine congrArg _ (funext fun a => Fin.ext ?_)
  match a with
  | ⟨0, _⟩ => show win0_0.index t (0 : Fin 2) * 4096 + 1 * (y 0).val = (y 0).val; rw [e0]; omega
  | ⟨1, _⟩ => show win0_0.index t (1 : Fin 2) * 32 + 1 * (y 1).val = (y 1).val; rw [e1]; omega

/-- Lane l of the 128-wide tile t is column u = 128·t + l: the word the rows are compared against is the same, so the
    tile's count over the whole table is that column's count, row by row. -/
theorem colnorm_tile_eq_colCount (n : SN.Idx → BitVec 32) (t l : Nat) (u : Fin 32768) (hu : u.val = 128 * t + l) :
    tileColSum n 128 t l = colCount n u := by
  have hw : colWord 128 t l = BitVec.ofNat 32 u.val := by unfold colWord; rw [hu, Nat.mul_comm]
  unfold tileColSum colCount
  refine Finset.sum_congr rfl fun b _ => ?_
  unfold rowMask mask rowHit hit
  rw [hw]

/-- One lane's value: over the whole table, max (sqrt (the tile's count at lane l)) 1 is column u's normaliser. -/
theorem colnorm_lane_value (n : SN.Idx → BitVec 32) (x0 : Vec Ideal S4096x32 .i32) (hx : x0 = n) (t l : Nat) (u : Fin 32768)
    (hu : u.val = 128 * t + l) : max (Ideal.sqrt (tileColSum x0 128 t l)) 1 = colDen n u := by
  subst hx
  unfold colDen
  rw [colnorm_tile_eq_colCount x0 t l u hu]

/-- What point t writes back is lanes [128·t, 128·t + 128) of the column normalisers of the table the region was entered
    with: lane l of the block sits at column t·128 + l of the array. -/
theorem colnorm_flushed_eq (c : Dev nD) (t : Fin cfg0.N) :
    (d0 (F := Ideal) m c).flushed 1 t = ((cfg0.win 1).blk t).view.read (Elt Ideal) (colnormArr (E1 m c main_arg0)) := by
  obtain ⟨ec, -, -, f0, f1⟩ := colnorm_grid_facts t
  show (cfg0.win 1).cut (grid0.coords t) ((d0 (F := Ideal) m c).after 1 t) = _
  rw [after0_1]
  funext y
  have hl : (y 1).val < 128 := (y 1).isLt
  have h0 : (y 0).val = 0 := by have : (y 0).val < 1 := (y 0).isLt; omega
  have hx : (cfg0.win 1).xinj (grid0.coords t) y = (ix2 (0 : Fin 1) (⟨(y 1).val, hl⟩ : Fin 128) : S1x128.Idx) :=
    funext fun a => Fin.ext (match a with | ⟨0, _⟩ => h0 | ⟨1, _⟩ => rfl)
  show out0_1 (F := Ideal) c (grid0.coords t) (ms0_0 t) (hs0_0 t) (ms0_1 t) (hs0_1 t) (iblk0 (E1 m) c 0 t) ((cfg0.win 1).xinj (grid0.coords t) y) = _
  refine (congrArg _ hx).trans ?_
  refine (out0_1_apply c (grid0.coords t) (ms0_0 t) (hs0_0 t) (ms0_1 t) (hs0_1 t) (iblk0 (E1 m) c 0 t) ⟨(y 1).val, hl⟩).trans ?_
  rw [View.read_apply]
  show _ = colDen (E1 m c main_arg0) ((((cfg0.win 1).blk t).view.emb y) 1)
  refine colnorm_lane_value (E1 m c main_arg0) _ (colnorm_table_block m c t) _ _ _ ?_
  show win0_1.index t (1 : Fin 2) * 128 + 1 * (y 1).val = 128 * ((grid0.coords t) 0).val + (y 1).val
  rw [f1, ec]; omega

/-- An index of the result array is among point t's lanes iff each coordinate is in the block's range on its axis. -/
theorem colnorm_mem_lanes (t : Fin cfg0.N) (i : S1x32768.Idx) :
    i ∈ ((cfg0.win 1).blk t).view.set ↔ ∀ a : Fin 2, win0_1.index t a * S1x128.size a ≤ (i a).val ∧ (i a).val < win0_1.index t a * S1x128.size a + S1x128.size a := by
  show i ∈ ((View.whole main_v8).slice (win0_1.rect t)).set ↔ _
  rw [View.set_slice_whole, Rect.mem_set_unit]
  exact Iff.rfl

/-- Column u lies in the block of point u / 128 (and row 0 in every block), so the 256 points' blocks cover the result
    array: after the region it holds the column normalisers. -/
theorem colnorm_array (c : Dev nD) : (d0 (F := Ideal) m c).arrAt 1 cfg0.N = colnormArr (E1 m c main_arg0) :=
  (d0 (F := Ideal) m c).arrAt_eq_of_cover 1 (colnormArr (E1 m c main_arg0)) (fun t _ => colnorm_flushed_eq m c t) fun i => by
    have hi0 : (i 0).val < 1 := (i 0).isLt
    have hi1 : (i 1).val < 32768 := (i 1).isLt
    have hN : cfg0.N = 256 := N_0
    have ht : (i 1).val / 128 < cfg0.N := by rw [hN]; omega
    obtain ⟨-, -, -, f0, f1⟩ := colnorm_grid_facts ⟨(i 1).val / 128, ht⟩
    refine ⟨⟨(i 1).val / 128, ht⟩, flush0_1 _, ?_⟩
    rw [colnorm_mem_lanes]
    intro a
    match a with
    | ⟨0, _⟩ =>
      show win0_1.index ⟨(i 1).val / 128, ht⟩ (0 : Fin 2) * 1 ≤ (i 0).val ∧ (i 0).val < win0_1.index ⟨(i 1).val / 128, ht⟩ (0 : Fin 2) * 1 + 1
      rw [f0]; omega
    | ⟨1, _⟩ =>
      show win0_1.index ⟨(i 1).val / 128, ht⟩ (1 : Fin 2) * 128 ≤ (i 1).val ∧ (i 1).val < win0_1.index ⟨(i 1).val / 128, ht⟩ (1 : Fin 2) * 128 + 128
      rw [f1]
      show (i 1).val / 128 * 128 ≤ (i 1).val ∧ (i 1).val < (i 1).val / 128 * 128 + 128
      omega

/-- Entry (0, u) of the result array is the column normaliser of column u of the table the region was entered with. -/
theorem colnorm_value (c : Dev nD) (u : Fin 32768) :
    ((d0 (F := Ideal) m c).arrAt 1 cfg0.N : S1x32768.Idx → EReal) (ix2 0 u) = colDen (E1 m c main_arg0) u := by
  rw [colnorm_array m c]

end Cert.KernelIdeal.Hand

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.KI.Val1Cases.lean ====
/-
  What the aggregation kernel leaves in its two accumulators and its output block at one grid point, read at an index,
  at the ideal instance, in each of the three cases: column tile 0 (the accumulators are this tile's contribution),
  a later tile (what the tile before left, plus this tile's contribution), and the last tile (the same, and the output
  block is the accumulator divided by the square root of the row counts).

  The road. One trip of the loop over the four 64-row chunks stores, into each accumulator, the chunk's rows of what
  the accumulator held plus the chunk's partial (its row counts; its masked, normalised product with the embedding
  tile). Trip k's rows [64 k, 64 k + 64) are disjoint from the rows of the trips before it, so what it loads is what
  the loop found there, and after the four trips every row holds what the loop found plus its chunk's partial. The
  partials are read at an index: the 32-fold or of equality tests is the indicator that the row names the lane's word,
  the lane sum and the matrix product into a zero accumulator are plain sums over the 1024 lanes.
-/
import proofs.«426239_j15745350107506_3_alg».proof.Proof.KI.Dat1
import proofs.«426239_j15745350107506_3_alg».proof.Proof.ValDefs
import proofs.«426239_j15745350107506_3_alg».proof.Proof.LibPlainDot
import Idealize.ShloMosaic.PureOps.Ideal.Laws
import Idealize.ShloMosaic.Lib.Pipeline.Value
import Idealize.ShloMosaic.Lib.ValueLayout
import Idealize.ShloMosaic.Lib.WritesUnit
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.AggSpec Idealize.ShloMosaic.ValueIdx

namespace Agg1

/-! ## Words -/

/-- An or of two bits is set exactly when one of them is. -/
theorem ori_eq_one_iff (a b : BitVec 1) : IntOp.ori a b = 1#1 ↔ (a = 1#1 ∨ b = 1#1) := by
  rcases BitVec.eq_zero_or_eq_one a with rfl | rfl <;> rcases BitVec.eq_zero_or_eq_one b with rfl | rfl <;> decide

/-- The equality test's bit is set exactly when the words are equal. -/
theorem cmpi_eq_eq_one_iff (x y : BitVec 32) : IntOp.cmpi .eq x y = 1#1 ↔ x = y := by
  show BitVec.ofBool (x == y) = 1#1 ↔ x = y
  constructor
  · intro h
    by_contra hne
    have e : (x == y) = false := by simpa using hne
    rw [e] at h
    exact absurd h (by decide)
  · rintro rfl
    rw [beq_self_eq_true]; rfl

/-- A bit widened and read as a signed integer at the ideal instance: 1 when set, else 0. -/
theorem sitofp_bit (b : BitVec 1) (P : Prop) (hb : b = 1#1 ↔ P) :
    FloatOps.sitofp (F := Ideal) .f32 (b.setWidth 32) = (open Classical in if P then (1 : EReal) else 0) := by
  rcases BitVec.eq_zero_or_eq_one b with rfl | rfl
  · have hP : ¬P := fun h => absurd (hb.mpr h) (by decide)
    rw [if_neg hP]
    show (((0#1 : BitVec 1).setWidth 32).toInt : ℝ) = ((0 : ℝ) : EReal)
    norm_num
  · have hP : P := hb.mp rfl
    rw [if_pos hP]
    show (((1#1 : BitVec 1).setWidth 32).toInt : ℝ) = ((1 : ℝ) : EReal)
    norm_num

/-! ## The mask of one chunk -/

/-- Some entry of row `r'` of the chunk among the first `n` is the word `w`. -/
def hitBelow (ch : S64x32.Idx → BitVec 32) (r' : Fin 64) (w : BitVec 32) (n : ℕ) : Prop :=
  ∃ k : Fin 32, k.val < n ∧ ch (ix2 r' k) = w

/-- Column `n` of the chunk, broadcast along the lanes, read at (r', l): the chunk's entry (r', n). -/
theorem col_apply (ch : S64x32.Idx → BitVec 32) (n : ℕ) (hn : n < 32) (hs : S64x32.Slices ![0, n] S64x1)
    (hb : S64x1.Broadcasts S64x1024) (r' : Fin 64) (l : Fin 1024) :
    broadcastTo S64x1024 (extractStridedSlice S64x1 ![0, n] ch hs) hb (ix2 r' l) = ch (ix2 r' ⟨n, hn⟩) := by
  refine (broadcastTo_apply _ hb (ix2 r' l) (ix2 r' (0 : Fin 1)) (fun a => ?_)).trans ?_
  · match a with
    | ⟨0, _⟩ => rfl
    | ⟨1, _⟩ => rfl
  · exact slice2_axis1_apply n ch hs r' (0 : Fin 1) ⟨n, hn⟩ (by simp)

/-- The lane words, broadcast along the rows, read at (r', l): lane `l`'s word. -/
theorem lane_apply {α : Type} (v6 : S1x1024.Idx → α) (hb : S1x1024.Broadcasts S64x1024) (r' : Fin 64) (l : Fin 1024) :
    broadcastTo S64x1024 v6 hb (ix2 r' l) = v6 (ix2 (0 : Fin 1) l) := by
  refine broadcastTo_apply _ hb (ix2 r' l) (ix2 (0 : Fin 1) l) (fun a => ?_)
  match a with
  | ⟨0, _⟩ => rfl
  | ⟨1, _⟩ => rfl

/-- One more column or-ed in. -/
theorem hit_step (ch : S64x32.Idx → BitVec 32) (v6 : IVec S1x1024 32) (r' : Fin 64) (l : Fin 1024) (n : ℕ) (hn : n < 32)
    (hs : S64x32.Slices ![0, n] S64x1) (hb : S64x1.Broadcasts S64x1024) (hb' : S1x1024.Broadcasts S64x1024)
    (acc : IVec S64x1024 1) (hacc : acc (ix2 r' l) = 1#1 ↔ hitBelow ch r' (v6 (ix2 (0 : Fin 1) l)) n) :
    ori acc (cmpi .eq (broadcastTo S64x1024 (extractStridedSlice S64x1 ![0, n] ch hs) hb) (broadcastTo S64x1024 v6 hb')) (ix2 r' l) = 1#1
      ↔ hitBelow ch r' (v6 (ix2 (0 : Fin 1) l)) (n + 1) := by
  show IntOp.ori (acc (ix2 r' l)) (IntOp.cmpi .eq (broadcastTo S64x1024 (extractStridedSlice S64x1 ![0, n] ch hs) hb (ix2 r' l))
      (broadcastTo S64x1024 v6 hb' (ix2 r' l))) = 1#1 ↔ _
  rw [ori_eq_one_iff, cmpi_eq_eq_one_iff, hacc, col_apply ch n hn hs hb r' l, lane_apply v6 hb' r' l]
  unfold hitBelow
  constructor
  · rintro (⟨k, hk, e⟩ | e)
    · exact ⟨k, by omega, e⟩
    · exact ⟨⟨n, hn⟩, Nat.lt_succ_self n, e⟩
  · rintro ⟨k, hk, e⟩
    by_cases h : k.val < n
    · exact .inl ⟨k, h, e⟩
    · have hkn : k = ⟨n, hn⟩ := Fin.ext (by show k.val = n; omega)
      subst hkn
      exact .inr e

/-- Before any column: no hit. -/
theorem hit_zero (ch : S64x32.Idx → BitVec 32) (w : BitVec 32) (r' : Fin 64) (l : Fin 1024) :
    broadcast S64x1024 (0#1 : BitVec 1) (ix2 r' l) = 1#1 ↔ hitBelow ch r' w 0 := by
  constructor
  · intro h; exact absurd (show (0#1 : BitVec 1) = 1#1 from h) (by decide)
  · rintro ⟨k, hk, _⟩; exact absurd hk (Nat.not_lt_zero _)

/-- After all 32 columns: the row names the word. -/
theorem hitBelow_all (ch : S64x32.Idx → BitVec 32) (r' : Fin 64) (w : BitVec 32) :
    hitBelow ch r' w 32 ↔ rowHit ch r' w :=
  ⟨fun ⟨k, _, e⟩ => ⟨k, e⟩, fun ⟨k, e⟩ => ⟨k, k.isLt, e⟩⟩

/-- THE MASK of a chunk at (r', l), as 1.0 / 0.0: whether row `r'` of the chunk names lane `l`'s word. -/
theorem pay13_apply (v6 : IVec S1x1024 32) (ch : Vec Ideal S64x32 .i32) (r' : Fin 64) (l : Fin 1024) :
    k1_pay13 (F := Ideal) v6 ch (k1_pay11 (F := Ideal) v6 ch (k1_pay9 (F := Ideal) v6 ch) (k1_pay10 (F := Ideal) ch)) (k1_pay12 (F := Ideal) ch) (ix2 r' l)
      = rowMask ch r' (v6 (ix2 (0 : Fin 1) l)) := by
  unfold k1_pay13 k1_pay11 k1_pay9 k1_pay10 k1_pay12
  dsimp only
  refine (sitofp_bit _ (hitBelow ch r' (v6 (ix2 (0 : Fin 1) l)) 32) ?_).trans ?_
  · iterate 32 (refine hit_step ch v6 r' l _ (by decide) _ _ _ _ ?_)
    exact hit_zero ch _ r' l
  · unfold rowMask
    by_cases h : rowHit ch r' (v6 (ix2 (0 : Fin 1) l))
    · rw [if_pos h, if_pos ((hitBelow_all ch r' _).mpr h)]
    · rw [if_neg h, if_neg (fun h' => h ((hitBelow_all ch r' _).mp h'))]

/-- Lane `l`'s word of column tile `i 1`. -/
theorem pay3_apply (i : grid1.Coords) (l : Fin 1024) : k1_pay3 i (ix2 (0 : Fin 1) l) = colWord 1024 (i 1).val l.val := by
  unfold k1_pay3
  dsimp only
  show IntOp.addi (Scalar.muli (BitVec.ofNat 32 (i 1).val) 1024#32) (iota .tc S1x1024 32 [1] _ (ix2 (0 : Fin 1) l)) = _
  rw [iota_single_apply]
  show BitVec.ofNat 32 (i 1).val * BitVec.ofNat 32 1024 + BitVec.ofNat 32 l.val = BitVec.ofNat 32 ((i 1).val * 1024 + l.val)
  rw [← BitVec.ofNat_mul, ← BitVec.ofNat_add]

/-- A chunk's mask, from the chunk alone. -/
abbrev chunkMask (i : grid1.Coords) (ch : Vec Ideal S64x32 .i32) : FVec Ideal S64x1024 .f32 :=
  k1_pay13 (F := Ideal) (k1_pay3 i) ch (k1_pay11 (F := Ideal) (k1_pay3 i) ch (k1_pay9 (F := Ideal) (k1_pay3 i) ch) (k1_pay10 (F := Ideal) ch)) (k1_pay12 (F := Ideal) ch)

/-- The chunk's mask at (r', l), over the tile's lane words. -/
theorem chunkMask_apply (i : grid1.Coords) (ch : Vec Ideal S64x32 .i32) (r' : Fin 64) (l : Fin 1024) :
    chunkMask i ch (ix2 r' l) = rowMask ch r' (colWord 1024 (i 1).val l.val) := by
  rw [← pay3_apply]; exact pay13_apply (k1_pay3 i) ch r' l

/-- A chunk's ROW COUNTS at row r': how many lanes of the tile the row names. -/
theorem pay14_apply (i : grid1.Coords) (ch : Vec Ideal S64x32 .i32) (r' : Fin 64) :
    k1_pay14 (F := Ideal) (k1_pay3 i) ch (k1_pay11 (F := Ideal) (k1_pay3 i) ch (k1_pay9 (F := Ideal) (k1_pay3 i) ch) (k1_pay10 (F := Ideal) ch)) (k1_pay12 (F := Ideal) ch) (ix2 r' (0 : Fin 1))
      = ∑ l : Fin 1024, rowMask ch r' (colWord 1024 (i 1).val l.val) := by
  unfold k1_pay14
  dsimp only
  refine (shapeCast_apply _ _ (ix2 r' (0 : Fin 1)) (ix1 r') ?_).trans ?_
  · rw [Shape.rowMajor_val_one, Shape.rowMajor_val_two]; show r'.val = r'.val * 1 + 0; omega
  refine (Ideal.multiReduction_add_single _ _ _ _ _ (ix1 r')).trans ?_
  refine Finset.sum_congr rfl (fun l _ => ?_)
  refine Eq.trans (congrArg _ (funext fun a => ?_)) (chunkMask_apply i ch r' l)
  match a with
  | ⟨0, _⟩ => rfl
  | ⟨1, _⟩ => rfl

/-- A chunk's PARTIAL PRODUCT at (r', d): the tile's lanes the row names, each over its normaliser, times the embedding. -/
theorem pay15_apply (i : grid1.Coords) (x3 : Vec Ideal S1x1024 .f32) (x4 : Vec Ideal S1024x128 .bf16) (ch : Vec Ideal S64x32 .i32) (r' : Fin 64) (d : Fin 128) :
    k1_pay15 (F := Ideal) (k1_pay3 i) (k1_pay4 (F := Ideal) x3) (k1_pay5 (F := Ideal) x4) ch (k1_pay11 (F := Ideal) (k1_pay3 i) ch (k1_pay9 (F := Ideal) (k1_pay3 i) ch) (k1_pay10 (F := Ideal) ch)) (k1_pay12 (F := Ideal) ch) (ix2 r' d)
      = ∑ l : Fin 1024, Ideal.div (rowMask ch r' (colWord 1024 (i 1).val l.val)) (x3 (ix2 (0 : Fin 1) l)) * x4 (ix2 l d) := by
  unfold k1_pay15
  dsimp only
  refine (Cert.LibPlainDot.matmul_zero_apply _ rfl none _ _ r' d).trans ?_
  refine Finset.sum_congr rfl (fun l _ => ?_)
  have e2 : broadcastTo S64x1024 (k1_pay4 (F := Ideal) x3) broadcasts_S1x1024_S64x1024 (ix2 r' l) = x3 (ix2 (0 : Fin 1) l) := by
    rw [lane_apply]; unfold k1_pay4; exact congrFun (shapeCast_self _ _) _
  have e3 : k1_pay5 (F := Ideal) x4 = x4 := by unfold k1_pay5; exact shapeCast_self _ _
  show Ideal.div (chunkMask i ch (ix2 r' l)) (broadcastTo S64x1024 (k1_pay4 (F := Ideal) x3) broadcasts_S1x1024_S64x1024 (ix2 r' l)) * k1_pay5 (F := Ideal) x4 (ix2 l d) = _
  rw [chunkMask_apply, e2, e3]

/-! ## One trip, and the loop -/

/-- The loop makes four trips. -/
theorem trips_eq : k1_t1_loop.trips = 4 := by decide +kernel

/-- Chunk `k` of the neighbour block: its rows 64 k … 64 k + 63, as the trip loads them. -/
abbrev chunkAt (arg2 : Memref sig .tc .vmem S256x32 .i32) (X : BufTy.Contents (Elt Ideal) arg2.view.ty) (k : Fin k1_t1_loop.trips) : Vec Ideal S64x32 .i32 :=
  View.readAt (Elt Ideal) arg2.view (Rect.unit (s := S256x32) (k1_off1 k) S64x32.size (k1_off1_inb k)).toLoadRect X

/-- A chunk's partial product and row counts, from the chunk alone. -/
abbrev part15 (i : grid1.Coords) (v7 : Vec Ideal S1x1024 .f32) (v9 : Vec Ideal S1024x128 .bf16) (ch : Vec Ideal S64x32 .i32) : FVec Ideal S64x128 .f32 :=
  k1_pay15 (F := Ideal) (k1_pay3 i) (k1_pay4 (F := Ideal) v7) (k1_pay5 (F := Ideal) v9) ch (k1_pay11 (F := Ideal) (k1_pay3 i) ch (k1_pay9 (F := Ideal) (k1_pay3 i) ch) (k1_pay10 (F := Ideal) ch)) (k1_pay12 (F := Ideal) ch)
abbrev part14 (i : grid1.Coords) (ch : Vec Ideal S64x32 .i32) : FVec Ideal S64x1 .f32 :=
  k1_pay14 (F := Ideal) (k1_pay3 i) ch (k1_pay11 (F := Ideal) (k1_pay3 i) ch (k1_pay9 (F := Ideal) (k1_pay3 i) ch) (k1_pay10 (F := Ideal) ch)) (k1_pay12 (F := Ideal) ch)

/-- ONE TRIP's pieces: into each accumulator one store of the chunk's 64 rows, of what those rows held plus the chunk's partial. -/
theorem tripL_eq (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (v7 : Vec Ideal S1x1024 .f32) (v9 : Vec Ideal S1024x128 .bf16) (X : BufTy.Contents (Elt Ideal) arg2.view.ty) (k : Fin k1_t1_loop.trips)
    (f6 : BufTy.Contents (Elt Ideal) arg6.view.ty) (f7 : BufTy.Contents (Elt Ideal) arg7.view.ty) :
    tripL_k1_t1 (F := Ideal) Variants.none c none i arg2 harg2 arg3 harg3 arg4 harg4 arg5 harg5 arg6 harg6 arg7 harg7 v7 v9 X k f6 f7
      = ([⟨Rect.unit (s := S256x128) (k1_off2 k) S64x128.size (k1_off2_inb k),
            k1_pay6 (F := Ideal) (part15 i v7 v9 (chunkAt arg2 X k)) (View.readAt (Elt Ideal) arg6.view (Rect.unit (s := S256x128) (k1_off2 k) S64x128.size (k1_off2_inb k)).toLoadRect f6)⟩],
         [⟨Rect.unit (s := S256x1) (k1_off3 k) S64x1.size (k1_off3_inb k),
            k1_pay7 (F := Ideal) (part14 i (chunkAt arg2 X k)) (View.readAt (Elt Ideal) arg7.view (Rect.unit (s := S256x1) (k1_off3 k) S64x1.size (k1_off3_inb k)).toLoadRect f7)⟩]) := by
  unfold tripL_k1_t1 trip_k1_t1
  dsimp only
  sl_unfold_run_names
  rfl

/-- The pieces after one more trip: that trip's two stores in front. -/
theorem pb_succ (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (v7 : Vec Ideal S1x1024 .f32) (v9 : Vec Ideal S1024x128 .bf16) (X : BufTy.Contents (Elt Ideal) arg2.view.ty) (G6 : BufTy.Contents (Elt Ideal) arg6.view.ty) (G7 : BufTy.Contents (Elt Ideal) arg7.view.ty) (n : ℕ) (hn : n < k1_t1_loop.trips) :
    (pb_k1_t1 (F := Ideal) Variants.none c none i arg2 harg2 arg3 harg3 arg4 harg4 arg5 harg5 arg6 harg6 arg7 harg7 v7 v9 X G6 G7 (n + 1))
      = ((⟨Rect.unit (s := S256x128) (k1_off2 ⟨n, hn⟩) S64x128.size (k1_off2_inb ⟨n, hn⟩),
            k1_pay6 (F := Ideal) (part15 i v7 v9 (chunkAt arg2 X ⟨n, hn⟩)) (View.readAt (Elt Ideal) arg6.view (Rect.unit (s := S256x128) (k1_off2 ⟨n, hn⟩) S64x128.size (k1_off2_inb ⟨n, hn⟩)).toLoadRect
              (arg6.view.writes (Elt Ideal) G6 (pb_k1_t1 (F := Ideal) Variants.none c none i arg2 harg2 arg3 harg3 arg4 harg4 arg5 harg5 arg6 harg6 arg7 harg7 v7 v9 X G6 G7 n).1))⟩ : View.Piece (Elt Ideal) S256x128 .f32) :: (pb_k1_t1 (F := Ideal) Variants.none c none i arg2 harg2 arg3 harg3 arg4 harg4 arg5 harg5 arg6 harg6 arg7 harg7 v7 v9 X G6 G7 n).1,
         (⟨Rect.unit (s := S256x1) (k1_off3 ⟨n, hn⟩) S64x1.size (k1_off3_inb ⟨n, hn⟩),
            k1_pay7 (F := Ideal) (part14 i (chunkAt arg2 X ⟨n, hn⟩)) (View.readAt (Elt Ideal) arg7.view (Rect.unit (s := S256x1) (k1_off3 ⟨n, hn⟩) S64x1.size (k1_off3_inb ⟨n, hn⟩)).toLoadRect
              (arg7.view.writes (Elt Ideal) G7 (pb_k1_t1 (F := Ideal) Variants.none c none i arg2 harg2 arg3 harg3 arg4 harg4 arg5 harg5 arg6 harg6 arg7 harg7 v7 v9 X G6 G7 n).2))⟩ : View.Piece (Elt Ideal) S256x1 .f32) :: (pb_k1_t1 (F := Ideal) Variants.none c none i arg2 harg2 arg3 harg3 arg4 harg4 arg5 harg5 arg6 harg6 arg7 harg7 v7 v9 X G6 G7 n).2) := by
  refine (pb_k1_t1_succ (F := Ideal) Variants.none c none i arg2 harg2 arg3 harg3 arg4 harg4 arg5 harg5 arg6 harg6 arg7 harg7 v7 v9 X G6 G7 ⟨n, hn⟩).trans ?_
  rw [tripL_eq]
  rfl

/-- What a trip stores into the accumulator: what it loaded plus the partial product. -/
theorem pay6_apply (a : FVec Ideal S64x128 .f32) (b : Vec Ideal S64x128 .f32) (x : S64x128.Idx) :
    k1_pay6 (F := Ideal) a b x = b x + a x := by
  unfold k1_pay6; exact congrFun (shapeCast_self _ _) x
/-- What a trip stores into the row counts: what it loaded plus the chunk's counts. -/
theorem pay7_apply (a : FVec Ideal S64x1 .f32) (b : Vec Ideal S64x1 .f32) (x : S64x1.Idx) :
    k1_pay7 (F := Ideal) a b x = b x + a x := by
  unfold k1_pay7; exact congrFun (shapeCast_self _ _) x

/-- THE ACCUMULATOR THROUGH THE LOOP: before trip `n` the rows below 64 n hold what they held at loop entry plus their
    chunk's partial product, the others what they held at loop entry. -/
theorem loop6 (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (v7 : Vec Ideal S1x1024 .f32) (v9 : Vec Ideal S1024x128 .bf16) (X : BufTy.Contents (Elt Ideal) arg2.view.ty) (G6 : BufTy.Contents (Elt Ideal) arg6.view.ty) (G7 : BufTy.Contents (Elt Ideal) arg7.view.ty) (T : Fin 256 → Fin 128 → EReal)
    (hT : ∀ (k : Fin k1_t1_loop.trips) (r' : Fin 64) (d : Fin 128) (r : Fin 256), r.val = 64 * k.val + r'.val →
      part15 i v7 v9 (chunkAt arg2 X k) (ix2 r' d) = T r d)
    (n : ℕ) (hn : n ≤ k1_t1_loop.trips) (r : Fin 256) (d : Fin 128) :
    arg6.view.read (Elt Ideal) (arg6.view.writes (Elt Ideal) G6 (pb_k1_t1 (F := Ideal) Variants.none c none i arg2 harg2 arg3 harg3 arg4 harg4 arg5 harg5 arg6 harg6 arg7 harg7 v7 v9 X G6 G7 n).1) (ix2 r d)
      = if r.val < 64 * n then arg6.view.read (Elt Ideal) G6 (ix2 r d) + T r d else arg6.view.read (Elt Ideal) G6 (ix2 r d) := by
  induction n with
  | zero => rw [if_neg (by omega)]; rfl
  | succ n ih =>
    have hn' : n < k1_t1_loop.trips := hn
    have ih' := ih (Nat.le_of_lt hn')
    rw [pb_succ c i arg2 harg2 arg3 harg3 arg4 harg4 arg5 harg5 arg6 harg6 arg7 harg7 v7 v9 X G6 G7 n hn']
    dsimp only
    by_cases hr : 64 * n ≤ r.val ∧ r.val < 64 * n + 64
    · refine (View.read_writes_cons_rows_of_mem arg6.view G6 (k1_off2_inb ⟨n, hn'⟩) _ _ (ix2 r d)
        (ix2 (⟨r.val - 64 * n, by omega⟩ : Fin 64) d) (k1_off2_eq ⟨n, hn'⟩)
        (by show r.val = 64 * n + (r.val - 64 * n); omega) rfl).trans ?_
      rw [if_pos (by omega), pay6_apply, hT ⟨n, hn'⟩ _ d r (by show r.val = 64 * n + (r.val - 64 * n); omega)]
      refine congrArg (· + T r d) ?_
      refine Eq.trans (congrArg (arg6.view.read (Elt Ideal) _) (funext fun a => Fin.ext ?_)) (ih'.trans (if_neg (by omega)))
      match a with
      | ⟨0, _⟩ =>
        show k1_off2 ⟨n, hn'⟩ 0 + 1 * (r.val - 64 * n) = r.val
        rw [show k1_off2 ⟨n, hn'⟩ 0 = 64 * n from congrFun (k1_off2_eq ⟨n, hn'⟩) 0]; omega
      | ⟨1, _⟩ =>
        show k1_off2 ⟨n, hn'⟩ 1 + 1 * d.val = d.val
        rw [show k1_off2 ⟨n, hn'⟩ 1 = 0 from congrFun (k1_off2_eq ⟨n, hn'⟩) 1]; omega
    · refine (View.read_writes_cons_rows_of_not_mem arg6.view G6 (k1_off2_inb ⟨n, hn'⟩) _ _ (ix2 r d)
        (k1_off2_eq ⟨n, hn'⟩) (show S64x128.size (0 : Fin 2) = 64 from rfl)
        (by show r.val < 64 * n ∨ 64 * n + 64 ≤ r.val; omega)).trans ?_
      rw [ih']
      by_cases h : r.val < 64 * n
      · rw [if_pos h, if_pos (by omega)]
      · rw [if_neg h, if_neg (by omega)]
/-- THE ROW COUNTS THROUGH THE LOOP: the same, with the chunk's row counts. -/
theorem loop7 (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (v7 : Vec Ideal S1x1024 .f32) (v9 : Vec Ideal S1024x128 .bf16) (X : BufTy.Contents (Elt Ideal) arg2.view.ty) (G6 : BufTy.Contents (Elt Ideal) arg6.view.ty) (G7 : BufTy.Contents (Elt Ideal) arg7.view.ty) (T : Fin 256 → Fin 1 → EReal)
    (hT : ∀ (k : Fin k1_t1_loop.trips) (r' : Fin 64) (d : Fin 1) (r : Fin 256), r.val = 64 * k.val + r'.val →
      part14 i (chunkAt arg2 X k) (ix2 r' d) = T r d)
    (n : ℕ) (hn : n ≤ k1_t1_loop.trips) (r : Fin 256) (d : Fin 1) :
    arg7.view.read (Elt Ideal) (arg7.view.writes (Elt Ideal) G7 (pb_k1_t1 (F := Ideal) Variants.none c none i arg2 harg2 arg3 harg3 arg4 harg4 arg5 harg5 arg6 harg6 arg7 harg7 v7 v9 X G6 G7 n).2) (ix2 r d)
      = if r.val < 64 * n then arg7.view.read (Elt Ideal) G7 (ix2 r d) + T r d else arg7.view.read (Elt Ideal) G7 (ix2 r d) := by
  induction n with
  | zero => rw [if_neg (by omega)]; rfl
  | succ n ih =>
    have hn' : n < k1_t1_loop.trips := hn
    have ih' := ih (Nat.le_of_lt hn')
    rw [pb_succ c i arg2 harg2 arg3 harg3 arg4 harg4 arg5 harg5 arg6 harg6 arg7 harg7 v7 v9 X G6 G7 n hn']
    dsimp only
    by_cases hr : 64 * n ≤ r.val ∧ r.val < 64 * n + 64
    · refine (View.read_writes_cons_rows_of_mem arg7.view G7 (k1_off3_inb ⟨n, hn'⟩) _ _ (ix2 r d)
        (ix2 (⟨r.val - 64 * n, by omega⟩ : Fin 64) d) (k1_off3_eq ⟨n, hn'⟩)
        (by show r.val = 64 * n + (r.val - 64 * n); omega) rfl).trans ?_
      rw [if_pos (by omega), pay7_apply, hT ⟨n, hn'⟩ _ d r (by show r.val = 64 * n + (r.val - 64 * n); omega)]
      refine congrArg (· + T r d) ?_
      refine Eq.trans (congrArg (arg7.view.read (Elt Ideal) _) (funext fun a => Fin.ext ?_)) (ih'.trans (if_neg (by omega)))
      match a with
      | ⟨0, _⟩ =>
        show k1_off3 ⟨n, hn'⟩ 0 + 1 * (r.val - 64 * n) = r.val
        rw [show k1_off3 ⟨n, hn'⟩ 0 = 64 * n from congrFun (k1_off3_eq ⟨n, hn'⟩) 0]; omega
      | ⟨1, _⟩ =>
        show k1_off3 ⟨n, hn'⟩ 1 + 1 * d.val = d.val
        rw [show k1_off3 ⟨n, hn'⟩ 1 = 0 from congrFun (k1_off3_eq ⟨n, hn'⟩) 1]; omega
    · refine (View.read_writes_cons_rows_of_not_mem arg7.view G7 (k1_off3_inb ⟨n, hn'⟩) _ _ (ix2 r d)
        (k1_off3_eq ⟨n, hn'⟩) (show S64x1.size (0 : Fin 2) = 64 from rfl)
        (by show r.val < 64 * n ∨ 64 * n + 64 ≤ r.val; omega)).trans ?_
      rw [ih']
      by_cases h : r.val < 64 * n
      · rw [if_pos h, if_pos (by omega)]
      · rw [if_neg h, if_neg (by omega)]

/-! ## The loop as a whole, over the blocks the kernel is handed -/

/-- The zero offsets. -/
theorem zz2 : (![0, 0] : Fin 2 → ℕ) = fun _ => 0 :=
  funext fun a => match a with | ⟨0, _⟩ => rfl | ⟨1, _⟩ => rfl

/-- A load of a whole buffer held at the contents that read `x` reads `x`. -/
theorem readAt_whole {S : Shape} {e : EltTy} (m : Memref sig .tc .vmem S e) (h : m.IsWhole) {off : Fin S.rank → ℕ}
    (hoff : off = fun _ => 0) (inb : ∀ a, off a + S.size a ≤ S.size a) (x : S.Idx → Elt Ideal e) :
    View.readAt (Elt Ideal) m.view (Rect.unit (s := S) off S.size inb).toLoadRect (h.unread x) = x := by
  rw [View.readAt_eq_ld, h.read_unread]; exact View.ld_unit_zero hoff inb x

/-- Chunk `k`'s row r' is the block's row 64 k + r'. -/
theorem chunkAt_apply (arg2 : Memref sig .tc .vmem S256x32 .i32) (harg2 : arg2.IsWhole) (x2 : Vec Ideal S256x32 .i32)
    (k : Fin k1_t1_loop.trips) (r' : Fin 64) (kk : Fin 32) (r : Fin 256) (hr : r.val = 64 * k.val + r'.val) :
    chunkAt arg2 (harg2.unread x2) k (ix2 r' kk) = x2 (ix2 r kk) := by
  refine (harg2.readAt_unread x2 (Rect.unit (s := S256x32) (k1_off1 k) S64x32.size (k1_off1_inb k)).toLoadRect (ix2 r' kk)).trans (congrArg x2 (funext fun a => Fin.ext ?_))
  match a with
  | ⟨0, _⟩ =>
    show k1_off1 k 0 + 1 * r'.val = r.val
    rw [show k1_off1 k 0 = 64 * k.val from congrFun (k1_off1_eq k) 0]; omega
  | ⟨1, _⟩ =>
    show k1_off1 k 1 + 1 * kk.val = kk.val
    rw [show k1_off1 k 1 = 0 from congrFun (k1_off1_eq k) 1]; omega

/-- So the chunk's row names a word exactly when the block's row does. -/
theorem rowMask_chunk (arg2 : Memref sig .tc .vmem S256x32 .i32) (harg2 : arg2.IsWhole) (x2 : Vec Ideal S256x32 .i32)
    (k : Fin k1_t1_loop.trips) (r' : Fin 64) (r : Fin 256) (hr : r.val = 64 * k.val + r'.val) (w : BitVec 32) :
    rowMask (chunkAt arg2 (harg2.unread x2) k) r' w = rowMask x2 r w := by
  have h : rowHit (chunkAt arg2 (harg2.unread x2) k) r' w ↔ rowHit x2 r w :=
    ⟨fun ⟨kk, e⟩ => ⟨kk, (chunkAt_apply arg2 harg2 x2 k r' kk r hr).symm.trans e⟩,
     fun ⟨kk, e⟩ => ⟨kk, (chunkAt_apply arg2 harg2 x2 k r' kk r hr).trans e⟩⟩
  unfold rowMask
  by_cases hh : rowHit x2 r w
  · rw [if_pos hh, if_pos (h.mpr hh)]
  · rw [if_neg hh, if_neg (fun h' => hh (h.mp h'))]

/-- A chunk's partial product is the tile's contribution at the block's row. -/
theorem part15_tile (i : grid1.Coords) (arg2 : Memref sig .tc .vmem S256x32 .i32) (harg2 : arg2.IsWhole) (x2 : Vec Ideal S256x32 .i32) (x3 : Vec Ideal S1x1024 .f32) (x4 : Vec Ideal S1024x128 .bf16)
    (k : Fin k1_t1_loop.trips) (r' : Fin 64) (d : Fin 128) (r : Fin 256) (hr : r.val = 64 * k.val + r'.val) :
    part15 i x3 x4 (chunkAt arg2 (harg2.unread x2) k) (ix2 r' d) = tileDot x2 x3 x4 (i 1).val r d := by
  refine (pay15_apply i x3 x4 _ r' d).trans ?_
  unfold tileDot
  exact Finset.sum_congr rfl fun l _ => by rw [rowMask_chunk arg2 harg2 x2 k r' r hr]

/-- A chunk's row counts are the tile's at the block's row. -/
theorem part14_tile (i : grid1.Coords) (arg2 : Memref sig .tc .vmem S256x32 .i32) (harg2 : arg2.IsWhole) (x2 : Vec Ideal S256x32 .i32)
    (k : Fin k1_t1_loop.trips) (r' : Fin 64) (d : Fin 1) (r : Fin 256) (hr : r.val = 64 * k.val + r'.val) :
    part14 i (chunkAt arg2 (harg2.unread x2) k) (ix2 r' d) = tileRowSum x2 (i 1).val r := by
  obtain rfl : d = 0 := Subsingleton.elim _ _
  refine (pay14_apply i _ r').trans ?_
  unfold tileRowSum
  exact Finset.sum_congr rfl fun l _ => rowMask_chunk arg2 harg2 x2 k r' r hr _

/-- AFTER THE LOOP the accumulator holds, at (r, d), what it held at loop entry plus the tile's contribution. -/
theorem loop6_all (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (x2 : Vec Ideal S256x32 .i32) (x3 : Vec Ideal S1x1024 .f32) (x4 : Vec Ideal S1024x128 .bf16) (G6 : BufTy.Contents (Elt Ideal) arg6.view.ty) (G7 : BufTy.Contents (Elt Ideal) arg7.view.ty) (r : Fin 256) (d : Fin 128) :
    arg6.view.read (Elt Ideal) (arg6.view.writes (Elt Ideal) G6 (pb_k1_t1 (F := Ideal) Variants.none c none i arg2 harg2 arg3 harg3 arg4 harg4 arg5 harg5 arg6 harg6 arg7 harg7 x3 x4 (harg2.unread x2) G6 G7 k1_t1_loop.trips).1) (ix2 r d)
      = arg6.view.read (Elt Ideal) G6 (ix2 r d) + tileDot x2 x3 x4 (i 1).val r d := by
  refine (loop6 c i arg2 harg2 arg3 harg3 arg4 harg4 arg5 harg5 arg6 harg6 arg7 harg7 x3 x4 (harg2.unread x2) G6 G7 (fun r d => tileDot x2 x3 x4 (i 1).val r d)
    (fun k r' d r hr => part15_tile i arg2 harg2 x2 x3 x4 k r' d r hr) k1_t1_loop.trips (le_refl _) r d).trans ?_
  exact if_pos (by rw [trips_eq]; have := r.isLt; omega)

/-- AFTER THE LOOP the row counts hold, at r, what they held at loop entry plus the tile's count. -/
theorem loop7_all (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (x2 : Vec Ideal S256x32 .i32) (x3 : Vec Ideal S1x1024 .f32) (x4 : Vec Ideal S1024x128 .bf16) (G6 : BufTy.Contents (Elt Ideal) arg6.view.ty) (G7 : BufTy.Contents (Elt Ideal) arg7.view.ty) (r : Fin 256) (d : Fin 1) :
    arg7.view.read (Elt Ideal) (arg7.view.writes (Elt Ideal) G7 (pb_k1_t1 (F := Ideal) Variants.none c none i arg2 harg2 arg3 harg3 arg4 harg4 arg5 harg5 arg6 harg6 arg7 harg7 x3 x4 (harg2.unread x2) G6 G7 k1_t1_loop.trips).2) (ix2 r d)
      = arg7.view.read (Elt Ideal) G7 (ix2 r d) + tileRowSum x2 (i 1).val r := by
  refine (loop7 c i arg2 harg2 arg3 harg3 arg4 harg4 arg5 harg5 arg6 harg6 arg7 harg7 x3 x4 (harg2.unread x2) G6 G7 (fun r _ => tileRowSum x2 (i 1).val r)
    (fun k r' d r hr => part14_tile i arg2 harg2 x2 k r' d r hr) k1_t1_loop.trips (le_refl _) r d).trans ?_
  exact if_pos (by rw [trips_eq]; have := r.isLt; omega)

/-! ## The three cases -/

/-- The reset's payloads are zero. -/
theorem pay1_apply (y : S256x128.Idx) : k1_pay1 (F := Ideal) y = 0 := by
  unfold k1_pay1
  exact (congrFun (shapeCast_self _ _) y).trans Ideal.ofBits_zero_f32
theorem pay2_apply (y : S256x1.Idx) : k1_pay2 (F := Ideal) y = 0 := by
  unfold k1_pay2
  exact (congrFun (shapeCast_self _ _) y).trans Ideal.ofBits_zero_f32

/-- The output block's payload at (r, d): the accumulator over the square root of the row count. -/
theorem pay8_apply (v15 : Vec Ideal S256x1 .f32) (v17 : Vec Ideal S256x128 .f32) (r : Fin 256) (d : Fin 128) :
    k1_pay8 (F := Ideal) v15 v17 (ix2 r d) = Ideal.div (v17 (ix2 r d)) (Ideal.sqrt (v15 (ix2 r (0 : Fin 1)))) := by
  unfold k1_pay8
  show Ideal.div (v17 (ix2 r d)) (broadcastTo S256x128 (sqrt (F := Ideal) v15) _ (ix2 r d)) = _
  rw [broadcastTo_apply (sqrt (F := Ideal) v15) _ (ix2 r d) (ix2 r (0 : Fin 1)) (fun a => match a with | ⟨0, _⟩ => rfl | ⟨1, _⟩ => rfl)]
  rfl

/-- A load of a whole buffer reads its contents. -/
theorem readAt_whole' {S : Shape} {e : EltTy} (v : View sig .tc .vmem S e) {off : Fin S.rank → ℕ} (hoff : off = fun _ => 0)
    (inb : ∀ a, off a + S.size a ≤ S.size a) (f : v.ty.Contents (Elt Ideal)) :
    View.readAt (Elt Ideal) v (Rect.unit (s := S) off S.size inb).toLoadRect f = v.read (Elt Ideal) f := by
  rw [View.readAt_eq_ld]; exact View.ld_unit_zero hoff inb _

/-- The reset's two stores. -/
abbrev zfill6 : List (View.Piece (Elt Ideal) S256x128 .f32) :=
  [⟨Rect.unit (s := S256x128) ![0, 0] S256x128.size Facts₀.inb_S256x128_S256x128_0_0, k1_pay1 (F := Ideal)⟩]
abbrev zfill7 : List (View.Piece (Elt Ideal) S256x1 .f32) :=
  [⟨Rect.unit (s := S256x1) ![0, 0] S256x1.size Facts₀.inb_S256x1_S256x1_0_0, k1_pay2 (F := Ideal)⟩]

/-- After the reset each accumulator reads zero. -/
theorem zfill6_read (arg6 : Memref sig .tc .vmem S256x128 .f32) (y : S256x128.Idx) :
    arg6.view.read (Elt Ideal) (arg6.view.writes (Elt Ideal) arg6.view.junk zfill6) y = 0 := by
  rw [View.read_writes_junk_eq_canon, View.canon_unit_zero zz2]; exact pay1_apply y
theorem zfill7_read (arg7 : Memref sig .tc .vmem S256x1 .f32) (y : S256x1.Idx) :
    arg7.view.read (Elt Ideal) (arg7.view.writes (Elt Ideal) arg7.view.junk zfill7) y = 0 := by
  rw [View.read_writes_junk_eq_canon, View.canon_unit_zero zz2]; exact pay2_apply y

/-- The runs' piece lists, named. -/
theorem run1_A_6 (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec Ideal S256x32 .i32) (x3 : Vec Ideal S1x1024 .f32) (x4 : Vec Ideal S1024x128 .bf16) :
    (run1_A (F := Ideal) c i arg2 harg2 arg3 harg3 arg4 harg4 arg5 harg5 arg6 harg6 arg7 harg7 hc0 hc1 x2 x3 x4).1 = (pb_k1_t1 (F := Ideal) Variants.none c none i arg2 harg2 arg3 harg3 arg4 harg4 arg5 harg5 arg6 harg6 arg7 harg7 x3 x4 (harg2.unread x2) (arg6.view.writes (Elt Ideal) arg6.view.junk zfill6) (arg7.view.writes (Elt Ideal) arg7.view.junk zfill7) k1_t1_loop.trips).1 ++ zfill6 := by
  unfold run1_A
  dsimp only
  sl_unfold_run_names
  rw [readAt_whole arg3 harg3 zz2, readAt_whole arg4 harg4 zz2]
theorem run1_A_7 (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec Ideal S256x32 .i32) (x3 : Vec Ideal S1x1024 .f32) (x4 : Vec Ideal S1024x128 .bf16) :
    (run1_A (F := Ideal) c i arg2 harg2 arg3 harg3 arg4 harg4 arg5 harg5 arg6 harg6 arg7 harg7 hc0 hc1 x2 x3 x4).2.1 = (pb_k1_t1 (F := Ideal) Variants.none c none i arg2 harg2 arg3 harg3 arg4 harg4 arg5 harg5 arg6 harg6 arg7 harg7 x3 x4 (harg2.unread x2) (arg6.view.writes (Elt Ideal) arg6.view.junk zfill6) (arg7.view.writes (Elt Ideal) arg7.view.junk zfill7) k1_t1_loop.trips).2 ++ zfill7 := by
  unfold run1_A
  dsimp only
  sl_unfold_run_names
  rw [readAt_whole arg3 harg3 zz2, readAt_whole arg4 harg4 zz2]
theorem run1_B_6 (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec Ideal S256x32 .i32) (x3 : Vec Ideal S1x1024 .f32) (x4 : Vec Ideal S1024x128 .bf16) (xs6 : Vec Ideal S256x128 .f32) (xs7 : Vec Ideal S256x1 .f32) :
    (run1_B (F := Ideal) c i arg2 harg2 arg3 harg3 arg4 harg4 arg5 harg5 arg6 harg6 arg7 harg7 hc0 hc1 x2 x3 x4 xs6 xs7).1 = (pb_k1_t1 (F := Ideal) Variants.none c none i arg2 harg2 arg3 harg3 arg4 harg4 arg5 harg5 arg6 harg6 arg7 harg7 x3 x4 (harg2.unread x2) (harg6.unread xs6) (harg7.unread xs7) k1_t1_loop.trips).1 := by
  unfold run1_B
  dsimp only
  rw [readAt_whole arg3 harg3 zz2, readAt_whole arg4 harg4 zz2]
theorem run1_B_7 (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec Ideal S256x32 .i32) (x3 : Vec Ideal S1x1024 .f32) (x4 : Vec Ideal S1024x128 .bf16) (xs6 : Vec Ideal S256x128 .f32) (xs7 : Vec Ideal S256x1 .f32) :
    (run1_B (F := Ideal) c i arg2 harg2 arg3 harg3 arg4 harg4 arg5 harg5 arg6 harg6 arg7 harg7 hc0 hc1 x2 x3 x4 xs6 xs7).2.1 = (pb_k1_t1 (F := Ideal) Variants.none c none i arg2 harg2 arg3 harg3 arg4 harg4 arg5 harg5 arg6 harg6 arg7 harg7 x3 x4 (harg2.unread x2) (harg6.unread xs6) (harg7.unread xs7) k1_t1_loop.trips).2 := by
  unfold run1_B
  dsimp only
  rw [readAt_whole arg3 harg3 zz2, readAt_whole arg4 harg4 zz2]
theorem run1_C_6 (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec Ideal S256x32 .i32) (x3 : Vec Ideal S1x1024 .f32) (x4 : Vec Ideal S1024x128 .bf16) (xs6 : Vec Ideal S256x128 .f32) (xs7 : Vec Ideal S256x1 .f32) :
    (run1_C (F := Ideal) c i arg2 harg2 arg3 harg3 arg4 harg4 arg5 harg5 arg6 harg6 arg7 harg7 hc0 hc1 x2 x3 x4 xs6 xs7).2.1 = (pb_k1_t1 (F := Ideal) Variants.none c none i arg2 harg2 arg3 harg3 arg4 harg4 arg5 harg5 arg6 harg6 arg7 harg7 x3 x4 (harg2.unread x2) (harg6.unread xs6) (harg7.unread xs7) k1_t1_loop.trips).1 := by
  unfold run1_C
  dsimp only
  rw [readAt_whole arg3 harg3 zz2, readAt_whole arg4 harg4 zz2]
theorem run1_C_7 (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec Ideal S256x32 .i32) (x3 : Vec Ideal S1x1024 .f32) (x4 : Vec Ideal S1024x128 .bf16) (xs6 : Vec Ideal S256x128 .f32) (xs7 : Vec Ideal S256x1 .f32) :
    (run1_C (F := Ideal) c i arg2 harg2 arg3 harg3 arg4 harg4 arg5 harg5 arg6 harg6 arg7 harg7 hc0 hc1 x2 x3 x4 xs6 xs7).2.2.1 = (pb_k1_t1 (F := Ideal) Variants.none c none i arg2 harg2 arg3 harg3 arg4 harg4 arg5 harg5 arg6 harg6 arg7 harg7 x3 x4 (harg2.unread x2) (harg6.unread xs6) (harg7.unread xs7) k1_t1_loop.trips).2 := by
  unfold run1_C
  dsimp only
  rw [readAt_whole arg3 harg3 zz2, readAt_whole arg4 harg4 zz2]

end Agg1

open Agg1

/-- Column tile 0, the row counts. -/
theorem s7_A_apply (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec Ideal S256x32 .i32) (x3 : Vec Ideal S1x1024 .f32) (x4 : Vec Ideal S1024x128 .bf16) (r : Fin 256) :
    s7_A (F := Ideal) c i arg2 harg2 arg3 harg3 arg4 harg4 arg5 harg5 arg6 harg6 arg7 harg7 hc0 hc1 x2 x3 x4 (ix2 r 0) = tileRowSum x2 (i 1).val r := by
  unfold s7_A
  refine (View.read_writes_apply_eq VS1_1 _ arg7.view arg7.view.junk (ix2 r 0) _
    (scover7_A c i arg2 harg2 arg3 harg3 arg4 harg4 arg5 harg5 arg6 harg6 arg7 harg7 hc0 hc1 x2 x3 x4 (ix2 r 0))).trans ?_
  rw [run1_A_7, View.writes_append, loop7_all, zfill7_read, zero_add]

/-- Column tile 0, the accumulator. -/
theorem s6_A_apply (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : cond1_0 i) (hc1 : ¬cond1_1 i) (x2 : Vec Ideal S256x32 .i32) (x3 : Vec Ideal S1x1024 .f32) (x4 : Vec Ideal S1024x128 .bf16) (r : Fin 256) (d : Fin 128) :
    s6_A (F := Ideal) c i arg2 harg2 arg3 harg3 arg4 harg4 arg5 harg5 arg6 harg6 arg7 harg7 hc0 hc1 x2 x3 x4 (ix2 r d) = tileDot x2 x3 x4 (i 1).val r d := by
  unfold s6_A
  refine (View.read_writes_apply_eq VS1_0 _ arg6.view arg6.view.junk (ix2 r d) _
    (scover6_A c i arg2 harg2 arg3 harg3 arg4 harg4 arg5 harg5 arg6 harg6 arg7 harg7 hc0 hc1 x2 x3 x4 (ix2 r d))).trans ?_
  rw [run1_A_6, View.writes_append, loop6_all, zfill6_read, zero_add]

/-- A middle column tile, the row counts. -/
theorem s7_B_apply (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec Ideal S256x32 .i32) (x3 : Vec Ideal S1x1024 .f32) (x4 : Vec Ideal S1024x128 .bf16) (xs6 : Vec Ideal S256x128 .f32) (xs7 : Vec Ideal S256x1 .f32) (r : Fin 256) :
    s7_B (F := Ideal) c i arg2 harg2 arg3 harg3 arg4 harg4 arg5 harg5 arg6 harg6 arg7 harg7 hc0 hc1 x2 x3 x4 xs6 xs7 (ix2 r 0) = xs7 (ix2 r 0) + tileRowSum x2 (i 1).val r := by
  unfold s7_B
  refine (View.read_writes_apply_eq VS1_1 _ arg7.view (harg7.unread xs7) (ix2 r 0) _
    (scover7_B c i arg2 harg2 arg3 harg3 arg4 harg4 arg5 harg5 arg6 harg6 arg7 harg7 hc0 hc1 x2 x3 x4 xs6 xs7 (ix2 r 0))).trans ?_
  rw [run1_B_7, loop7_all, harg7.read_unread]

/-- A middle column tile, the accumulator. -/
theorem s6_B_apply (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : ¬cond1_1 i) (x2 : Vec Ideal S256x32 .i32) (x3 : Vec Ideal S1x1024 .f32) (x4 : Vec Ideal S1024x128 .bf16) (xs6 : Vec Ideal S256x128 .f32) (xs7 : Vec Ideal S256x1 .f32) (r : Fin 256) (d : Fin 128) :
    s6_B (F := Ideal) c i arg2 harg2 arg3 harg3 arg4 harg4 arg5 harg5 arg6 harg6 arg7 harg7 hc0 hc1 x2 x3 x4 xs6 xs7 (ix2 r d) = xs6 (ix2 r d) + tileDot x2 x3 x4 (i 1).val r d := by
  unfold s6_B
  refine (View.read_writes_apply_eq VS1_0 _ arg6.view (harg6.unread xs6) (ix2 r d) _
    (scover6_B c i arg2 harg2 arg3 harg3 arg4 harg4 arg5 harg5 arg6 harg6 arg7 harg7 hc0 hc1 x2 x3 x4 xs6 xs7 (ix2 r d))).trans ?_
  rw [run1_B_6, loop6_all, harg6.read_unread]

/-- The last column tile, the row counts. -/
theorem s7_C_apply (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec Ideal S256x32 .i32) (x3 : Vec Ideal S1x1024 .f32) (x4 : Vec Ideal S1024x128 .bf16) (xs6 : Vec Ideal S256x128 .f32) (xs7 : Vec Ideal S256x1 .f32) (r : Fin 256) :
    s7_C (F := Ideal) c i arg2 harg2 arg3 harg3 arg4 harg4 arg5 harg5 arg6 harg6 arg7 harg7 hc0 hc1 x2 x3 x4 xs6 xs7 (ix2 r 0) = xs7 (ix2 r 0) + tileRowSum x2 (i 1).val r := by
  unfold s7_C
  refine (View.read_writes_apply_eq VS1_1 _ arg7.view (harg7.unread xs7) (ix2 r 0) _
    (scover7_C c i arg2 harg2 arg3 harg3 arg4 harg4 arg5 harg5 arg6 harg6 arg7 harg7 hc0 hc1 x2 x3 x4 xs6 xs7 (ix2 r 0))).trans ?_
  rw [run1_C_7, loop7_all, harg7.read_unread]

/-- The last column tile, the accumulator. -/
theorem s6_C_apply (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec Ideal S256x32 .i32) (x3 : Vec Ideal S1x1024 .f32) (x4 : Vec Ideal S1024x128 .bf16) (xs6 : Vec Ideal S256x128 .f32) (xs7 : Vec Ideal S256x1 .f32) (r : Fin 256) (d : Fin 128) :
    s6_C (F := Ideal) c i arg2 harg2 arg3 harg3 arg4 harg4 arg5 harg5 arg6 harg6 arg7 harg7 hc0 hc1 x2 x3 x4 xs6 xs7 (ix2 r d) = xs6 (ix2 r d) + tileDot x2 x3 x4 (i 1).val r d := by
  unfold s6_C
  refine (View.read_writes_apply_eq VS1_0 _ arg6.view (harg6.unread xs6) (ix2 r d) _
    (scover6_C c i arg2 harg2 arg3 harg3 arg4 harg4 arg5 harg5 arg6 harg6 arg7 harg7 hc0 hc1 x2 x3 x4 xs6 xs7 (ix2 r d))).trans ?_
  rw [run1_C_6, loop6_all, harg6.read_unread]

/-- The last column tile, the output block. -/
theorem o5_C_apply (c : Dev nD) (i : grid1.Coords) (arg2 : Memref sig .tc .vmem S256x32 .i32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x1 .f32) (harg7 : arg7.IsWhole) (hc0 : ¬cond1_0 i) (hc1 : cond1_1 i) (x2 : Vec Ideal S256x32 .i32) (x3 : Vec Ideal S1x1024 .f32) (x4 : Vec Ideal S1024x128 .bf16) (xs6 : Vec Ideal S256x128 .f32) (xs7 : Vec Ideal S256x1 .f32) (r : Fin 256) (d : Fin 128) :
    o5_C (F := Ideal) c i arg2 harg2 arg3 harg3 arg4 harg4 arg5 harg5 arg6 harg6 arg7 harg7 hc0 hc1 x2 x3 x4 xs6 xs7 (ix2 r d)
      = Ideal.div (xs6 (ix2 r d) + tileDot x2 x3 x4 (i 1).val r d) (Ideal.sqrt (xs7 (ix2 r 0) + tileRowSum x2 (i 1).val r)) := by
  unfold o5_C
  rw [View.read_writes_junk_eq_canon]
  unfold run1_C
  dsimp only
  rw [View.canon_unit_zero zz2, pay8_apply]
  sl_unfold_run_names
  rw [readAt_whole arg3 harg3 zz2, readAt_whole arg4 harg4 zz2, readAt_whole' arg7.view zz2, readAt_whole' arg6.view zz2,
    loop6_all, loop7_all, harg6.read_unread, harg7.read_unread]

end Cert.KernelIdeal.Hand

end
-- ==== Proof.KI.Val1Array.lean ====
/-
  What the aggregation region leaves in its result array: entry (b, d) of the [4096, 128] array is the aggregation, the
  quotient by the row norm taken last, of the neighbour table, the column normaliser array and the embedding rows the
  region was entered with.  Over the 32 column tiles of a row block the two accumulators hold the partial sums over
  the columns seen so far (an induction on the grid point); the last tile's store divides; the 16 row blocks tile the
  array.

  Point t of the grid is row block t / 32 and column tile t % 32.  Its blocks are rows 256 (t / 32) … + 255 of the
  neighbour table, columns 1024 (t % 32) … + 1023 of the normaliser array and the same rows of the embedding rows, so
  a row of the block names a lane of the tile exactly when the table's row names that column, and the point's two
  contributions are the mask, and the aggregation's terms, summed over the tile's 1024 columns.  Partial sums are
  written tile by tile (`tilesUpTo`); the 32 tiles are all 32768 columns (`tilesUpTo_all`: column u is lane u % 1024
  of tile u / 1024), a re-indexing that uses only that addition of extended reals is commutative and associative.
-/
import proofs.«426239_j15745350107506_3_alg».proof.Proof.KI.Segs
import proofs.«426239_j15745350107506_3_alg».proof.Proof.KI.Val1Cases
import Idealize.ShloMosaic.Lib.Pipeline.Value
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.AggSpec Idealize.ShloMosaic.ValueIdx

variable (m : (ℓ : Loc nD τ sig) → Buf (Elt Ideal) ℓ)

/-! ## The grid's index maps -/

/-- Point t is row block t / 32, column tile t % 32: the four windows' block indices and the column coordinate,
    decided once over the grid. -/
theorem idx1_facts : ∀ t : Fin cfg1.N, win1_0.index t (0 : Fin 2) = t.val / 32 ∧ win1_0.index t (1 : Fin 2) = 0
    ∧ win1_1.index t (0 : Fin 2) = 0 ∧ win1_1.index t (1 : Fin 2) = t.val % 32
    ∧ win1_2.index t (0 : Fin 2) = t.val % 32 ∧ win1_2.index t (1 : Fin 2) = 0
    ∧ win1_3.index t (0 : Fin 2) = t.val / 32 ∧ win1_3.index t (1 : Fin 2) = 0
    ∧ (grid1.coords t (1 : Fin 2)).val = t.val % 32 :=
  (by decide +kernel : ∀ t : Fin grid1.N, _)

/-! ## The arrays the region is entered with, and the blocks a point reads -/

/-- The neighbour table, -/
abbrev nArr (c : Dev nD) : SN.Idx → BitVec 32 := E2 m c main_arg0
/-- the column normaliser array, -/
abbrev cdArr (c : Dev nD) : (⟨2, ![1, 32768]⟩ : Shape).Idx → EReal := E2 m c main_v8
/-- and the embedding rows. -/
abbrev eArr (c : Dev nD) : SE.Idx → EReal := E2 m c main_v7

/-- The row block of the neighbour table a point reads, -/
abbrev nblk (c : Dev nD) (t : Fin cfg1.N) : Vec Ideal S256x32 .i32 := iblk1 (E2 m) c 0 t
/-- its column tile of the normalisers, -/
abbrev cdblk (c : Dev nD) (t : Fin cfg1.N) : Vec Ideal S1x1024 .f32 := iblk1 (E2 m) c 1 t
/-- and its column tile of the embedding rows. -/
abbrev eblk (c : Dev nD) (t : Fin cfg1.N) : Vec Ideal S1024x128 .bf16 := iblk1 (E2 m) c 2 t

/-- Row r of the neighbour-table block at point t is row 256 (t / 32) + r of the table. -/
theorem nblk_apply (c : Dev nD) (t : Fin cfg1.N) (r : Fin 256) (k : Fin 32) (b : Fin 4096)
    (hb : b.val = 256 * (t.val / 32) + r.val) :
    nblk m c t (ix2 r k) = nArr m c (ix2 b k) := by
  obtain ⟨e0, e1, -⟩ := idx1_facts t
  show iblk1 (E2 m) c 0 t (ix2 r k) = _
  unfold iblk1
  rw [View.read_apply]
  show E2 m c main_arg0 _ = E2 m c main_arg0 _
  congr 1
  funext a
  apply Fin.ext
  match a with
  | ⟨0, _⟩ => show win1_0.index t 0 * 256 + 1 * r.val = b.val; rw [e0, hb]; omega
  | ⟨1, _⟩ => show win1_0.index t 1 * 32 + 1 * k.val = k.val; rw [e1]; omega

/-- Lane l of the normaliser block at point t is column 1024 (t % 32) + l of the array. -/
theorem cdblk_apply (c : Dev nD) (t : Fin cfg1.N) (l : Fin 1024) (u : Fin 32768)
    (hu : u.val = (t.val % 32) * 1024 + l.val) :
    cdblk m c t (ix2 0 l) = cdArr m c (ix2 0 u) := by
  obtain ⟨-, -, e0, e1, -⟩ := idx1_facts t
  show iblk1 (E2 m) c 1 t (ix2 0 l) = _
  unfold iblk1
  rw [View.read_apply]
  show E2 m c main_v8 _ = E2 m c main_v8 _
  congr 1
  funext a
  apply Fin.ext
  match a with
  | ⟨0, _⟩ => show win1_1.index t 0 * 1 + 1 * 0 = 0; rw [e0]
  | ⟨1, _⟩ => show win1_1.index t 1 * 1024 + 1 * l.val = u.val; rw [e1, hu]; omega

/-- Row l of the embedding block at point t is row 1024 (t % 32) + l of the embedding rows. -/
theorem eblk_apply (c : Dev nD) (t : Fin cfg1.N) (l : Fin 1024) (d : Fin 128) (u : Fin 32768)
    (hu : u.val = (t.val % 32) * 1024 + l.val) :
    eblk m c t (ix2 l d) = eArr m c (ix2 u d) := by
  obtain ⟨-, -, -, -, e0, e1, -⟩ := idx1_facts t
  show iblk1 (E2 m) c 2 t (ix2 l d) = _
  unfold iblk1
  rw [View.read_apply]
  show E2 m c main_v7 _ = E2 m c main_v7 _
  congr 1
  funext a
  apply Fin.ext
  match a with
  | ⟨0, _⟩ => show win1_2.index t 0 * 1024 + 1 * l.val = u.val; rw [e0, hu]; omega
  | ⟨1, _⟩ => show win1_2.index t 1 * 128 + 1 * d.val = d.val; rw [e1]; omega

/-! ## Sums over the columns, tile by tile -/

/-- A function of the 32768 columns, continued by zero past the last column. -/
def ext0 (f : Fin 32768 → EReal) (u : ℕ) : EReal := if h : u < 32768 then f ⟨u, h⟩ else 0

theorem ext0_of_eq (f : Fin 32768 → EReal) (u : Fin 32768) (v : ℕ) (hv : v = u.val) : ext0 f v = f u := by
  subst hv; unfold ext0; rw [dif_pos u.isLt]

/-- The sum over the first `k` column tiles of 1024 lanes each. -/
def tilesUpTo (f : Fin 32768 → EReal) (k : ℕ) : EReal :=
  ∑ j ∈ Finset.range k, ∑ l : Fin 1024, ext0 f (j * 1024 + l.val)

theorem tilesUpTo_one (f : Fin 32768 → EReal) : tilesUpTo f 1 = ∑ l : Fin 1024, ext0 f (0 * 1024 + l.val) := by
  unfold tilesUpTo; rw [Finset.sum_range_one]

theorem tilesUpTo_succ (f : Fin 32768 → EReal) (k : ℕ) :
    tilesUpTo f (k + 1) = tilesUpTo f k + ∑ l : Fin 1024, ext0 f (k * 1024 + l.val) := by
  unfold tilesUpTo; rw [Finset.sum_range_succ]

/-- The 32 column tiles fill the columns: column u is lane u % 1024 of tile u / 1024. -/
theorem tilesUpTo_all (f : Fin 32768 → EReal) : tilesUpTo f 32 = ∑ u : Fin 32768, f u := by
  unfold tilesUpTo
  rw [Finset.sum_range (fun j => ∑ l : Fin 1024, ext0 f (j * 1024 + l.val)),
    ← Equiv.sum_comp (finProdFinEquiv : Fin 32 × Fin 1024 ≃ Fin 32768) f, Fintype.sum_prod_type]
  refine Finset.sum_congr rfl fun j _ => Finset.sum_congr rfl fun l _ => ?_
  refine ext0_of_eq f _ _ ?_
  rw [finProdFinEquiv_apply_val]
  show j.val * 1024 + l.val = l.val + 1024 * j.val
  omega

/-! ## A point's contributions, as sums over its tile's columns of the arrays -/

/-- The mask of row b of the table, as a function of the column. -/
abbrev maskRow (c : Dev nD) (b : Fin 4096) : Fin 32768 → EReal := fun u => mask (nArr m c) b u
/-- The term of the aggregation's sum at row b and feature d, as a function of the column. -/
abbrev aggTerm (c : Dev nD) (b : Fin 4096) (d : Fin 128) : Fin 32768 → EReal :=
  fun u => Ideal.div (mask (nArr m c) b u) (cdArr m c (ix2 0 u)) * eArr m c (ix2 u d)

/-- Row r of the block names lane l of the point's tile exactly when row b of the table names column u. -/
theorem rowMask_blk (c : Dev nD) (t : Fin cfg1.N) (r : Fin 256) (l : Fin 1024) (b : Fin 4096) (u : Fin 32768)
    (hb : b.val = 256 * (t.val / 32) + r.val) (hu : u.val = (t.val % 32) * 1024 + l.val) :
    rowMask (nblk m c t) r (colWord 1024 (t.val % 32) l.val) = mask (nArr m c) b u := by
  have hiff : rowHit (nblk m c t) r (colWord 1024 (t.val % 32) l.val) ↔ hit (nArr m c) b u := by
    unfold rowHit hit colWord
    constructor
    · rintro ⟨k, hk⟩; exact ⟨k, by rw [← nblk_apply m c t r k b hb, hk, hu]⟩
    · rintro ⟨k, hk⟩; exact ⟨k, by rw [nblk_apply m c t r k b hb, hk, hu]⟩
  unfold rowMask mask
  by_cases h : hit (nArr m c) b u
  · rw [if_pos h, if_pos (hiff.mpr h)]
  · rw [if_neg h, if_neg fun h' => h (hiff.mp h')]

/-- The row counts' increment at a point: the mask of the table's row over the point's column tile. -/
theorem tileRowSum_blk (c : Dev nD) (t : Fin cfg1.N) (r : Fin 256) (b : Fin 4096)
    (hb : b.val = 256 * (t.val / 32) + r.val) :
    tileRowSum (nblk m c t) (t.val % 32) r = ∑ l : Fin 1024, ext0 (maskRow m c b) (t.val % 32 * 1024 + l.val) := by
  unfold tileRowSum
  refine Finset.sum_congr rfl fun l _ => ?_
  have hlt : t.val % 32 * 1024 + l.val < 32768 := by have := l.isLt; omega
  rw [ext0_of_eq _ ⟨_, hlt⟩ _ rfl]
  exact rowMask_blk m c t r l b ⟨_, hlt⟩ hb rfl

/-- The accumulator's increment at a point: the aggregation's terms over the point's column tile. -/
theorem tileDot_blk (c : Dev nD) (t : Fin cfg1.N) (r : Fin 256) (d : Fin 128) (b : Fin 4096)
    (hb : b.val = 256 * (t.val / 32) + r.val) :
    tileDot (nblk m c t) (cdblk m c t) (eblk m c t) (t.val % 32) r d
      = ∑ l : Fin 1024, ext0 (aggTerm m c b d) (t.val % 32 * 1024 + l.val) := by
  unfold tileDot
  refine Finset.sum_congr rfl fun l _ => ?_
  have hlt : t.val % 32 * 1024 + l.val < 32768 := by have := l.isLt; omega
  rw [ext0_of_eq _ ⟨_, hlt⟩ _ rfl, rowMask_blk m c t r l b ⟨_, hlt⟩ hb rfl,
    cdblk_apply m c t l ⟨_, hlt⟩ rfl, eblk_apply m c t l d ⟨_, hlt⟩ rfl]

/-! ## The accumulators after each point -/

/-- The column coordinate of point t. -/
theorem col_eq (t : Fin cfg1.N) : (grid1.coords t 1).val = t.val % 32 := (idx1_facts t).2.2.2.2.2.2.2.2

/-- After column tile 0 the accumulators hold that tile's contribution. -/
theorem acc_first (c : Dev nD) (t : Fin cfg1.N) (h0 : t.val % 32 = 0) (r : Fin 256) (b : Fin 4096)
    (hb : b.val = 256 * (t.val / 32) + r.val) :
    (outsAt1 (E2 m) c t.val t.isLt).2.2 (ix2 r 0) = tilesUpTo (maskRow m c b) (t.val % 32 + 1)
    ∧ ∀ d : Fin 128, (outsAt1 (E2 m) c t.val t.isLt).2.1 (ix2 r d) = tilesUpTo (aggTerm m c b d) (t.val % 32 + 1) := by
  have h1 : ¬t.val % 32 = 31 := by omega
  rw [outsAt1_A (E2 m) c t h0 h1]
  dsimp only
  refine ⟨?_, fun d => ?_⟩
  · refine (s7_A_apply c (grid1.coords t) (ms1_0 t) (hs1_0 t) (ms1_1 t) (hs1_1 t) (ms1_2 t) (hs1_2 t) (ms1_3 t) (hs1_3 t) scM1_0 (Memref.isWhole_whole cc1_scratch0) scM1_1 (Memref.isWhole_whole cc1_scratch1) ((hcond1_0 t).mpr h0) (fun h => h1 ((hcond1_1 t).mp h)) (iblk1 (E2 m) c 0 t) (iblk1 (E2 m) c 1 t) (iblk1 (E2 m) c 2 t) r).trans ?_
    rw [col_eq, tileRowSum_blk m c t r b hb, h0, tilesUpTo_one]
  · refine (s6_A_apply c (grid1.coords t) (ms1_0 t) (hs1_0 t) (ms1_1 t) (hs1_1 t) (ms1_2 t) (hs1_2 t) (ms1_3 t) (hs1_3 t) scM1_0 (Memref.isWhole_whole cc1_scratch0) scM1_1 (Memref.isWhole_whole cc1_scratch1) ((hcond1_0 t).mpr h0) (fun h => h1 ((hcond1_1 t).mp h)) (iblk1 (E2 m) c 0 t) (iblk1 (E2 m) c 1 t) (iblk1 (E2 m) c 2 t) r d).trans ?_
    rw [col_eq, tileDot_blk m c t r d b hb, h0, tilesUpTo_one]

/-- At a later column tile the accumulators add the tile's contribution onto what the tile before left. -/
theorem acc_next (c : Dev nD) (t : Fin cfg1.N) (h0 : ¬t.val % 32 = 0) (r : Fin 256) (b : Fin 4096)
    (hb : b.val = 256 * (t.val / 32) + r.val)
    (ih : ((outsAt1 (E2 m) c (t.val - 1) (Nat.lt_of_le_of_lt (Nat.sub_le _ _) t.isLt)).2.2 (ix2 r 0) = tilesUpTo (maskRow m c b) (t.val % 32)
      ∧ ∀ d : Fin 128, (outsAt1 (E2 m) c (t.val - 1) (Nat.lt_of_le_of_lt (Nat.sub_le _ _) t.isLt)).2.1 (ix2 r d) = tilesUpTo (aggTerm m c b d) (t.val % 32))) :
    (outsAt1 (E2 m) c t.val t.isLt).2.2 (ix2 r 0) = tilesUpTo (maskRow m c b) (t.val % 32 + 1)
    ∧ ∀ d : Fin 128, (outsAt1 (E2 m) c t.val t.isLt).2.1 (ix2 r d) = tilesUpTo (aggTerm m c b d) (t.val % 32 + 1) := by
  by_cases h1 : t.val % 32 = 31
  · rw [outsAt1_C (E2 m) c t h0 h1]
    dsimp only
    refine ⟨?_, fun d => ?_⟩
    · refine (s7_C_apply c (grid1.coords t) (ms1_0 t) (hs1_0 t) (ms1_1 t) (hs1_1 t) (ms1_2 t) (hs1_2 t) (ms1_3 t) (hs1_3 t) scM1_0 (Memref.isWhole_whole cc1_scratch0) scM1_1 (Memref.isWhole_whole cc1_scratch1) (fun h => h0 ((hcond1_0 t).mp h)) ((hcond1_1 t).mpr h1) (iblk1 (E2 m) c 0 t) (iblk1 (E2 m) c 1 t) (iblk1 (E2 m) c 2 t) (outsAt1 (E2 m) c (t.val - 1) (Nat.lt_of_le_of_lt (Nat.sub_le _ _) t.isLt)).2.1 (outsAt1 (E2 m) c (t.val - 1) (Nat.lt_of_le_of_lt (Nat.sub_le _ _) t.isLt)).2.2 r).trans ?_
      rw [col_eq, tileRowSum_blk m c t r b hb, ih.1, tilesUpTo_succ]
    · refine (s6_C_apply c (grid1.coords t) (ms1_0 t) (hs1_0 t) (ms1_1 t) (hs1_1 t) (ms1_2 t) (hs1_2 t) (ms1_3 t) (hs1_3 t) scM1_0 (Memref.isWhole_whole cc1_scratch0) scM1_1 (Memref.isWhole_whole cc1_scratch1) (fun h => h0 ((hcond1_0 t).mp h)) ((hcond1_1 t).mpr h1) (iblk1 (E2 m) c 0 t) (iblk1 (E2 m) c 1 t) (iblk1 (E2 m) c 2 t) (outsAt1 (E2 m) c (t.val - 1) (Nat.lt_of_le_of_lt (Nat.sub_le _ _) t.isLt)).2.1 (outsAt1 (E2 m) c (t.val - 1) (Nat.lt_of_le_of_lt (Nat.sub_le _ _) t.isLt)).2.2 r d).trans ?_
      rw [col_eq, tileDot_blk m c t r d b hb, ih.2 d, tilesUpTo_succ]
  · rw [outsAt1_B (E2 m) c t h0 h1]
    dsimp only
    refine ⟨?_, fun d => ?_⟩
    · refine (s7_B_apply c (grid1.coords t) (ms1_0 t) (hs1_0 t) (ms1_1 t) (hs1_1 t) (ms1_2 t) (hs1_2 t) (ms1_3 t) (hs1_3 t) scM1_0 (Memref.isWhole_whole cc1_scratch0) scM1_1 (Memref.isWhole_whole cc1_scratch1) (fun h => h0 ((hcond1_0 t).mp h)) (fun h => h1 ((hcond1_1 t).mp h)) (iblk1 (E2 m) c 0 t) (iblk1 (E2 m) c 1 t) (iblk1 (E2 m) c 2 t) (outsAt1 (E2 m) c (t.val - 1) (Nat.lt_of_le_of_lt (Nat.sub_le _ _) t.isLt)).2.1 (outsAt1 (E2 m) c (t.val - 1) (Nat.lt_of_le_of_lt (Nat.sub_le _ _) t.isLt)).2.2 r).trans ?_
      rw [col_eq, tileRowSum_blk m c t r b hb, ih.1, tilesUpTo_succ]
    · refine (s6_B_apply c (grid1.coords t) (ms1_0 t) (hs1_0 t) (ms1_1 t) (hs1_1 t) (ms1_2 t) (hs1_2 t) (ms1_3 t) (hs1_3 t) scM1_0 (Memref.isWhole_whole cc1_scratch0) scM1_1 (Memref.isWhole_whole cc1_scratch1) (fun h => h0 ((hcond1_0 t).mp h)) (fun h => h1 ((hcond1_1 t).mp h)) (iblk1 (E2 m) c 0 t) (iblk1 (E2 m) c 1 t) (iblk1 (E2 m) c 2 t) (outsAt1 (E2 m) c (t.val - 1) (Nat.lt_of_le_of_lt (Nat.sub_le _ _) t.isLt)).2.1 (outsAt1 (E2 m) c (t.val - 1) (Nat.lt_of_le_of_lt (Nat.sub_le _ _) t.isLt)).2.2 r d).trans ?_
      rw [col_eq, tileDot_blk m c t r d b hb, ih.2 d, tilesUpTo_succ]

/-- THE INVARIANT: after the point at column tile j of a row block, row r of the row counts is the mask of the
    table's row summed over the columns of tiles 0 … j, and the accumulator at (r, d) the aggregation's terms summed
    over the same columns. By induction on the point: tile 0 resets, every later tile adds. -/
theorem acc_inv (c : Dev nD) : ∀ (n : ℕ) (hn : n < cfg1.N) (r : Fin 256) (b : Fin 4096), b.val = 256 * (n / 32) + r.val →
    (outsAt1 (E2 m) c n hn).2.2 (ix2 r 0) = tilesUpTo (maskRow m c b) (n % 32 + 1)
    ∧ ∀ d : Fin 128, (outsAt1 (E2 m) c n hn).2.1 (ix2 r d) = tilesUpTo (aggTerm m c b d) (n % 32 + 1) := by
  intro n
  induction n using Nat.strong_induction_on with
  | _ n ih =>
    intro hn r b hb
    by_cases h0 : n % 32 = 0
    · exact acc_first m c ⟨n, hn⟩ h0 r b hb
    · have hprev := ih (n - 1) (by omega) (Nat.lt_of_le_of_lt (Nat.sub_le _ _) hn) r b (by omega)
      rw [show (n - 1) % 32 + 1 = n % 32 from by omega] at hprev
      exact acc_next m c ⟨n, hn⟩ h0 r b hb hprev

/-! ## The last column tile's store, and the result array -/

/-- All 32 tiles: the sum over every column. -/
theorem tilesUpTo_last (f : Fin 32768 → EReal) (k : ℕ) (hk : k = 31) : tilesUpTo f (k + 1) = ∑ u : Fin 32768, f u := by
  subst hk; exact tilesUpTo_all f

/-- At the last column tile of a row block the output block's row r holds the aggregation of the table's row:
    the accumulated sum over every column, divided by the square root of the row's count. -/
theorem out_last (c : Dev nD) (t : Fin cfg1.N) (h1 : t.val % 32 = 31) (r : Fin 256) (d : Fin 128) (b : Fin 4096)
    (hb : b.val = 256 * (t.val / 32) + r.val) :
    (outsAt1 (E2 m) c t.val t.isLt).1 (ix2 r d) = aggOver (nArr m c) (cdArr m c) (eArr m c) b d := by
  have h0 : ¬t.val % 32 = 0 := by omega
  have ih := acc_inv m c (t.val - 1) (Nat.lt_of_le_of_lt (Nat.sub_le _ _) t.isLt) r b (by omega)
  rw [show (t.val - 1) % 32 + 1 = t.val % 32 from by omega] at ih
  rw [outsAt1_C (E2 m) c t h0 h1]
  dsimp only
  refine (o5_C_apply c (grid1.coords t) (ms1_0 t) (hs1_0 t) (ms1_1 t) (hs1_1 t) (ms1_2 t) (hs1_2 t) (ms1_3 t) (hs1_3 t) scM1_0 (Memref.isWhole_whole cc1_scratch0) scM1_1 (Memref.isWhole_whole cc1_scratch1) (fun h => h0 ((hcond1_0 t).mp h)) ((hcond1_1 t).mpr h1) (iblk1 (E2 m) c 0 t) (iblk1 (E2 m) c 1 t) (iblk1 (E2 m) c 2 t) (outsAt1 (E2 m) c (t.val - 1) (Nat.lt_of_le_of_lt (Nat.sub_le _ _) t.isLt)).2.1 (outsAt1 (E2 m) c (t.val - 1) (Nat.lt_of_le_of_lt (Nat.sub_le _ _) t.isLt)).2.2 r d).trans ?_
  rw [col_eq, tileRowSum_blk m c t r b hb, tileDot_blk m c t r d b hb, ih.1, ih.2 d, ← tilesUpTo_succ, ← tilesUpTo_succ,
    tilesUpTo_last _ _ h1, tilesUpTo_last _ _ h1]
  rfl

/-- The array the region leaves: the aggregation at every row and feature. -/
abbrev aggArr (c : Dev nD) : S4096x128.Idx → EReal :=
  fun i => aggOver (nArr m c) (cdArr m c) (eArr m c) ⟨(i 0).val, idx2_lt0 i⟩ ⟨(i 1).val, idx2_lt1 i⟩

/-- An array's block at point t, read at an index of the block, is the array at the index's place in it. -/
theorem read_outBlk (G : S4096x128.Idx → EReal) (t : Fin cfg1.N) (j : S256x128.Idx) :
    ((cfg1.win 3).blk t).view.read (Elt Ideal) G j = G (((cfg1.win 3).blk t).view.emb j) := by
  rw [View.read_apply]; rfl

/-- What a row block's last point writes back is that row block of the aggregation: row r of the block is row
    256 (t / 32) + r of the array. -/
theorem flushed_eq (c : Dev nD) (t : Fin cfg1.N) (hf : (cfg1.win 3).flush t = true) :
    (d1 (F := Ideal) m c).flushed 3 t = ((cfg1.win 3).blk t).view.read (Elt Ideal) (aggArr m c) := by
  have h1 : t.val % 32 = 31 := (flush1_3 t).mp hf
  obtain ⟨-, -, -, -, -, -, e0, e1, -⟩ := idx1_facts t
  show (cfg1.win 3).cut (grid1.coords t) ((dat1 (E2 m) c).after 3 t) = _
  rw [after1_3]
  funext j
  obtain ⟨r, d, rfl⟩ : ∃ (r : Fin 256) (d : Fin 128), j = ix2 r d := ⟨j 0, j 1, eq_ix2 j⟩
  refine Eq.trans ?_ (read_outBlk (aggArr m c) t (ix2 r d)).symm
  show (outsAt1 (E2 m) c t.val t.isLt).1 (ix2 r d) = _
  obtain ⟨i, hi⟩ : ∃ i : S4096x128.Idx, i = ((cfg1.win 3).blk t).view.emb (ix2 r d) := ⟨_, rfl⟩
  rw [← hi]
  have hr : (i 0).val = 256 * (t.val / 32) + r.val := by
    rw [hi]; show win1_3.index t 0 * 256 + 1 * r.val = _; rw [e0]; omega
  have hd : (i 1).val = d.val := by
    rw [hi]; show win1_3.index t 1 * 128 + 1 * d.val = _; rw [e1]; omega
  refine (out_last m c t h1 r d ⟨(i 0).val, idx2_lt0 i⟩ hr).trans ?_
  show aggOver _ _ _ _ _ = aggOver _ _ _ _ _
  congr 1
  exact Fin.ext hd.symm

/-- The 16 row blocks tile the array: row b lies in the block the last point of row block b / 256 writes back. -/
theorem covered (i : S4096x128.Idx) :
    ∃ t : Fin cfg1.N, (cfg1.win 3).flush t = true ∧ i ∈ ((cfg1.win 3).blk t).view.set := by
  have hi0 : (i 0).val < 4096 := idx2_lt0 i
  have hi1 : (i 1).val < 128 := idx2_lt1 i
  have hN : cfg1.N = 512 := N_1
  obtain ⟨t, ht⟩ : ∃ t : Fin cfg1.N, t.val = 32 * ((i 0).val / 256) + 31 := ⟨⟨32 * ((i 0).val / 256) + 31, by rw [hN]; omega⟩, rfl⟩
  obtain ⟨-, -, -, -, -, -, e0, e1, -⟩ := idx1_facts t
  refine ⟨t, (flush1_3 t).mpr (by rw [ht]; omega), ?_⟩
  show i ∈ ((View.whole main_v9).slice (win1_3.rect t)).set
  rw [View.set_slice_whole, Rect.mem_set_unit]
  intro a
  match a with
  | ⟨0, _⟩ => show win1_3.index t 0 * 256 ≤ (i 0).val ∧ (i 0).val < win1_3.index t 0 * 256 + 256; rw [e0, ht]; omega
  | ⟨1, _⟩ => show win1_3.index t 1 * 128 ≤ (i 1).val ∧ (i 1).val < win1_3.index t 1 * 128 + 128; rw [e1]; omega

/-- Entry (b, d) of the result array is the aggregation, the quotient by the row norm last, of the arrays the region was entered with. -/
theorem agg_value (c : Dev nD) (b : Fin 4096) (d : Fin 128) :
    ((d1 (F := Ideal) m c).arrAt 3 cfg1.N : S4096x128.Idx → EReal) (ix2 b d)
      = aggOver (E2 m c main_arg0) (E2 m c main_v8) (E2 m c main_v7) b d := by
  have h := (d1 (F := Ideal) m c).arrAt_eq_of_cover 3 (aggArr m c) (fun t ht => flushed_eq m c t ht) covered
  exact congrFun h (ix2 b d)

end Cert.KernelIdeal.Hand

end
-- ==== Proof.RefRead.lean ====
/- The reference's run and its read-at-an-index lemmas, brought in for the value side. -/
import proofs.«426239_j15745350107506_3_alg».proof.Proof.Gen.ReferenceIdeal.Run
import proofs.«426239_j15745350107506_3_alg».proof.Proof.Gen.ReferenceIdeal.Read
-- ==== Proof.KI.Main.lean ====
/-
  The idealized kernel's run with its result named, and that result as the aggregation of the launch arrays.

  The run: the conditional run of the program's segments at the two regions' records, whose post names the result
  array at the last valuation.  The value: that valuation at the result array is what the second region's write-backs
  leave, which is the aggregation over the column normaliser array the first region left — the specification's own
  normaliser of the neighbour table — and over the embedding rows the host stretch gathered; the bf16 cast of those
  rows is the identity on extended reals, so they are the reference's gather stage of the same arguments.
-/
import proofs.«426239_j15745350107506_3_alg».proof.Proof.KI.Segs
import proofs.«426239_j15745350107506_3_alg».proof.Proof.KI.RunCond
import proofs.«426239_j15745350107506_3_alg».proof.Proof.KI.Val0Array
import proofs.«426239_j15745350107506_3_alg».proof.Proof.KI.Val1Array
import proofs.«426239_j15745350107506_3_alg».proof.Proof.RefRead
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.AggSpec Idealize.ShloMosaic.ValueIdx Idealize.ShloMosaic.StableHlo

set_option backward.isDefEq.respectTransparency.types false in
/-- THE RUN, at any `F`: every weakly fair execution of @main from `m` with zero counters terminates, nothing faulting,
    with the result array at the last valuation and every argument as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v9) = V3 m (outs m) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.KernelIdeal.GenRun.run_cond (m := m) (EP := emb₁) (ι := ()) (𝒱₀ := Variants.none) (L := L) (lv := lv) (hL := fun _ _ => rfl) (ρ := ρ) (outs := outs m)
    (pdats := pdats m) (O₀ := fun _ => 0) (G := fun _ => (BI.emp : sProp 𝕄)) (u₀ := u₀) (hu₀ := hu₀)
    (E := fun _ c => R c) (hE0 := hE0 ρ) (hE2 := fun c => by iintro ⟨-, H⟩; iexact H)
    (R0 := reg0 m) (hpre0 := fun _ => .rfl) (hpost0 := fun _ => .rfl)
    (R1 := reg1 m) (hpre1 := fun _ => .rfl) (hpost1 := fun _ => .rfl)

section Ideal

variable (m : (ℓ : Loc nD τ sig) → Buf (Elt Ideal) ℓ)

/-- The neighbour table reaches both regions as launched. -/
theorem E1_arg0 (c : Dev nD) : E1 m c main_arg0 = m ((c.tc : Thread nD τ).loc main_arg0) :=
  (V1_of m c main_arg0 (by decide)).trans rfl
theorem E2_arg0 (c : Dev nD) : E2 m c main_arg0 = m ((c.tc : Thread nD τ).loc main_arg0) :=
  (V2_of m (outsA m) c main_arg0 (by decide)).trans (E1_arg0 m c)

/-- The embedding rows the second region is entered with are the reference's gather stage of the launch arguments:
    the host stretch computes the same wrapped gather, and the cast to bf16 is the identity on extended reals. -/
theorem E2_rows (c : Dev nD) :
    (E2 m c main_v7 : S32768x128.Idx → EReal)
      = Cert.ReferenceIdeal.Read.val_main_v37 (F := Ideal) (m ((c.tc : Thread nD τ).loc main_arg1)) (m ((c.tc : Thread nD τ).loc main_arg2)) := by
  have h1 : E2 m c main_v7 = V1 m c main_v7 := V2_of m (outsA m) c main_v7 (by decide)
  rw [h1]
  dsimp only [V1, V0, hostOps0]
  after_results
  rfl

/-- The column normaliser array the second region is entered with is the specification's, of the launch table. -/
theorem E2_colDen (c : Dev nD) (u : Fin 32768) :
    (E2 m c main_v8 : S1x32768.Idx → EReal) (ix2 0 u) = colDen (m ((c.tc : Thread nD τ).loc main_arg0)) u := by
  have e8 : E2 m c main_v8 = (d0 m c).arrAt 1 cfg0.N := (congrFun (V2_outs m c).symm _).trans (V2_main_v8 m c)
  rw [e8, colnorm_value m c u, E1_arg0]

/-- THE KERNEL'S RESULT: the aggregation, the quotient by the row norm last, of the launch arrays. -/
theorem result_value (c : Dev nD) (b : Fin 4096) (d : Fin 128) :
    (V3 m (outs m) c main_v9 : S4096x128.Idx → EReal) (ix2 b d)
      = aggLate (m ((c.tc : Thread nD τ).loc main_arg0))
          (Cert.ReferenceIdeal.Read.val_main_v37 (F := Ideal) (m ((c.tc : Thread nD τ).loc main_arg1)) (m ((c.tc : Thread nD τ).loc main_arg2))) b d := by
  rw [V3_main_v9, agg_value m c b d, E2_arg0, E2_rows]
  exact aggOver_colDen _ _ _ (E2_colDen m c) b d

end Ideal

end Cert.KernelIdeal.Hand

end
-- ==== Proof.Algebra.lean ====
/-
  The two arrangements of the aggregation agree when every row names a column and the embedding rows are finite.

  Every quantity in sight is the coercion of a real number: the mask is 0 or 1, the counts are finite sums of the
  mask, the row normaliser is the square root of a real that is at least 1 (every row names a column), the column
  normaliser is a maximum with 1, and the embedding entries are real by hypothesis.  On reals the identity is
  distributivity of the quotient by the row normaliser over the finite sum.
-/
import proofs.«426239_j15745350107506_3_alg».proof.Proof.Spec

noncomputable section

namespace Cert.AggSpec

open Idealize.ShloMosaic Idealize.ShloMosaic.ValueIdx

/-! ### Finite sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, taken in the extended reals, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- Distributivity of a quotient over a finite sum, for real families read in the extended reals: dividing every
    weight by r before the sum is dividing the sum by r. -/
theorem sum_div_early_eq_div_sum {ι : Type*} [Fintype ι] (m c e : ι → ℝ) (r : ℝ) (hr : r ≠ 0)
    (hc : ∀ i, c i ≠ 0) :
    (∑ i, Ideal.div (Ideal.div (m i : EReal) (r : EReal)) (c i : EReal) * (e i : EReal))
      = Ideal.div (∑ i, Ideal.div (m i : EReal) (c i : EReal) * (e i : EReal)) (r : EReal) := by
  have hL : ∀ i, Ideal.div (Ideal.div (m i : EReal) (r : EReal)) (c i : EReal) * (e i : EReal)
      = ((m i / r / c i * e i : ℝ) : EReal) := fun i => by
    rw [div_coe_coe _ hr, div_coe_coe _ (hc i), ← EReal.coe_mul]
  have hR : ∀ i, Ideal.div (m i : EReal) (c i : EReal) * (e i : EReal) = ((m i / c i * e i : ℝ) : EReal) :=
    fun i => by rw [div_coe_coe _ (hc i), ← EReal.coe_mul]
  simp only [hL, hR]
  rw [← coe_finset_sum, ← coe_finset_sum, div_coe_coe _ hr, Finset.sum_div]
  congr 1
  refine Finset.sum_congr rfl (fun i _ => ?_)
  have := hc i
  field_simp

/-! ### The mask and the counts are real -/

open Classical in
/-- The adjacency entry as a real number. -/
def maskR (n : SN.Idx → BitVec 32) (b : Fin 4096) (u : Fin 32768) : ℝ := if hit n b u then 1 else 0

theorem mask_eq_coe (n : SN.Idx → BitVec 32) (b : Fin 4096) (u : Fin 32768) :
    mask n b u = (maskR n b u : EReal) := by
  unfold mask maskR
  by_cases h : hit n b u
  · rw [if_pos h, if_pos h, EReal.coe_one]
  · rw [if_neg h, if_neg h, EReal.coe_zero]

theorem maskR_nonneg (n : SN.Idx → BitVec 32) (b : Fin 4096) (u : Fin 32768) : 0 ≤ maskR n b u := by
  unfold maskR
  split_ifs <;> norm_num

theorem maskR_of_hit {n : SN.Idx → BitVec 32} {b : Fin 4096} {u : Fin 32768} (h : hit n b u) :
    maskR n b u = 1 := by
  unfold maskR
  rw [if_pos h]

theorem rowCount_eq_coe (n : SN.Idx → BitVec 32) (b : Fin 4096) :
    rowCount n b = ((∑ u : Fin 32768, maskR n b u : ℝ) : EReal) := by
  unfold rowCount
  rw [coe_finset_sum]
  exact Finset.sum_congr rfl (fun u _ => mask_eq_coe n b u)

theorem colCount_eq_coe (n : SN.Idx → BitVec 32) (u : Fin 32768) :
    colCount n u = ((∑ b : Fin 4096, maskR n b u : ℝ) : EReal) := by
  unfold colCount
  rw [coe_finset_sum]
  exact Finset.sum_congr rfl (fun b _ => mask_eq_coe n b u)

/-! ### Every row names a column -/

/-- A word whose signed value lies in [0, 32768) is the word of its own unsigned value, which is below 32768. -/
theorem word_eq_ofNat_toNat {w : BitVec 32} (h0 : 0 ≤ w.toInt) (h1 : w.toInt < 32768) :
    w.toNat < 32768 ∧ w = BitVec.ofNat 32 w.toNat := by
  have hlt : w.toNat < 2 ^ 32 := w.isLt
  rw [BitVec.toInt_eq_toNat_cond] at h0 h1
  refine ⟨?_, ?_⟩
  · split_ifs at h0 h1 with hc <;> omega
  · apply BitVec.eq_of_toNat_eq
    rw [BitVec.toNat_ofNat, Nat.mod_eq_of_lt hlt]

/-- Under the range hypothesis the first entry of row b is a column that the row names. -/
theorem exists_hit (n : SN.Idx → BitVec 32) (hn : InRange n) (b : Fin 4096) : ∃ u : Fin 32768, hit n b u := by
  obtain ⟨h0, h1⟩ := hn (ix2 b 0)
  obtain ⟨hlt, heq⟩ := word_eq_ofNat_toNat h0 h1
  exact ⟨⟨(n (ix2 b 0)).toNat, hlt⟩, 0, heq⟩

/-! ### The normalisers are reals, at least 1 -/

/-- The row normaliser is a real number, at least 1: the row's count is a real at least 1. -/
theorem rowDen_real_pos (n : SN.Idx → BitVec 32) (hn : InRange n) (b : Fin 4096) :
    ∃ r : ℝ, 1 ≤ r ∧ rowDen n b = (r : EReal) := by
  obtain ⟨u, hu⟩ := exists_hit n hn b
  have h1 : (1 : ℝ) ≤ ∑ u : Fin 32768, maskR n b u := by
    calc (1 : ℝ) = maskR n b u := (maskR_of_hit hu).symm
      _ ≤ ∑ u : Fin 32768, maskR n b u :=
        Finset.single_le_sum (f := fun u => maskR n b u) (fun i _ => maskR_nonneg n b i) (Finset.mem_univ u)
  refine ⟨Real.sqrt (∑ u : Fin 32768, maskR n b u), Real.one_le_sqrt.mpr h1, ?_⟩
  unfold rowDen
  rw [rowCount_eq_coe, Ideal.sqrt_coe, if_neg (by linarith)]

/-- The column normaliser is a real number, at least 1: a maximum of a real with 1. -/
theorem colDen_real_pos (n : SN.Idx → BitVec 32) (u : Fin 32768) :
    ∃ r : ℝ, 1 ≤ r ∧ colDen n u = (r : EReal) := by
  have h0 : (0 : ℝ) ≤ ∑ b : Fin 4096, maskR n b u := Finset.sum_nonneg (fun i _ => maskR_nonneg n i u)
  refine ⟨max (Real.sqrt (∑ b : Fin 4096, maskR n b u)) 1, le_max_right _ _, ?_⟩
  unfold colDen
  rw [colCount_eq_coe, Ideal.sqrt_coe, if_neg (by linarith), ← EReal.coe_one]
  exact (EReal.coe_strictMono.monotone.map_max).symm

/-! ### The identity -/

/-- The arrangement that normalises every mask entry first equals the one that divides by the row norm last. -/
theorem aggEarly_eq_aggLate (n : SN.Idx → BitVec 32) (E : SE.Idx → EReal) (hn : InRange n) (hE : Finite E)
    (b : Fin 4096) (d : Fin 128) : aggEarly n E b d = aggLate n E b d := by
  obtain ⟨r, hr1, hr⟩ := rowDen_real_pos n hn b
  choose c hc1 hc using colDen_real_pos n
  choose e he using fun u : Fin 32768 => hE (ix2 u d)
  unfold aggEarly aggLate
  rw [hr]
  have hterm : ∀ u : Fin 32768,
      Ideal.div (Ideal.div (mask n b u) (r : EReal)) (colDen n u) * E (ix2 u d)
        = Ideal.div (Ideal.div (maskR n b u : EReal) (r : EReal)) (c u : EReal) * (e u : EReal) :=
    fun u => by rw [mask_eq_coe, hc, he]
  have hterm' : ∀ u : Fin 32768,
      Ideal.div (mask n b u) (colDen n u) * E (ix2 u d)
        = Ideal.div (maskR n b u : EReal) (c u : EReal) * (e u : EReal) :=
    fun u => by rw [mask_eq_coe, hc, he]
  rw [Finset.sum_congr rfl (fun u _ => hterm u), Finset.sum_congr rfl (fun u _ => hterm' u)]
  exact sum_div_early_eq_div_sum (maskR n b) c e r (by linarith)
    (fun i => by have := hc1 i; linarith)

end Cert.AggSpec

end
-- ==== Proof.LibScatterConst.lean ====
/-
  A scatter whose body keeps the update (a "set") and whose updates all carry one constant, read at an index; and when an
  update index lands on a given operand index.

  The scatter is a left fold over the update indices; each step overwrites the element its update lands on, when it
  lands inside the operand. With a constant update the order of the steps and repeated landings do not matter: the result at
  an index is the constant when some update lands there, and the operand's element otherwise.
-/
import Idealize.ShloMosaic.PureOps.ShapeOps

namespace Cert.LibScatterConst

open Idealize.ShloMosaic

/-- A left fold whose step, where `g n = some i`, sets the element at `i` to the constant `c` and keeps every other element,
    and where `g n = none` keeps the function: read at `i'`, it is `c` when some member of the list lands on `i'`, else
    the starting function's element. By induction over the list, for every starting function. -/
theorem foldl_set_const_apply {ι κ α : Type} (g : κ → Option ι) (c : α) (step : (ι → α) → κ → ι → α)
    (hsome : ∀ r n i, g n = some i → step r n i = c ∧ ∀ i', i' ≠ i → step r n i' = r i')
    (hnone : ∀ r n, g n = none → step r n = r) (i' : ι) :
    ∀ (L : List κ) (r : ι → α),
      ((∃ n ∈ L, g n = some i') → L.foldl step r i' = c) ∧ ((¬ ∃ n ∈ L, g n = some i') → L.foldl step r i' = r i') := by
  intro L
  induction L with
  | nil =>
    intro r
    exact ⟨fun ⟨n, hn, _⟩ => absurd hn List.not_mem_nil, fun _ => rfl⟩
  | cons a L ih =>
    intro r
    rw [List.foldl_cons]
    obtain ⟨ih1, ih2⟩ := ih (step r a)
    constructor
    · rintro ⟨n, hn, h⟩
      by_cases hL : ∃ n ∈ L, g n = some i'
      · exact ih1 hL
      · rw [ih2 hL]
        rcases List.mem_cons.1 hn with rfl | hn
        · exact (hsome r n i' h).1
        · exact absurd ⟨n, hn, h⟩ hL
    · intro hno
      have hL : ¬ ∃ n ∈ L, g n = some i' := fun ⟨n, hn, h⟩ => hno ⟨n, List.mem_cons_of_mem _ hn, h⟩
      rw [ih2 hL]
      cases hg : g a with
      | none => rw [hnone r a hg]
      | some i =>
        have hi : i' ≠ i := fun e => hno ⟨a, List.mem_cons_self, by rw [hg, e]⟩
        exact (hsome r a i hg).2 i' hi

/-- A scatter that sets (its body returns the update) with every update equal to `c`, read at `i'`: `c` when some update index
    lands on `i'`, else the operand's element there. -/
theorem scatter_set_const_apply {s si u : Shape} {α : Type} {w : Nat} (d : ScatterDims s si u) (x : s.Idx → α)
    (idx : IVec si w) (upd : u.Idx → α) (c : α) (hupd : ∀ j, upd j = c) (i' : s.Idx)
    [Decidable (∃ j : u.Idx, d.resultIdx? j idx = some i')] :
    Host.scatter d (fun _ v => v) x idx upd i' = if ∃ j : u.Idx, d.resultIdx? j idx = some i' then c else x i' := by
  obtain rfl : upd = fun _ => c := funext hupd
  unfold Host.scatter
  have key := foldl_set_const_apply (fun n => d.resultIdx? (u.rowMajor.symm n) idx) c
    (fun r n => match d.resultIdx? (u.rowMajor.symm n) idx with
      | some i => fun i' => if i' = i then (fun _ v => v) (r i) ((fun _ => c) (u.rowMajor.symm n)) else r i'
      | none => r)
    (fun r n i h => by
      refine ⟨?_, fun i' hi => ?_⟩
      · simp only [h]; exact if_pos trivial
      · simp only [h]; exact if_neg hi)
    (fun r n h => by simp only [h]) i' (List.finRange u.numel) x
  have hiff : (∃ n ∈ List.finRange u.numel, d.resultIdx? (u.rowMajor.symm n) idx = some i') ↔
      ∃ j : u.Idx, d.resultIdx? j idx = some i' := by
    constructor
    · rintro ⟨n, _, h⟩; exact ⟨_, h⟩
    · rintro ⟨j, h⟩
      exact ⟨u.rowMajor j, List.mem_finRange _, by rw [Equiv.symm_apply_apply]; exact h⟩
  by_cases h : ∃ j : u.Idx, d.resultIdx? j idx = some i'
  · rw [if_pos h]; exact key.1 (hiff.2 h)
  · rw [if_neg h]; exact key.2 (fun h' => h (hiff.1 h'))

/-- An update index lands on the operand index `i'` exactly when, on every axis, its start plus its window coordinate is
    `i'`'s coordinate. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split
  · rename_i h
    constructor
    · intro e a
      have e1 : ((d.start j idx a + (d.window j a : Int)).toNat) = (i' a).val :=
        congrArg Fin.val (congrFun (Option.some.inj e) a)
      have ha := h a
      omega
    · intro e
      refine congrArg some (funext fun a => Fin.ext ?_)
      have ea := e a
      have ha := h a
      show (d.start j idx a + (d.window j a : Int)).toNat = (i' a).val
      omega
  · rename_i h
    constructor
    · intro e; exact absurd e (by simp)
    · intro e
      refine absurd (fun a => ?_) h
      have ea := e a
      have hlt := (i' a).isLt
      omega

end Cert.LibScatterConst
-- ==== Proof.RefValue.lean ====
/-
  The reference's result, read at an index, is the aggregation in the arrangement that normalises every mask entry first.
-/
import proofs.«426239_j15745350107506_3_alg».proof.Proof.RefRead
import proofs.«426239_j15745350107506_3_alg».proof.Proof.Spec
import proofs.«426239_j15745350107506_3_alg».proof.Proof.LibScatterConst
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx Cert.AggSpec Cert.LibScatterConst

/-! ## Words -/

/-- A natural number below 2³¹ written as a 32-bit word reads back signed as itself. -/
theorem toInt_ofNat_small (n : Nat) (h : n < 2 ^ 31) : (BitVec.ofNat 32 n).toInt = (n : Int) := by
  rw [BitVec.toInt_eq_toNat_cond, BitVec.toNat_ofNat]
  have : n % 2 ^ 32 = n := Nat.mod_eq_of_lt (by omega)
  rw [this]
  split
  · rfl
  · omega

/-- A word that is not negative as a signed integer is not below zero in the signed comparison. -/
theorem slt_zero_of_nonneg (x : BitVec 32) (h : 0 ≤ x.toInt) : IntOp.cmpi .slt x 0#32 = 0#1 := by
  have : ¬ x.toInt < 0 := by omega
  simp [IntOp.cmpi, BitVec.slt, this]

/-- A word whose signed reading is the natural number `n` below 2³¹ is `n` written as a word. -/
theorem eq_ofNat_of_toInt (x : BitVec 32) (n : Nat) (hn : n < 2 ^ 31) (h : x.toInt = (n : Int)) : x = BitVec.ofNat 32 n :=
  BitVec.eq_of_toInt_eq (by rw [h, toInt_ofNat_small n hn])

/-! ## The scatter's index arithmetic for this program -/

section Decode
variable {F : FTy → Type} [FloatOps F]

/-- The start on operand axis 0 of the update at (b, k) is the index array's word at (b, k, 0), read signed. -/
theorem start_axis0 (idx : IVec S4096x32x2 32) (b : Fin 4096) (k : Fin 32) :
    scatter_S4096x32768_S4096x32x2_S4096x32_n_01_01_2.start (ix2 b k) idx 0 = (idx (ix3 b k (0 : Fin 2))).toInt := by
  unfold ScatterDims.start
  rw [dif_pos (show (0 : Fin S4096x32768.rank) ∈ scatter_S4096x32768_S4096x32x2_S4096x32_n_01_01_2.scatterDimsToOperandDims by decide)]
  refine congrArg (fun j => (idx j).toInt) (funext fun a => Fin.ext ?_)
  match a with
  | ⟨0, _⟩ => rfl
  | ⟨1, _⟩ => rfl
  | ⟨2, _⟩ => rfl

/-- The start on operand axis 1 of the update at (b, k) is the index array's word at (b, k, 1), read signed. -/
theorem start_axis1 (idx : IVec S4096x32x2 32) (b : Fin 4096) (k : Fin 32) :
    scatter_S4096x32768_S4096x32x2_S4096x32_n_01_01_2.start (ix2 b k) idx 1 = (idx (ix3 b k (1 : Fin 2))).toInt := by
  unfold ScatterDims.start
  rw [dif_pos (show (1 : Fin S4096x32768.rank) ∈ scatter_S4096x32768_S4096x32x2_S4096x32_n_01_01_2.scatterDimsToOperandDims by decide)]
  refine congrArg (fun j => (idx j).toInt) (funext fun a => Fin.ext ?_)
  match a with
  | ⟨0, _⟩ => rfl
  | ⟨1, _⟩ => rfl
  | ⟨2, _⟩ => rfl

/-- Both operand axes are inserted window axes: an update has no window coordinate. -/
theorem window_eq_zero (j : S4096x32.Idx) (a : Fin S4096x32768.rank) :
    scatter_S4096x32768_S4096x32x2_S4096x32_n_01_01_2.window j a = 0 := by
  unfold ScatterDims.window
  rw [dif_neg]
  rw [show scatter_S4096x32768_S4096x32x2_S4096x32_n_01_01_2.sKept = [] by decide]
  exact List.not_mem_nil

/-- The update at (b, k) lands on (p, q) exactly when the index array's two words at (b, k) read signed are p and q. -/
theorem lands_iff (idx : IVec S4096x32x2 32) (b : Fin 4096) (k : Fin 32) (p : Fin 4096) (q : Fin 32768) :
    scatter_S4096x32768_S4096x32x2_S4096x32_n_01_01_2.resultIdx? (ix2 b k) idx = some (ix2 p q) ↔
      (idx (ix3 b k (0 : Fin 2))).toInt = (p.val : Int) ∧ (idx (ix3 b k (1 : Fin 2))).toInt = (q.val : Int) := by
  rw [resultIdx?_eq_some_iff]
  constructor
  · intro h
    have h0 := h 0
    have h1 := h 1
    rw [start_axis0, window_eq_zero] at h0
    rw [start_axis1, window_eq_zero] at h1
    exact ⟨by simpa using h0, by simpa using h1⟩
  · rintro ⟨h0, h1⟩ a
    match a with
    | ⟨0, _⟩ =>
      show scatter_S4096x32768_S4096x32x2_S4096x32_n_01_01_2.start (ix2 b k) idx 0 + _ = _
      rw [start_axis0, window_eq_zero, h0]; simp
    | ⟨1, _⟩ =>
      show scatter_S4096x32768_S4096x32x2_S4096x32_n_01_01_2.start (ix2 b k) idx 1 + _ = _
      rw [start_axis1, window_eq_zero, h1]; simp

/-! ## The index array: the row number beside the neighbour word -/

/-- The joined index array at (b, k, 0) is the row-index array at (b, k, 0). -/
theorem v16_at0 (x0 : IVec S4096x32 32) (b : Fin 4096) (k : Fin 32) :
    val_main_v16 (F := F) x0 (ix3 b k (0 : Fin 2)) = val_main_v14 (F := F) (ix3 b k (0 : Fin 1)) := by
  unfold val_main_v16
  generalize val_main_v14 (F := F) = y1
  generalize val_main_v15 (F := F) x0 = y2
  exact concatenate_pair_apply_left (2 : Fin S4096x32x2.rank) y1 y2 _ (ix3 b k (0 : Fin 2)) rfl (ix3 b k (0 : Fin 1))
    (fun a => by match a with | ⟨0, _⟩ => rfl | ⟨1, _⟩ => rfl | ⟨2, _⟩ => rfl)

/-- The joined index array at (b, k, 1) is the column-index array at (b, k, 0). -/
theorem v16_at1 (x0 : IVec S4096x32 32) (b : Fin 4096) (k : Fin 32) :
    val_main_v16 (F := F) x0 (ix3 b k (1 : Fin 2)) = val_main_v15 (F := F) x0 (ix3 b k (0 : Fin 1)) := by
  unfold val_main_v16
  generalize val_main_v14 (F := F) = y1
  generalize val_main_v15 (F := F) x0 = y2
  exact concatenate_pair_apply_right (2 : Fin S4096x32x2.rank) y1 y2 _ (ix3 b k (1 : Fin 2)) rfl rfl (ix3 b k (0 : Fin 1))
    (fun a ha => by
      match a with
      | ⟨0, _⟩ => rfl
      | ⟨1, _⟩ => rfl
      | ⟨2, _⟩ => exact absurd rfl ha)
    rfl

/-- The row-index array at (b, k, 0) is the word b: the row iota is never negative, so the wrap keeps it. -/
theorem v14_word (b : Fin 4096) (k : Fin 32) :
    val_main_v14 (F := F) (ix3 b k (0 : Fin 1)) = BitVec.ofNat 32 b.val := by
  rw [val_main_v14_apply, val_main_v13_apply, val_main_v7_apply, val_main_v4_apply, val_main_v1_apply, val_main_v3_apply,
    val_main_v0_apply, val_main_c_apply]
  show Scalar.select (IntOp.cmpi .slt (BitVec.ofNat 32 b.val) 0#32) _ (BitVec.ofNat 32 b.val) = _
  rw [slt_zero_of_nonneg _ (by rw [toInt_ofNat_small _ (by have := b.isLt; omega)]; omega), select_zero]

/-- The column-index array at (b, k, 0) is the neighbour word at (b, k) when that word is not negative. -/
theorem v15_word (x0 : IVec S4096x32 32) (b : Fin 4096) (k : Fin 32) (h : 0 ≤ (x0 (ix2 b k)).toInt) :
    val_main_v15 (F := F) x0 (ix3 b k (0 : Fin 1)) = x0 (ix2 b k) := by
  have e : idx_main_v15 (ix3 b k (0 : Fin 1)) = ix2 b k := by
    funext a; match a with | ⟨0, _⟩ => rfl | ⟨1, _⟩ => rfl
  rw [val_main_v15_apply, e, val_main_v12_apply, val_main_v9_apply, val_main_v8_apply, val_main_c_1_apply,
    slt_zero_of_nonneg _ h, select_zero]

end Decode

/-! ## The scattered array is the mask -/

/-- Every update carries the real number one. -/
theorem v17_const (j : S4096x32.Idx) : val_main_v17 (F := Ideal) j = (1 : EReal) := by
  rw [val_main_v17_apply, val_main_cst_3_apply]
  exact Ideal.ofBits_one_f32

/-- The operand of the scatter is zero everywhere. -/
theorem v2_const (i : S4096x32768.Idx) : val_main_v2 (F := Ideal) i = (0 : EReal) := by
  rw [val_main_v2_apply, val_main_cst_apply]
  exact Ideal.ofBits_zero_f32

/-- Some update lands on (b, u) exactly when row b of the neighbour table names column u. -/
theorem lands_iff_hit (x0 : IVec S4096x32 32) (hn : InRange x0) (b : Fin 4096) (u : Fin 32768) :
    (∃ j : S4096x32.Idx, scatter_S4096x32768_S4096x32x2_S4096x32_n_01_01_2.resultIdx? j (val_main_v16 (F := Ideal) x0)
        = some (ix2 b u)) ↔ hit x0 b u := by
  constructor
  · rintro ⟨j, hj⟩
    obtain ⟨b', k, rfl⟩ : ∃ b' k, j = ix2 b' k := ⟨j 0, j 1, eq_ix2 j⟩
    rw [lands_iff, v16_at0, v16_at1, v14_word, v15_word x0 b' k (hn _).1] at hj
    obtain ⟨h0, h1⟩ := hj
    rw [toInt_ofNat_small _ (by have := b'.isLt; omega)] at h0
    have hb : b' = b := Fin.ext (by omega)
    subst hb
    exact ⟨k, eq_ofNat_of_toInt _ _ (by have := u.isLt; omega) h1⟩
  · rintro ⟨k, hk⟩
    refine ⟨ix2 b k, ?_⟩
    rw [lands_iff, v16_at0, v16_at1, v14_word, v15_word x0 b k (hn _).1]
    exact ⟨toInt_ofNat_small _ (by have := b.isLt; omega),
      by rw [hk]; exact toInt_ofNat_small _ (by have := u.isLt; omega)⟩

/-- The scattered array at (b, u) is the adjacency entry. -/
theorem v18_mask (x0 : IVec S4096x32 32) (hn : InRange x0) (b : Fin 4096) (u : Fin 32768) :
    val_main_v18 (F := Ideal) x0 (ix2 b u) = mask x0 b u := by
  classical
  unfold val_main_v18
  refine (scatter_set_const_apply _ _ _ _ (1 : EReal) v17_const (ix2 b u)).trans ?_
  unfold mask
  by_cases h : hit x0 b u
  · rw [if_pos h, if_pos ((lands_iff_hit x0 hn b u).2 h)]
  · rw [if_neg h, if_neg (fun h' => h ((lands_iff_hit x0 hn b u).1 h')), v2_const]

/-! ## The two counts -/

/-- The sum of the scattered array along a row is the row's count. -/
theorem v19_rowCount (x0 : IVec S4096x32 32) (hn : InRange x0) (b : Fin 4096) :
    val_main_v19 (F := Ideal) x0 (ix1 b) = rowCount x0 b := by
  rw [val_main_v19_apply, val_main_cst_4_apply]
  rw [show FloatOps.ofBits (F := Ideal) .f32 0x00000000#32 = (0 : EReal) from Ideal.ofBits_zero_f32, zero_add]
  unfold rowCount
  refine Finset.sum_congr rfl fun u _ => ?_
  have e : idx_main_v19 (ix1 b) u = ix2 b u := by
    funext a; match a with | ⟨0, _⟩ => rfl | ⟨1, _⟩ => rfl
  rw [e, v18_mask x0 hn]

/-- The sum of the scattered array along a column is the column's count. -/
theorem v22_colCount (x0 : IVec S4096x32 32) (hn : InRange x0) (u : Fin 32768) :
    val_main_v22 (F := Ideal) x0 (ix1 u) = colCount x0 u := by
  rw [val_main_v22_apply, val_main_cst_5_apply]
  rw [show FloatOps.ofBits (F := Ideal) .f32 0x00000000#32 = (0 : EReal) from Ideal.ofBits_zero_f32, zero_add]
  unfold colCount
  refine Finset.sum_congr rfl fun b _ => ?_
  have e : idx_main_v22 (ix1 u) b = ix2 b u := by
    funext a; match a with | ⟨0, _⟩ => rfl | ⟨1, _⟩ => rfl
  rw [e, v18_mask x0 hn]

/-! ## The normalised entry and the result -/

/-- The left factor of the contraction at (b, u): the adjacency entry over the row normaliser, over the column normaliser. -/
theorem v30_entry (x0 : IVec S4096x32 32) (hn : InRange x0) (b : Fin 4096) (u : Fin 32768) :
    val_main_v30 (F := Ideal) x0 (ix2 b u) = Ideal.div (Ideal.div (mask x0 b u) (rowDen x0 b)) (colDen x0 u) := by
  have e1 : idx_main_v20 (idx_main_v25 (ix2 b u)) = ix1 b := by
    funext a; match a with | ⟨0, _⟩ => rfl
  have e2 : idx_main_v23 (idx_main_v29 (ix2 b u)) = ix1 u := by
    funext a; match a with | ⟨0, _⟩ => rfl
  rw [val_main_v30_apply, val_main_v26_apply, val_main_v25_apply, val_main_v21_apply, val_main_v20_apply, e1,
    val_main_v29_apply, val_main_v28_apply, val_main_v24_apply, val_main_v23_apply, e2, val_main_v27_apply,
    val_main_cst_6_apply, v18_mask x0 hn, v19_rowCount x0 hn, v22_colCount x0 hn]
  simp only [Ideal.hostDivf_def, Ideal.hostUnary_sqrt_def, Ideal.maximumf_def, Ideal.ofBits_def, Ideal.ofBits_one_f32]
  rfl

/-- With every neighbour entry a column index, the reference's result at (b, d) is `aggEarly` of the
    neighbour table and the gathered embedding rows (the reference's own gather stage `val_main_v37`). -/
theorem ref_value (x0 : IVec S4096x32 32) (x1 : IVec S32768 32) (x2 : FVec Ideal S100000x128 .f32)
    (hn : InRange x0) (b : Fin 4096) (d : Fin 128) :
    val_main_v38 (F := Ideal) x0 x1 x2 (ix2 b d) = aggEarly x0 (val_main_v37 (F := Ideal) x1 x2) b d := by
  rw [val_main_v38_apply]
  unfold aggEarly
  refine Finset.sum_congr rfl fun u _ => ?_
  have el : lidx_main_v38 (ix2 b d) u = ix2 b u := by
    funext a; match a with | ⟨0, _⟩ => rfl | ⟨1, _⟩ => rfl
  have er : ridx_main_v38 (ix2 b d) u = ix2 u d := by
    funext a; match a with | ⟨0, _⟩ => rfl | ⟨1, _⟩ => rfl
  rw [el, er, v30_entry x0 hn]

end Cert.ReferenceIdeal.RefValue

end
-- ==== Proof.PreFacts.lean ====
/-
  What the precondition says of the arrays: every neighbour entry is a column index, every embedding entry a real number;
  and the gathered embedding rows are then real numbers too.
-/
import proofs.«426239_j15745350107506_3_alg».proof.Proof.RefRead
import proofs.«426239_j15745350107506_3_alg».proof.Proof.Gen.Pre_finite_inputs
import proofs.«426239_j15745350107506_3_alg».proof.Proof.Spec
import Idealize.ShloMosaic.Lib.ReduceAll

noncomputable section

namespace Cert.PreFacts

open Idealize.ShloMosaic Idealize.ShloMosaic.ValueIdx Cert.AggSpec

variable [Cert.Pre_finite_inputs.Facts]

/-- The scalar shape has exactly one index. -/
instance : Subsingleton Cert.Pre_finite_inputs.S_.Idx := ⟨fun _ _ => funext fun d => d.elim0⟩

/-- An extended real whose absolute value lies strictly below `+∞` is a real number. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- A truth value printed as a one-bit word is 1 exactly when it is true. -/
theorem ofBool_eq_one (b : Bool) : BitVec.ofBool b = 1#1 ↔ b = true := by cases b <;> decide

/-- The word `0x7F800000` denotes `+∞` in single precision. -/
theorem ofBits_inf : Ideal.ofBits .f32 0x7F800000#32 = (⊤ : EReal) := by
  simp [Ideal.ofBits, Ideal.ieee]

/-- The precondition, split into its two `all`s, each read at every element. -/
theorem pre_split (x0 : IVec Cert.Pre_finite_inputs.S4096x32 32) (x1 : IVec Cert.Pre_finite_inputs.S32768 32)
    (x2 : FVec Ideal Cert.Pre_finite_inputs.S100000x128 .f32)
    (h : Cert.Pre_finite_inputs.fn (F := Ideal) x0 x1 x2 = fun _ => 1#1) :
    (∀ j : Cert.Pre_finite_inputs.S100000x128.Idx, Ideal.cmp .olt (max (x2 j) (-(x2 j))) (Ideal.ofBits .f32 0x7F800000#32) = 1#1) ∧
    (∀ j : Cert.Pre_finite_inputs.S4096x32.Idx, IntOp.cmpi .sge (x0 j) 0#32 = 1#1 ∧ IntOp.cmpi .slt (x0 j) 32768#32 = 1#1) := by
  have e := congrFun h ValueIdx.ix0
  unfold Cert.Pre_finite_inputs.fn at e
  dsimp only at e
  obtain ⟨e1, e2⟩ := IntOp.andi_eq_one.1 e
  refine ⟨fun j => ?_, fun j => ?_⟩
  · exact Host.reduce_andi_all _ _ _ _ _ e1 j
  · exact IntOp.andi_eq_one.1 (Host.reduce_andi_all _ _ _ _ _ e2 j)

/-- The precondition's second conjunct, decoded: `0 ≤ n[b,k] < 32768`, signed. -/
theorem inRange_of_pre (x0 : IVec Cert.Pre_finite_inputs.S4096x32 32) (x1 : IVec Cert.Pre_finite_inputs.S32768 32)
    (x2 : FVec Ideal Cert.Pre_finite_inputs.S100000x128 .f32)
    (h : Cert.Pre_finite_inputs.fn (F := Ideal) x0 x1 x2 = fun _ => 1#1) : InRange x0 := by
  intro j
  obtain ⟨hge, hlt⟩ := (pre_split x0 x1 x2 h).2 j
  have h0 := IntOp.cmpi_sge.1 hge
  have h1 := IntOp.cmpi_slt.1 hlt
  have z0 : (0#32 : BitVec 32).toInt = 0 := by decide
  have z1 : (32768#32 : BitVec 32).toInt = 32768 := by decide
  rw [z0] at h0
  rw [z1] at h1
  exact ⟨h0, h1⟩

/-- The precondition's first conjunct, decoded: every table entry is a real number. -/
theorem table_finite_of_pre (x0 : IVec Cert.Pre_finite_inputs.S4096x32 32) (x1 : IVec Cert.Pre_finite_inputs.S32768 32)
    (x2 : FVec Ideal Cert.Pre_finite_inputs.S100000x128 .f32)
    (h : Cert.Pre_finite_inputs.fn (F := Ideal) x0 x1 x2 = fun _ => 1#1) :
    ∀ j : Cert.Pre_finite_inputs.S100000x128.Idx, ∃ r : ℝ, x2 j = (r : EReal) := by
  intro j
  have hj := (pre_split x0 x1 x2 h).1 j
  rw [ofBits_inf] at hj
  simp only [Ideal.cmp] at hj
  rw [ofBool_eq_one, decide_eq_true_eq] at hj
  exact real_of_abs_lt_top _ hj

/-- A gather of rows of a table of real numbers is an array of real numbers. -/
theorem rows_finite [Cert.ReferenceIdeal.Facts] (x1 : IVec Cert.ReferenceIdeal.S32768 32) (x2 : FVec Ideal Cert.ReferenceIdeal.S100000x128 .f32)
    (h2 : ∀ j : Cert.ReferenceIdeal.S100000x128.Idx, ∃ r : ℝ, x2 j = (r : EReal)) :
    Finite (Cert.ReferenceIdeal.Read.val_main_v37 (F := Ideal) x1 x2) := by
  intro j
  -- a gathered entry is the table's entry at the operand index the gather names
  unfold Cert.ReferenceIdeal.Read.val_main_v37 Host.gather
  exact h2 _

end Cert.PreFacts

end
-- ==== Proof.lean ====
/-
  The claims of the dense-adjacency aggregation kernel against its jnp reference.

  Both programs gather the same embedding rows E on the host.  The reference scatters the 32 neighbour columns of
  each of the 4096 rows into a dense 0/1 mask, divides every entry by the square root of its row's count and then by
  the square root of its column's count floored at 1, and multiplies by E.  The kernel first computes the column
  normaliser, 128 columns per grid point, by counting in eight chunks of rows; then, per block of 256 rows, it adds
  over 32 tiles of 1024 columns the products (mask / column normaliser) · E into an accumulator beside the rows'
  counts, and after the last tile divides the accumulator by the square root of the counts.

  Where every neighbour entry is a column index and the table is finite, each row names at least one column, every
  quantity is a real number and the quotient by a positive row norm distributes over the finite sum over columns:
  the two arrangements agree entry by entry.  Outside the index range the reference wraps a negative entry
  (the kernel does not), and a row naming no column divides zero by zero on both sides with different results, so the
  range is part of the precondition.

  The frames: the word-level and the idealized kernel programs run their host stretch and two kernel regions, every
  grid point's body through its counted loop by the loop's invariant, the second region carrying its two
  accumulators between points; the reference is a straight line of host operations.  The idealization rewrote
  nothing, so it preserves the kernel trivially.
-/
import proofs.«426239_j15745350107506_3_alg».proof.Defs
import proofs.«426239_j15745350107506_3_alg».proof.Proof.Gen.Kernel
import proofs.«426239_j15745350107506_3_alg».proof.Proof.Gen.KernelIdeal
import proofs.«426239_j15745350107506_3_alg».proof.Proof.Gen.ReferenceIdeal
import proofs.«426239_j15745350107506_3_alg».proof.Proof.Gen.Pre_finite_inputs
import proofs.«426239_j15745350107506_3_alg».proof.Proof.K.Segs
import proofs.«426239_j15745350107506_3_alg».proof.Proof.KI.Main
import proofs.«426239_j15745350107506_3_alg».proof.Proof.Algebra
import proofs.«426239_j15745350107506_3_alg».proof.Proof.RefValue
import proofs.«426239_j15745350107506_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.Hand.frame (F := Bits) m ρ

/-- So does the idealized one. -/
theorem frame_kernelIdeal : Cert.frame_KernelIdeal := fun m ρ _ => Cert.KernelIdeal.Hand.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance, from memories agreeing on the arguments, both programs end with the same result: the
    kernel's array is the aggregation with the quotient by the row norm taken last, the reference's the one with every
    mask entry normalised first, of the same neighbour table and the same gathered rows; in range and finite, they
    are equal. -/
theorem algebraic : Cert.algebraic_KernelIdeal_ReferenceIdeal := by
  intro m ρ m' ρ' hpre hagree
  refine ⟨fun c => Cert.KernelIdeal.Gen.V3 m (Cert.KernelIdeal.Hand.outs m) c Cert.KernelIdeal.main_v9,
    Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq m' c, (hagree c).1, (hagree c).2.1, (hagree c).2.2]
  have hn := Cert.PreFacts.inRange_of_pre _ _ _ (hpre c)
  have hE := Cert.PreFacts.rows_finite
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (Cert.PreFacts.table_finite_of_pre _ _ _ (hpre c))
  funext j
  obtain ⟨b, d, rfl⟩ : ∃ (b : Fin 4096) (d : Fin 128), j = ix2 b d := ⟨j 0, j 1, eq_ix2 j⟩
  exact ((Cert.ReferenceIdeal.RefValue.ref_value _ _ _ hn b d).trans
    (Cert.AggSpec.aggEarly_eq_aggLate _ _ hn hE b d)).trans (Cert.KernelIdeal.Hand.result_value m c b d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
